-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S4096x11008 : Shape := ⟨2, ![4096, 11008]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg4 : FVec F S11008 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S4096x4096 .f32) (main_arg1 : FVec F S11008x4096 .f32) (main_arg2 : FVec F S11008x4096 .f32) (main_arg3 : FVec F S4096x11008 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_v13 main_v16
-- ==== Kernel.lean ====
abbrev S4096x4096 : Shape := ⟨2, ![4096, 4096]⟩
abbrev S11008x4096 : Shape := ⟨2, ![11008, 4096]⟩
abbrev S4096x11008 : Shape := ⟨2, ![4096, 11008]⟩
abbrev S11008 : Shape := ⟨1, ![11008]⟩
abbrev S_ : Shape := ⟨0, ![]⟩
abbrev S256x4096 : Shape := ⟨2, ![256, 4096]⟩
abbrev S256 : Shape := ⟨1, ![256]⟩
abbrev S256x1 : Shape := ⟨2, ![256, 1]⟩
abbrev S1024x4096 : Shape := ⟨2, ![1024, 4096]⟩
abbrev S1024x256 : Shape := ⟨2, ![1024, 256]⟩
abbrev S128x11008 : Shape := ⟨2, ![128, 11008]⟩
abbrev S128 : Shape := ⟨1, ![128]⟩
abbrev S128x1 : Shape := ⟨2, ![128, 1]⟩
abbrev S1x11008 : Shape := ⟨2, ![1, 11008]⟩
abbrev S512x11008 : Shape := ⟨2, ![512, 11008]⟩
abbrev S256x11008 : Shape := ⟨2, ![256, 11008]⟩
abbrev S512x256 : Shape := ⟨2, ![512, 256]⟩

abbrev nBuf : Space → Nat
  | .hbm => 81
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S11008, .f32⟩
  | .hbm, ⟨5, _⟩ => ⟨S11008x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S11008x4096, .f32⟩
  | .hbm, ⟨16, _⟩ => ⟨S11008x4096, .f32⟩
  | .hbm, ⟨17, _⟩ => ⟨S11008x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S11008x4096, .f32⟩
  | .hbm, ⟨22, _⟩ => ⟨S11008x4096, .f32⟩
  | .hbm, ⟨23, _⟩ => ⟨S_, .f32⟩
  | .hbm, ⟨24, _⟩ => ⟨S11008x4096, .f32⟩
  | .hbm, ⟨25, _⟩ => ⟨S11008x4096, .f32⟩
  | .hbm, ⟨26, _⟩ => ⟨S11008x4096, .f32⟩
  | .hbm, ⟨27, _⟩ => ⟨S11008x4096, .f32⟩
  | .hbm, ⟨28, _⟩ => ⟨S11008x4096, .bf16⟩
  | .hbm, ⟨29, _⟩ => ⟨S11008x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S11008x4096, .f32⟩
  | .hbm, ⟨40, _⟩ => ⟨S11008x4096, .f32⟩
  | .hbm, ⟨41, _⟩ => ⟨S11008x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S11008x4096, .f32⟩
  | .hbm, ⟨46, _⟩ => ⟨S11008x4096, .f32⟩
  | .hbm, ⟨47, _⟩ => ⟨S_, .f32⟩
  | .hbm, ⟨48, _⟩ => ⟨S11008x4096, .f32⟩
  | .hbm, ⟨49, _⟩ => ⟨S11008x4096, .f32⟩
  | .hbm, ⟨50, _⟩ => ⟨S11008x4096, .f32⟩
  | .hbm, ⟨51, _⟩ => ⟨S11008x4096, .f32⟩
  | .hbm, ⟨52, _⟩ => ⟨S11008x4096, .bf16⟩
  | .hbm, ⟨53, _⟩ => ⟨S4096x11008, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096x11008, .f32⟩
  | .hbm, ⟨64, _⟩ => ⟨S4096x11008, .f32⟩
  | .hbm, ⟨65, _⟩ => ⟨S4096x11008, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4096x11008, .f32⟩
  | .hbm, ⟨70, _⟩ => ⟨S4096x11008, .f32⟩
  | .hbm, ⟨71, _⟩ => ⟨S_, .f32⟩
  | .hbm, ⟨72, _⟩ => ⟨S4096x11008, .f32⟩
  | .hbm, ⟨73, _⟩ => ⟨S4096x11008, .f32⟩
  | .hbm, ⟨74, _⟩ => ⟨S4096x11008, .f32⟩
  | .hbm, ⟨75, _⟩ => ⟨S4096x11008, .f32⟩
  | .hbm, ⟨76, _⟩ => ⟨S4096x11008, .bf16⟩
  | .hbm, ⟨77, _⟩ => ⟨S4096x4096, .bf16⟩
  | .hbm, ⟨78, _⟩ => ⟨S4096x11008, .bf16⟩
  | .hbm, ⟨79, _⟩ => ⟨S4096x11008, .bf16⟩
  | .hbm, ⟨80, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x4096, .bf16⟩
  | .local _ .vmem, ⟨5, _⟩ => ⟨S1024x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S1024x256, .bf16⟩
  | .local _ .vmem, ⟨11, _⟩ => ⟨S1024x256, .bf16⟩
  | .local _ .vmem, ⟨12, _⟩ => ⟨S128x11008, .bf16⟩
  | .local _ .vmem, ⟨13, _⟩ => ⟨S128x11008, .bf16⟩
  | .local _ .vmem, ⟨14, _⟩ => ⟨S11008, .f32⟩
  | .local _ .vmem, ⟨15, _⟩ => ⟨S128x11008, .bf16⟩
  | .local _ .vmem, ⟨16, _⟩ => ⟨S128x11008, .bf16⟩
  | .local _ .vmem, ⟨17, _⟩ => ⟨S512x11008, .bf16⟩
  | .local _ .vmem, ⟨18, _⟩ => ⟨S512x11008, .bf16⟩
  | .local _ .vmem, ⟨19, _⟩ => ⟨S256x11008, .bf16⟩
  | .local _ .vmem, ⟨20, _⟩ => ⟨S256x11008, .bf16⟩
  | .local _ .vmem, ⟨21, _⟩ => ⟨S512x256, .f32⟩
  | .local _ .vmem, ⟨22, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_call0_v0 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_cst_7 : Ref sig .tc := ⟨.hbm, 34, rfl⟩
abbrev main_call3_v0 : Ref sig .tc := ⟨.hbm, 35, rfl⟩
abbrev main_v15 : Ref sig .tc := ⟨.hbm, 36, rfl⟩
abbrev main_cst_8 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_9 : Ref sig .tc := ⟨.hbm, 42, rfl⟩
abbrev main_cst_10 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_11 : Ref sig .tc := ⟨.hbm, 54, rfl⟩
abbrev main_v25 : Ref sig .tc := ⟨.hbm, 55, rfl⟩
abbrev main_cst_12 : Ref sig .tc := ⟨.hbm, 56, rfl⟩
abbrev main_v26 : Ref sig .tc := ⟨.hbm, 57, rfl⟩
abbrev main_cst_13 : Ref sig .tc := ⟨.hbm, 58, rfl⟩
abbrev main_call6_v0 : Ref sig .tc := ⟨.hbm, 59, rfl⟩
abbrev main_v27 : Ref sig .tc := ⟨.hbm, 60, rfl⟩
abbrev main_cst_14 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_15 : Ref sig .tc := ⟨.hbm, 66, rfl⟩
abbrev main_cst_16 : Ref sig .tc := ⟨.hbm, 67, rfl⟩
abbrev main_call8_v0 : Ref sig .tc := ⟨.hbm, 68, rfl⟩
abbrev main_call8_v1 : Ref sig .tc := ⟨.hbm, 69, rfl⟩
abbrev main_call8_v2 : Ref sig .tc := ⟨.hbm, 70, rfl⟩
abbrev main_call8_v3 : Ref sig .tc := ⟨.hbm, 71, rfl⟩
abbrev main_call8_v4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x11008 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S11008 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x11008 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x11008 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x11008 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  reducesTo_S11008x4096_S_d0_1 : S11008x4096.ReducesTo [0, 1] S_
  h_S_ : 0 < S_.numel
  bcast_S_S11008x4096 : S_.BroadcastsInDim S11008x4096 (![] : Fin 0 → Fin S11008x4096.rank)
  bitsLt_bf16_f32 : FTy.bits .bf16 < FTy.bits .f32
  reducesTo_S4096x11008_S_d0_1 : S4096x11008.ReducesTo [0, 1] S_
  bcast_S_S4096x11008 : S_.BroadcastsInDim S4096x11008 (![] : Fin 0 → Fin S4096x11008.rank)
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  packedbf16_S256x4096_S256x4096_0_0 : (Rect.unit (s := S256x4096) ![0, 0] S256x4096.size inb_S256x4096_S256x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S256x4096_S256x4096 : S256x4096.ShapeCasts S256x4096
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S128x11008_S128x11008_0_0 : ∀ a, (![0, 0] : Fin 2 → Nat) a + S128x11008.size a ≤ S128x11008.size a
  h_S128x11008 : 0 < S128x11008.numel
  shapeCasts_S128x11008_S128x11008 : S128x11008.ShapeCasts S128x11008
  reduces_S128x11008_S128 : S128x11008.Reduces [1] S128
  shapeCasts_S128_S128x1 : S128.ShapeCasts S128x1
  inb_S11008_S11008_0 : ∀ a, (![0] : Fin 1 → Nat) a + S11008.size a ≤ S11008.size a
  h_S11008 : 0 < S11008.numel
  broadcasts_S128x1_S128x11008 : S128x1.Broadcasts S128x11008
  shapeCasts_S11008_S1x11008 : S11008.ShapeCasts S1x11008
  broadcasts_S1x11008_S128x11008 : S1x11008.Broadcasts S128x11008
  packedbf16_S128x11008_S128x11008_0_0 : (Rect.unit (s := S128x11008) ![0, 0] S128x11008.size inb_S128x11008_S128x11008_0_0).PackedRows (EltTy.packing .bf16)
  inb_S512x11008_S512x11008_0_0 : ∀ a, (![0, 0] : Fin 2 → Nat) a + S512x11008.size a ≤ S512x11008.size a
  h_S512x11008 : 0 < S512x11008.numel
  shapeCasts_S512x11008_S512x11008 : S512x11008.ShapeCasts S512x11008
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S512x256_S512x256_0_0 : ∀ a, (![0, 0] : Fin 2 → Nat) a + S512x256.size a ≤ S512x256.size a
  h_S512x256 : 0 < S512x256.numel
  dot_S1024x4096_S256x4096_S1024x256_1_1_0_0_n_n_wf : DotDims.WF S1024x4096 S256x4096 S1024x256 [1] [1] [0] [0] [] []
  dot_S512x11008_S256x11008_S512x256_1_1_0_0_n_n_wf : DotDims.WF S512x11008 S256x11008 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S11008x4096.size a
  hwx1_2 : ∀ i : grid1.Coords, EltTy.bits .bf16 = 32 ∨ (Rect.block (s := S11008x4096) S256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x11008.size a
  hwx1_3 : ∀ i : grid1.Coords, EltTy.bits .bf16 = 32 ∨ (Rect.block (s := S4096x11008) S1024x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x11008.size a ≤ S4096x11008.size a
  hwx2_0 : ∀ i : grid2.Coords, EltTy.bits .bf16 = 32 ∨ (Rect.block (s := S4096x11008) S128x11008.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S11008.size a ≤ S11008.size a
  hwx2_1 : ∀ i : grid2.Coords, EltTy.bits .f32 = 32 ∨ (Rect.block (s := S11008) S11008.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x11008.size a ≤ S4096x11008.size a
  hwx2_2 : ∀ i : grid2.Coords, EltTy.bits .bf16 = 32 ∨ (Rect.block (s := S4096x11008) S128x11008.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x11008.size a ≤ S4096x11008.size a
  hwx3_0 : ∀ i : grid3.Coords, EltTy.bits .bf16 = 32 ∨ (Rect.block (s := S4096x11008) S512x11008.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x11008.size a ≤ S4096x11008.size a
  hwx3_1 : ∀ i : grid3.Coords, EltTy.bits .bf16 = 32 ∨ (Rect.block (s := S4096x11008) S256x11008.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S4096x4096.size a
  hwx3_2 : ∀ i : grid3.Coords, EltTy.bits .f32 = 32 ∨ (Rect.block (s := S4096x4096) S512x256.size (cc3_transform_2 i) (hinb3_2 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S512x11008_S256x11008_S512x256_1_1_0_0_n_n : DotDims S512x11008 S256x11008 S512x256 where
  lhsContracting := [1]
  rhsContracting := [1]
  lhsNonContracting := [0]
  rhsNonContracting := [0]
  lhsBatch := []
  rhsBatch := []
  wf := dot_S512x11008_S256x11008_S512x256_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v36) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S128x11008.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S11008.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x11008.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S512x11008.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S256x11008.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S512x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x4096 : Shape := ⟨2, ![4096, 4096]⟩
abbrev S11008x4096 : Shape := ⟨2, ![11008, 4096]⟩
abbrev S4096x11008 : Shape := ⟨2, ![4096, 11008]⟩
abbrev S11008 : Shape := ⟨1, ![11008]⟩
abbrev S_ : Shape := ⟨0, ![]⟩
abbrev S4096 : Shape := ⟨1, ![4096]⟩
abbrev S4096x1 : Shape := ⟨2, ![4096, 1]⟩
abbrev S1x11008 : Shape := ⟨2, ![1, 11008]⟩

abbrev nBuf : Space → Nat
  | .hbm => 178
  | .vmem => 0
  | .smem => 0
  | _ => 0

abbrev hbmTy0_0 (i : Nat) : BufTy := match i % 128 with
  | 0 => ⟨S4096x4096, .f32⟩
  | 1 => ⟨S11008x4096, .f32⟩
  | 2 => ⟨S11008x4096, .f32⟩
  | 3 => ⟨S4096x11008, .f32⟩
  | 4 => ⟨S11008, .f32⟩
  | 5 => ⟨S4096x4096, .f32⟩
  | 6 => ⟨S_, .f32⟩
  | 7 => ⟨S4096, .f32⟩
  | 8 => ⟨S4096x1, .f32⟩
  | 9 => ⟨S_, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x4096, .f32⟩
  | 17 => ⟨S4096x4096, .f32⟩
  | 18 => ⟨S4096x4096, .f32⟩
  | 19 => ⟨S_, .i32⟩
  | 20 => ⟨S_, .i32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S4096x4096, .f32⟩
  | 29 => ⟨S11008x4096, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S11008x4096, .f32⟩
  | 40 => ⟨S11008x4096, .f32⟩
  | 41 => ⟨S11008x4096, .f32⟩
  | 42 => ⟨S_, .f32⟩
  | 43 => ⟨S_, .f32⟩
  | 44 => ⟨S_, .f32⟩
  | 45 => ⟨S11008x4096, .f32⟩
  | 46 => ⟨S11008x4096, .f32⟩
  | 47 => ⟨S_, .f32⟩
  | 48 => ⟨S11008x4096, .f32⟩
  | 49 => ⟨S11008x4096, .f32⟩
  | 50 => ⟨S11008x4096, .f32⟩
  | 51 => ⟨S11008x4096, .f32⟩
  | 52 => ⟨S4096x11008, .f32⟩
  | 53 => ⟨S4096x11008, .f32⟩
  | 54 => ⟨S4096x11008, .f32⟩
  | 55 => ⟨S4096x11008, .f32⟩
  | 56 => ⟨S_, .f32⟩
  | 57 => ⟨S4096x11008, .f32⟩
  | 58 => ⟨S4096x11008, .f32⟩
  | 59 => ⟨S_, .f32⟩
  | 60 => ⟨S4096x11008, .f32⟩
  | 61 => ⟨S4096x11008, .f32⟩
  | 62 => ⟨S4096x11008, .f32⟩
  | 63 => ⟨S4096x4096, .f32⟩
  | 64 => ⟨S_, .f32⟩
  | 65 => ⟨S4096, .f32⟩
  | 66 => ⟨S4096x1, .f32⟩
  | 67 => ⟨S_, .f32⟩
  | 68 => ⟨S_, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x4096, .f32⟩
  | 75 => ⟨S4096x4096, .f32⟩
  | 76 => ⟨S4096x4096, .f32⟩
  | 77 => ⟨S_, .i32⟩
  | 78 => ⟨S_, .i32⟩
  | 79 => ⟨S_, .f32⟩
  | 80 => ⟨S4096x4096, .f32⟩
  | 81 => ⟨S4096x4096, .f32⟩
  | 82 => ⟨S_, .f32⟩
  | 83 => ⟨S4096x4096, .f32⟩
  | 84 => ⟨S4096x4096, .f32⟩
  | 85 => ⟨S4096x4096, .f32⟩
  | 86 => ⟨S4096x4096, .f32⟩
  | 87 => ⟨S11008x4096, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S11008x4096, .f32⟩
  | 98 => ⟨S11008x4096, .f32⟩
  | 99 => ⟨S11008x4096, .f32⟩
  | 100 => ⟨S_, .f32⟩
  | 101 => ⟨S_, .f32⟩
  | 102 => ⟨S_, .f32⟩
  | 103 => ⟨S11008x4096, .f32⟩
  | 104 => ⟨S11008x4096, .f32⟩
  | 105 => ⟨S_, .f32⟩
  | 106 => ⟨S11008x4096, .f32⟩
  | 107 => ⟨S11008x4096, .f32⟩
  | 108 => ⟨S11008x4096, .f32⟩
  | 109 => ⟨S11008x4096, .f32⟩
  | 110 => ⟨S4096x11008, .f32⟩
  | 111 => ⟨S4096x11008, .f32⟩
  | 112 => ⟨S4096x11008, .f32⟩
  | 113 => ⟨S4096x11008, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S4096x1, .f32⟩
  | 124 => ⟨S4096x11008, .f32⟩
  | 125 => ⟨S4096x11008, .f32⟩
  | 126 => ⟨S1x11008, .f32⟩
  | 127 => ⟨S4096x11008, .f32⟩
  | _ => ⟨S4096x4096, .f32⟩

abbrev hbmTy0_1 (i : Nat) : BufTy := match i % 128 with
  | 0 => ⟨S4096x11008, .f32⟩
  | 1 => ⟨S4096x11008, .f32⟩
  | 2 => ⟨S_, .f32⟩
  | 3 => ⟨S4096, .f32⟩
  | 4 => ⟨S4096x1, .f32⟩
  | 5 => ⟨S_, .f32⟩
  | 6 => ⟨S_, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x11008, .f32⟩
  | 13 => ⟨S4096x11008, .f32⟩
  | 14 => ⟨S4096x11008, .f32⟩
  | 15 => ⟨S_, .i32⟩
  | 16 => ⟨S_, .i32⟩
  | 17 => ⟨S_, .f32⟩
  | 18 => ⟨S4096x11008, .f32⟩
  | 19 => ⟨S4096x11008, .f32⟩
  | 20 => ⟨S_, .f32⟩
  | 21 => ⟨S4096x11008, .f32⟩
  | 22 => ⟨S4096x11008, .f32⟩
  | 23 => ⟨S4096x11008, .f32⟩
  | 24 => ⟨S4096x11008, .f32⟩
  | 25 => ⟨S4096x11008, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4096x11008, .f32⟩
  | 36 => ⟨S4096x11008, .f32⟩
  | 37 => ⟨S4096x11008, .f32⟩
  | 38 => ⟨S_, .f32⟩
  | 39 => ⟨S_, .f32⟩
  | 40 => ⟨S_, .f32⟩
  | 41 => ⟨S4096x11008, .f32⟩
  | 42 => ⟨S4096x11008, .f32⟩
  | 43 => ⟨S_, .f32⟩
  | 44 => ⟨S4096x11008, .f32⟩
  | 45 => ⟨S4096x11008, .f32⟩
  | 46 => ⟨S4096x11008, .f32⟩
  | 47 => ⟨S4096x11008, .f32⟩
  | 48 => ⟨S11008x4096, .f32⟩
  | 49 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_c_2 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_cst_5 : Ref sig .tc := ⟨.hbm, 34, rfl⟩
abbrev main_call3_v0 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_cst_8 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_call6_v0 : Ref sig .tc := ⟨.hbm, 54, rfl⟩
abbrev main_call6_v1 : Ref sig .tc := ⟨.hbm, 55, rfl⟩
abbrev main_call6_cst : Ref sig .tc := ⟨.hbm, 56, rfl⟩
abbrev main_call6_v2 : Ref sig .tc := ⟨.hbm, 57, rfl⟩
abbrev main_call6_v3 : Ref sig .tc := ⟨.hbm, 58, rfl⟩
abbrev main_call6_cst_0 : Ref sig .tc := ⟨.hbm, 59, rfl⟩
abbrev main_call6_v4 : Ref sig .tc := ⟨.hbm, 60, rfl⟩
abbrev main_call6_v5 : Ref sig .tc := ⟨.hbm, 61, rfl⟩
abbrev main_v25 : Ref sig .tc := ⟨.hbm, 62, rfl⟩
abbrev main_v26 : Ref sig .tc := ⟨.hbm, 63, rfl⟩
abbrev main_cst_9 : Ref sig .tc := ⟨.hbm, 64, rfl⟩
abbrev main_v27 : Ref sig .tc := ⟨.hbm, 65, rfl⟩
abbrev main_v28 : Ref sig .tc := ⟨.hbm, 66, rfl⟩
abbrev main_cst_10 : Ref sig .tc := ⟨.hbm, 67, rfl⟩
abbrev main_call7_v0 : Ref sig .tc := ⟨.hbm, 68, rfl⟩
abbrev main_call7_v1 : Ref sig .tc := ⟨.hbm, 69, rfl⟩
abbrev main_v29 : Ref sig .tc := ⟨.hbm, 70, rfl⟩
abbrev main_cst_11 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_c_12 : Ref sig .tc := ⟨.hbm, 77, rfl⟩
abbrev main_c_13 : Ref sig .tc := ⟨.hbm, 78, rfl⟩
abbrev main_call9_v0 : Ref sig .tc := ⟨.hbm, 79, rfl⟩
abbrev main_call9_v1 : Ref sig .tc := ⟨.hbm, 80, rfl⟩
abbrev main_call9_v2 : Ref sig .tc := ⟨.hbm, 81, rfl⟩
abbrev main_call9_v3 : Ref sig .tc := ⟨.hbm, 82, rfl⟩
abbrev main_call9_v4 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_14 : Ref sig .tc := ⟨.hbm, 88, rfl⟩
abbrev main_v39 : Ref sig .tc := ⟨.hbm, 89, rfl⟩
abbrev main_cst_15 : Ref sig .tc := ⟨.hbm, 90, rfl⟩
abbrev main_v40 : Ref sig .tc := ⟨.hbm, 91, rfl⟩
abbrev main_cst_16 : Ref sig .tc := ⟨.hbm, 92, rfl⟩
abbrev main_call10_v0 : Ref sig .tc := ⟨.hbm, 93, rfl⟩
abbrev main_v41 : Ref sig .tc := ⟨.hbm, 94, rfl⟩
abbrev main_cst_17 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_18 : Ref sig .tc := ⟨.hbm, 100, rfl⟩
abbrev main_cst_19 : Ref sig .tc := ⟨.hbm, 101, rfl⟩
abbrev main_call12_v0 : Ref sig .tc := ⟨.hbm, 102, rfl⟩
abbrev main_call12_v1 : Ref sig .tc := ⟨.hbm, 103, rfl⟩
abbrev main_call12_v2 : Ref sig .tc := ⟨.hbm, 104, rfl⟩
abbrev main_call12_v3 : Ref sig .tc := ⟨.hbm, 105, rfl⟩
abbrev main_call12_v4 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_20 : Ref sig .tc := ⟨.hbm, 114, rfl⟩
abbrev main_v53 : Ref sig .tc := ⟨.hbm, 115, rfl⟩
abbrev main_v54 : Ref sig .tc := ⟨.hbm, 116, rfl⟩
abbrev main_cst_21 : Ref sig .tc := ⟨.hbm, 117, rfl⟩
abbrev main_v55 : Ref sig .tc := ⟨.hbm, 118, rfl⟩
abbrev main_v56 : Ref sig .tc := ⟨.hbm, 119, rfl⟩
abbrev main_cst_22 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_23 : Ref sig .tc := ⟨.hbm, 130, rfl⟩
abbrev main_v66 : Ref sig .tc := ⟨.hbm, 131, rfl⟩
abbrev main_v67 : Ref sig .tc := ⟨.hbm, 132, rfl⟩
abbrev main_cst_24 : Ref sig .tc := ⟨.hbm, 133, rfl⟩
abbrev main_call13_v0 : Ref sig .tc := ⟨.hbm, 134, rfl⟩
abbrev main_call13_v1 : Ref sig .tc := ⟨.hbm, 135, rfl⟩
abbrev main_v68 : Ref sig .tc := ⟨.hbm, 136, rfl⟩
abbrev main_cst_25 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_c_26 : Ref sig .tc := ⟨.hbm, 143, rfl⟩
abbrev main_c_27 : Ref sig .tc := ⟨.hbm, 144, rfl⟩
abbrev main_call15_v0 : Ref sig .tc := ⟨.hbm, 145, rfl⟩
abbrev main_call15_v1 : Ref sig .tc := ⟨.hbm, 146, rfl⟩
abbrev main_call15_v2 : Ref sig .tc := ⟨.hbm, 147, rfl⟩
abbrev main_call15_v3 : Ref sig .tc := ⟨.hbm, 148, rfl⟩
abbrev main_call15_v4 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_cst_28 : Ref sig .tc := ⟨.hbm, 154, rfl⟩
abbrev main_v78 : Ref sig .tc := ⟨.hbm, 155, rfl⟩
abbrev main_cst_29 : Ref sig .tc := ⟨.hbm, 156, rfl⟩
abbrev main_v79 : Ref sig .tc := ⟨.hbm, 157, rfl⟩
abbrev main_cst_30 : Ref sig .tc := ⟨.hbm, 158, rfl⟩
abbrev main_call16_v0 : Ref sig .tc := ⟨.hbm, 159, rfl⟩
abbrev main_v80 : Ref sig .tc := ⟨.hbm, 160, rfl⟩
abbrev main_cst_31 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_cst_32 : Ref sig .tc := ⟨.hbm, 166, rfl⟩
abbrev main_cst_33 : Ref sig .tc := ⟨.hbm, 167, rfl⟩
abbrev main_call18_v0 : Ref sig .tc := ⟨.hbm, 168, rfl⟩
abbrev main_call18_v1 : Ref sig .tc := ⟨.hbm, 169, rfl⟩
abbrev main_call18_v2 : Ref sig .tc := ⟨.hbm, 170, rfl⟩
abbrev main_call18_v3 : Ref sig .tc := ⟨.hbm, 171, rfl⟩
abbrev main_call18_v4 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S11008x4096_S_d0_1 : S11008x4096.ReducesTo [0, 1] S_
  bcast_S_S11008x4096 : S_.BroadcastsInDim S11008x4096 (![] : Fin 0 → Fin S11008x4096.rank)
  transposes_S11008x4096_S4096x11008_1_0 : S11008x4096.Transposes [1, 0] S4096x11008
  bcast_S_S4096x11008 : S_.BroadcastsInDim S4096x11008 (![] : Fin 0 → Fin S4096x11008.rank)
  reducesTo_S4096x11008_S4096_d1 : S4096x11008.ReducesTo [1] S4096
  bcast_S4096x1_S4096x11008_0_1 : S4096x1.BroadcastsInDim S4096x11008 (![0, 1] : Fin 2 → Fin S4096x11008.rank)
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  reducesTo_S4096x11008_S_d0_1 : S4096x11008.ReducesTo [0, 1] S_
  transposes_S4096x11008_S11008x4096_1_0 : S4096x11008.Transposes [1, 0] S11008x4096
  dot_S4096x4096_S4096x11008_S4096x11008_1_0_0_1_n_n_wf : DotDims.WF S4096x4096 S4096x11008 S4096x11008 [1] [0] [0] [1] [] []
  dot_S4096x11008_S11008x4096_S4096x4096_1_0_0_1_n_n_wf : DotDims.WF S4096x11008 S11008x4096 S4096x4096 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf
def dot_S4096x11008_S11008x4096_S4096x4096_1_0_0_1_n_n : DotDims S4096x11008 S11008x4096 S4096x4096 where
  lhsContracting := [1]
  rhsContracting := [0]
  lhsNonContracting := [0]
  rhsNonContracting := [1]
  lhsBatch := []
  rhsBatch := []
  wf := dot_S4096x11008_S11008x4096_S4096x4096_1_0_0_1_n_n_wf

class Facts : Prop extends Facts₀ where

variable [Facts]
-- ==== Proof.Spec.lean ====
/-
  The mathematics both programs compute, stated once over explicit coordinates, at the extended reals.

  A BitLinear SwiGLU block with an RMS norm between its two projections.  Write aq for per-row absmax
  quantisation to the signed 8-bit grid and back:  aq(X)[p,q] = clip(round(X[p,q]·s_p), -128, 127) / s_p  with
  s_p = 127 / max(1e-5, max_k |X[p,k]|).  Then

      xq  = aq(x)                                     rows of x quantised
      h   = silu(xq · wgᵀ) ⊙ (xq · wuᵀ)               silu(g) = g · 1/(1 + e^{-g})
      hn  = ln ⊙ (h · rsqrt(mean_k h[p,k]² + 1e-6))   the RMS norm, ln broadcast along rows
      hq  = aq(hn)
      out = hq · wdᵀ

  where wg, wu, wd are the ternary-quantised weights (the same host computation in both programs, carried as
  an opaque array here).  Every product of matrices is a plain sum over the contracted coordinate; no law of
  the extended reals beyond reading each operation at an index is needed to join the two programs, because both
  compute these formulas in this order — one whole array at a time, the other block by block.
-/
import Idealize.ShloMosaic.PureOps.Ideal
import Idealize.ShloMosaic.Lib.ValueIdx

noncomputable section

namespace Cert.Mlp

open Idealize.ShloMosaic Idealize.ShloMosaic.ValueIdx

abbrev A4096x4096 : Shape := ⟨2, ![4096, 4096]⟩
abbrev A11008x4096 : Shape := ⟨2, ![11008, 4096]⟩
abbrev A4096x11008 : Shape := ⟨2, ![4096, 11008]⟩
abbrev A11008 : Shape := ⟨1, ![11008]⟩

/-- Row coordinate of an index of a matrix, as a number below the row count. -/
abbrev r0 {n0 n1 : Nat} (i : (⟨2, ![n0, n1]⟩ : Shape).Idx) : Fin n0 := ⟨(i 0).val, (i 0).isLt⟩
/-- Column coordinate of an index of a matrix, as a number below the column count. -/
abbrev r1 {n0 n1 : Nat} (i : (⟨2, ![n0, n1]⟩ : Shape).Idx) : Fin n1 := ⟨(i 1).val, (i 1).isLt⟩

theorem ix2_r0_r1 {n0 n1 : Nat} (i : (⟨2, ![n0, n1]⟩ : Shape).Idx) : ix2 (r0 i) (r1 i) = i := (eq_ix2 i).symm

/-- The largest magnitude of a row, as the fold of max from -inf over the row's magnitudes. -/
def rowAbsMax {n : Nat} (row : Fin n → EReal) : EReal :=
  (Finset.univ : Finset (Fin n)).fold max (Ideal.ofBits .f32 0xFF800000#32) (fun k => max (row k) (-(row k)))

/-- The quantisation scale of a row: 127 over its largest magnitude, the magnitude kept at least 1e-5. -/
def rowScale {n : Nat} (row : Fin n → EReal) : EReal :=
  Ideal.div (Ideal.ofBits .f32 0x42FE0000#32) (max (Ideal.ofBits .f32 0x3727C5AC#32) (rowAbsMax row))

/-- One entry at scale s: scaled, rounded to the nearest integer (ties to even), clipped to [-128, 127], scaled back. -/
def quantAt (s x : EReal) : EReal :=
  Ideal.div (min (Ideal.ofBits .f32 0x42FE0000#32)
    (max (Ideal.ofBits .f32 0xC3000000#32) (Ideal.liftRound Ideal.roundHalfEven (x * s)))) s

/-- Per-row absmax quantisation of a matrix given by coordinates. -/
def actQuant {r n : Nat} (x : Fin r → Fin n → EReal) (p : Fin r) (q : Fin n) : EReal :=
  quantAt (rowScale (x p)) (x p q)

/-- silu(g) · u, with silu(g) = g · logistic(g). -/
def swiglu (g u : EReal) : EReal := (g * Ideal.logistic g) * u

/-- The reciprocal root-mean-square of a row of 11008 entries, 1e-6 added under the root. -/
def rowInvRms (row : Fin 11008 → EReal) : EReal :=
  Ideal.rsqrt (Ideal.div (∑ k : Fin 11008, row k * row k) (Ideal.ofBits .f32 0x462C0000#32) + Ideal.ofBits .f32 0x358637BD#32)

/-- xq: the rows of x quantised. -/
def XQ (x : A4096x4096.Idx → EReal) : A4096x4096.Idx → EReal :=
  fun i => actQuant (fun p q => x (ix2 p q)) (r0 i) (r1 i)

/-- h: the gated product of the two projections of xq. -/
def GU (xq : A4096x4096.Idx → EReal) (wg wu : A11008x4096.Idx → EReal) : A4096x11008.Idx → EReal :=
  fun i => swiglu (∑ k : Fin 4096, xq (ix2 (r0 i) k) * wg (ix2 (r1 i) k))
                  (∑ k : Fin 4096, xq (ix2 (r0 i) k) * wu (ix2 (r1 i) k))

/-- hn: the RMS norm of h's rows, weighted by ln along each row. -/
def HN (h : A4096x11008.Idx → EReal) (ln : A11008.Idx → EReal) : A4096x11008.Idx → EReal :=
  fun i => ln (ix1 (r1 i)) * (h i * rowInvRms (fun k => h (ix2 (r0 i) k)))

/-- hq: the rows of hn quantised. -/
def HQ (h : A4096x11008.Idx → EReal) (ln : A11008.Idx → EReal) : A4096x11008.Idx → EReal :=
  fun i => actQuant (fun p q => HN h ln (ix2 p q)) (r0 i) (r1 i)

/-- out: hq projected down. -/
def DN (hq : A4096x11008.Idx → EReal) (wd : A4096x11008.Idx → EReal) : A4096x4096.Idx → EReal :=
  fun i => ∑ k : Fin 11008, hq (ix2 (r0 i) k) * wd (ix2 (r1 i) k)

end Cert.Mlp

end
-- ==== Proof.LibRows.lean ====
/- Row-wise readings at an index written by coordinates, at any extents:
   a vector [a] cast to a one-column matrix [a, 1]; the maximum and the sum of a matrix's rows taken by a kernel's
   lane reduction over axis 1, and the same two taken by a host reduction over axis 1 — each as the fold of max, or
   the sum, over the row's column coordinate of the matrix at (p, k).  All at the extended reals, where both
   reductions are order-free. -/
import Idealize.ShloMosaic.Lib.Pipeline.Value
import Idealize.ShloMosaic.Lib.ValueIdx
import Idealize.ShloMosaic.Lib.ValueLayout
import Idealize.ShloMosaic.PureOps.Ideal.Laws

namespace Cert.LibRows

open Idealize.ShloMosaic Idealize.ShloMosaic.ValueIdx

/-- A vector [a] cast to a one-column matrix [a, 1] reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a reduction over axis 1 of an [a, b] matrix inserts at row p and column k is (p, k). -/
theorem lift_axis1 {a b : ℕ} (h : (⟨2, ![a, b]⟩ : Shape).Reduces [1] ⟨1, ![a]⟩) (p : Fin a) (k : Fin b) :
    h.lift (ix1 p) k = ix2 p k := by
  funext ax
  apply Fin.ext
  match ax with
  | ⟨0, _⟩ => rfl
  | ⟨1, _⟩ => rfl

/-- A kernel's lane maximum over axis 1 of an [a, b] matrix, at row p: the fold of max from the accumulator's value
    over the row's entries. -/
theorem rowMax_kernel {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  refine congrArg (fun f => (Finset.univ : Finset (Fin b)).fold max (Ideal.ofBits φ acc) f) ?_
  funext k
  exact congrArg src (lift_axis1 h p k)

/-- A kernel's lane sum over axis 1 of an [a, b] matrix, at row p: the sum of the row's entries. -/
theorem rowSum_kernel {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_axis1 h p k)

/-- A host maximum over axis 1 of an [a, b] matrix from a scalar initial value, at row p: the fold of max from that
    value over the row's entries. -/
theorem rowMax_host {φ : FTy} {a b : ℕ} (x : (⟨2, ![a, b]⟩ : Shape).Idx → Ideal φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  rw [Host.reduce_eq_fold_single (FloatOps.maximumf (F := Ideal) (φ := φ)) x init h' h hu (ix1 p)]
  have e0 : init (Shape.Idx.first hu) = init ix0 := congrArg init (funext fun d => d.elim0)
  rw [e0]
  refine congrArg (fun f => (Finset.univ : Finset (Fin b)).fold max (init ix0) f) ?_
  funext k
  exact congrArg x (lift_axis1 h p k)

end Cert.LibRows
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.Region0.lean ====
/-
  The first kernel: xq, the rows of x quantised, block of 256 rows by block.

  One grid point t holds rows 256·t … 256·t + 255 of x, all 4096 columns, so every row's absolute maximum is taken
  inside one block and the block's result is exactly those rows of XQ x: entry (p, q) of the block is
  clip(round(x[256t+p, q] · s), -128, 127) / s with s the scale of row 256t+p.  The sixteen blocks tile the array.
  Stated at any contents V of the buffers on entry to the kernel.
-/
import proofs.«400165_j82867099009123_3_alg».proof.Proof.Gen.KernelIdeal.Frame
import proofs.«400165_j82867099009123_3_alg».proof.Proof.Spec
import proofs.«400165_j82867099009123_3_alg».proof.Proof.LibRows
import proofs.«400165_j82867099009123_3_alg».proof.Proof.LibColumns
import Idealize.ShloMosaic.Lib.Pipeline.Value
import Idealize.ShloMosaic.PureOps.Ideal.Laws
import Idealize.ShloMosaic.Lib.ValueIdx

set_option maxRecDepth 16384

noncomputable section

namespace Cert.Mlp.R0

open Idealize.ShloMosaic Idealize.ShloMosaic.TcCoe Idealize.SL.Sem Idealize.ShloMosaic.ValueIdx
open Idealize.ShloMosaic.Pipeline (Dat)
open Cert.KernelIdeal Cert.KernelIdeal.Gen Cert.Mlp

variable (V : (c : Dev nD) → (b : Ref sig .tc) → Buf (Elt Ideal) ((c : Thread nD τ).loc b))

theorem hz : (![0, 0] : Fin 2 → Nat) = fun _ => 0 := funext fun a => by fin_cases a <;> rfl

/-- Rounding to the nearest integer, read at an index. -/
theorem roundeven_apply {s : Shape} {φ : FTy} (a : FVec Ideal s φ) (i : s.Idx) :
    roundeven a i = Ideal.liftRound Ideal.roundHalfEven (a i) := rfl

/-- A vector of row maxima, cast to a column, clipped below, turned into scales and broadcast along rows, reads at
    (p, q) the scale of row p. -/
theorem scale_of (v : FVec Ideal S256 .f32) (row : Fin 4096 → EReal) (p : Fin 256) (q : Fin 4096)
    (hv : v (ix1 p) = rowAbsMax row) :
    broadcastTo S256x4096
      (divf (broadcast S256x1 (Scalar.ofBits (F := Ideal) .f32 0x42FE0000#32))
        (maximumf (broadcast S256x1 (Scalar.ofBits (F := Ideal) .f32 0x3727C5AC#32))
          (shapeCast S256x1 v shapeCasts_S256_S256x1)))
      broadcasts_S256x1_S256x4096 (ix2 p q)
    = rowScale row := by
  rw [Cert.LibColumns.broadcastTo_a1_ab_apply, divf_apply, maximumf_apply, broadcast_apply, broadcast_apply,
    Cert.LibRows.shapeCast_a_a1_apply, hv]
  rfl

/-- The lane maximum of the magnitudes of a block's rows, at row p: that row's largest magnitude. -/
theorem rowmax_apply (x0 : Vec Ideal S256x4096 .f32) (p : Fin 256) :
    multiReduction (F := Ideal) .maximumf [1] S256 (absf x0) 0xFF800000#32 reduces_S256x4096_S256 (.inl rfl) rfl (ix1 p)
      = rowAbsMax (fun k => x0 (ix2 p k)) :=
  (Cert.LibRows.rowMax_kernel (absf x0) _ reduces_S256x4096_S256 _ _ p).trans (by unfold rowAbsMax; rfl)

/-- The scale the body broadcasts along row p of its block: the row's quantisation scale. -/
theorem scale_apply (x0 : Vec Ideal S256x4096 .f32) (p : Fin 256) (q : Fin 4096) :
    broadcastTo S256x4096
      (divf (broadcast S256x1 (Scalar.ofBits (F := Ideal) .f32 0x42FE0000#32))
        (maximumf (broadcast S256x1 (Scalar.ofBits (F := Ideal) .f32 0x3727C5AC#32))
          (shapeCast S256x1 (multiReduction .maximumf [1] S256 (absf x0) 0xFF800000#32 reduces_S256x4096_S256 (.inl rfl) rfl)
            shapeCasts_S256_S256x1)))
      broadcasts_S256x1_S256x4096 (ix2 p q)
    = rowScale (fun k => x0 (ix2 p k)) :=
  scale_of _ _ p q (rowmax_apply x0 p)

/-- The body's stored value at entry (p, q) of its block: the entry quantised at its row's scale. -/
theorem pay_apply (x0 : Vec Ideal S256x4096 .f32) (p : Fin 256) (q : Fin 4096) :
    k0_pay1 (F := Ideal) x0 (ix2 p q) = actQuant (fun a b => x0 (ix2 a b)) p q := by
  unfold k0_pay1
  dsimp only
  rw [truncf_apply, divf_apply, minimumf_apply, broadcast_apply, maximumf_apply, broadcast_apply, roundeven_apply, mulf_apply,
    scale_apply x0 p q]
  rfl

/-- A block whose rows are rows of a matrix X stores, at each entry, XQ X at the matching entry of the matrix. -/
theorem point_eq (X : S4096x4096.Idx → EReal) (x0 : Vec Ideal S256x4096 .f32) (j : S256x4096.Idx) (i : S4096x4096.Idx)
    (hrow : ∀ k : Fin 4096, x0 (ix2 (r0 j) k) = X (ix2 (r0 i) k)) (hcol : (j 1).val = (i 1).val) :
    k0_pay1 (F := Ideal) x0 j = XQ X i := by
  have hj : j = ix2 (r0 j) (r1 j) := (ix2_r0_r1 j).symm
  rw [hj, pay_apply]
  show quantAt (rowScale (fun k => x0 (ix2 (r0 j) k))) (x0 (ix2 (r0 j) (r1 j)))
    = quantAt (rowScale (fun k => X (ix2 (r0 i) k))) (X (ix2 (r0 i) (r1 i)))
  have e1 : (fun k => x0 (ix2 (r0 j) k)) = fun k => X (ix2 (r0 i) k) := funext hrow
  have e2 : (r1 j : Fin 4096) = r1 i := Fin.ext hcol
  rw [e1, hrow (r1 j), e2]

/-- The printed index maps over the sixteen points: both windows sit at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t is rows 256·t … of the array the kernel finds in x's buffer. -/
theorem iblk_apply (c : Dev nD) (t : Fin cfg0.N) (y : S256x4096.Idx) (k : S4096x4096.Idx)
    (hk0 : (k 0).val = 256 * t.val + (y 0).val) (hk1 : (k 1).val = (y 1).val) :
    (iblk0 V c 0 t : Vec Ideal S256x4096 .f32) y = (V c main_arg0 : S4096x4096.Idx → EReal) k := by
  obtain ⟨e0, e1, -, -⟩ := idx_facts t
  unfold iblk0
  rw [View.read_apply]
  show (V c main_arg0 : S4096x4096.Idx → EReal) _ = _
  refine congrArg (V c main_arg0 : S4096x4096.Idx → EReal) ?_
  funext a
  apply Fin.ext
  match a with
  | ⟨0, _⟩ => show win0_0.index t (0 : Fin 2) * 256 + 1 * (y 0).val = (k 0).val; rw [e0, hk0]; omega
  | ⟨1, _⟩ => show win0_0.index t (1 : Fin 2) * 4096 + 1 * (y 1).val = (k 1).val; rw [e1, hk1]; omega

/-- What point t writes back is block t of XQ of x's buffer. -/
theorem flushed_eq (c : Dev nD) (t : Fin cfg0.N) :
    (dat0 V c).flushed 1 t = ((cfg0.win 1).blk t).view.read (Elt Ideal) (XQ (V c main_arg0 : S4096x4096.Idx → EReal)) := by
  show (cfg0.win 1).cut (grid0.coords t) ((dat0 V c).after 1 t) = _
  rw [after0_1]
  unfold out0_1
  rw [View.canon_unit_zero hz]
  simp only [View.ld_unit_zero (S := S256x4096) hz]
  obtain ⟨-, -, e2, e3⟩ := idx_facts t
  funext j
  show k0_pay1 (F := Ideal) (iblk0 V c 0 t) j = XQ (V c main_arg0 : S4096x4096.Idx → EReal) (((cfg0.win 1).blk t).view.emb j)
  refine point_eq (V c main_arg0 : S4096x4096.Idx → EReal) (iblk0 V c 0 t) j (((cfg0.win 1).blk t).view.emb j) (fun k => ?_) ?_
  · refine iblk_apply V c t (ix2 (r0 j) k) (ix2 (r0 (((cfg0.win 1).blk t).view.emb j)) k) ?_ rfl
    show win0_1.index t (0 : Fin 2) * 256 + 1 * (j 0).val = 256 * t.val + (j 0).val
    rw [e2]; omega
  · show (j 1).val = win0_1.index t (1 : Fin 2) * 4096 + 1 * (j 1).val
    rw [e3]; omega

/-- An index is in point t's output block iff each coordinate is in the block's range on its axis. -/
theorem mem_blk (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v36).slice (win0_1.rect t)).set ↔ _
  rw [View.set_slice_whole, Rect.mem_set_unit]
  exact Iff.rfl

/-- Every index lies in the block of the point its row falls in. -/
theorem cover (i : S4096x4096.Idx) : ∃ t : Fin cfg0.N, (cfg0.win 1).flush t = true ∧ i ∈ ((cfg0.win 1).blk t).view.set := by
  have h0 : (i 0).val < 4096 := (i 0).isLt
  have h1 : (i 1).val < 4096 := (i 1).isLt
  have hN : cfg0.N = 16 := N_0
  let t : Fin cfg0.N := ⟨(i 0).val / 256, by rw [hN]; omega⟩
  obtain ⟨-, -, e2, e3⟩ := idx_facts t
  have e2' : win0_1.index t (0 : Fin 2) = (i 0).val / 256 := e2
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; rw [e2']; omega
  | ⟨1, _⟩ => show win0_1.index t (1 : Fin 2) * 4096 ≤ (i 1).val ∧ (i 1).val < win0_1.index t (1 : Fin 2) * 4096 + 4096; rw [e3]; omega

/-- After the kernel its output array is XQ of what it found in x's buffer. -/
theorem arr (c : Dev nD) : (dat0 V c).arrAt 1 cfg0.N = XQ (V c main_arg0 : S4096x4096.Idx → EReal) :=
  (dat0 V c).arrAt_eq_of_cover 1 (XQ (V c main_arg0 : S4096x4096.Idx → EReal)) (fun t _ => flushed_eq V c t) cover

end Cert.Mlp.R0

end
-- ==== Proof.Region1.lean ====
/-
  The second kernel: h, the gated product of the two projections of xq, block of 1024 rows by 256 columns at a time.

  Grid point t = (t / 43, t % 43) holds rows 1024·(t / 43) … of xq, all 4096 columns, and rows 256·(t % 43) … of the
  gate weights and of the up weights, all 4096 columns, so each of its two products contracts whole rows inside one
  point: entry (p, q) of the block it writes is swiglu(∑_k xq[1024·(t/43)+p, k]·wg[256·(t%43)+q, k],
  ∑_k xq[1024·(t/43)+p, k]·wu[256·(t%43)+q, k]), which is GU at row 1024·(t/43)+p, column 256·(t%43)+q.  The 4 × 43
  blocks tile the array.  Stated at any contents V of the buffers on entry to the kernel.
-/
import proofs.«400165_j82867099009123_3_alg».proof.Proof.Gen.KernelIdeal.Frame
import proofs.«400165_j82867099009123_3_alg».proof.Proof.Spec
import proofs.«400165_j82867099009123_3_alg».proof.Proof.LibRows
import proofs.«400165_j82867099009123_3_alg».proof.Proof.LibColumns
import Idealize.ShloMosaic.Lib.Pipeline.Value
import Idealize.ShloMosaic.PureOps.Ideal.Laws
import Idealize.ShloMosaic.Lib.ValueIdx

set_option maxRecDepth 16384

noncomputable section

namespace Cert.Mlp.R1

open Idealize.ShloMosaic Idealize.ShloMosaic.TcCoe Idealize.SL.Sem Idealize.ShloMosaic.ValueIdx
open Idealize.ShloMosaic.Pipeline (Dat)
open Cert.KernelIdeal Cert.KernelIdeal.Gen Cert.Mlp

variable (V : (c : Dev nD) → (b : Ref sig .tc) → Buf (Elt Ideal) ((c : Thread nD τ).loc b))

theorem hz : (![0, 0] : Fin 2 → Nat) = fun _ => 0 := funext fun a => by fin_cases a <;> rfl

/-- The logistic function, read at an index. -/
theorem logistic_apply {s : Shape} {φ : FTy} (a : FVec Ideal s φ) (i : s.Idx) :
    logistic a i = Ideal.logistic (a i) := rfl

/-- The left operand keeps its axis 0: its row is the result's row. -/
theorem lhs_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
/-- The left operand contracts its axis 1: its column is the contraction position. -/
theorem lhs_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
/-- The right operand keeps its axis 0: its row is the result's column. -/
theorem rhs_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
/-- The right operand contracts its axis 1: its column is the contraction position. -/
theorem rhs_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- A product of a [1024, 4096] block with the transpose of a [256, 4096] block into a zero accumulator, at (p, q):
    the sum over the shared column coordinate of row p of the first times row q of the second. -/
theorem mm_apply (a : FVec Ideal S1024x4096 .bf16) (b : FVec Ideal S256x4096 .bf16) (p : Fin 1024) (q : Fin 256) :
    matmul (F := Ideal) dot_S1024x4096_S256x4096_S1024x256_1_1_0_0_n_n none a b (constant (F := Ideal) S1024x256 .f32 0x00000000#32) (ix2 p q)
      = ∑ k : Fin 4096, a (ix2 p k) * b (ix2 q k) := by
  simp only [matmul]
  rw [Ideal.matmul_constant_zero_apply, ← Equiv.sum_comp (ValueIdx.contrEquiv1 dot_S1024x4096_S256x4096_S1024x256_1_1_0_0_n_n 4096 rfl rfl).symm]
  refine Finset.sum_congr rfl fun k _ => ?_
  have hk := ValueIdx.contrEquiv1_symm_val dot_S1024x4096_S256x4096_S1024x256_1_1_0_0_n_n 4096 rfl rfl k
  have el : dot_S1024x4096_S256x4096_S1024x256_1_1_0_0_n_n.lhsIdx (ix2 p q) ((ValueIdx.contrEquiv1 dot_S1024x4096_S256x4096_S1024x256_1_1_0_0_n_n 4096 rfl rfl).symm k) = ix2 p k := funext fun ax => Fin.ext (by
    match ax with
    | ⟨0, _⟩ => exact lhs_0 _ _
    | ⟨1, _⟩ => exact (lhs_1 _ _).trans hk)
  have er : dot_S1024x4096_S256x4096_S1024x256_1_1_0_0_n_n.rhsIdx (ix2 p q) ((ValueIdx.contrEquiv1 dot_S1024x4096_S256x4096_S1024x256_1_1_0_0_n_n 4096 rfl rfl).symm k) = ix2 q k := funext fun ax => Fin.ext (by
    match ax with
    | ⟨0, _⟩ => exact rhs_0 _ _
    | ⟨1, _⟩ => exact (rhs_1 _ _).trans hk)
  rw [el, er]

/-- The body's stored value at entry (p, q) of its block: the gated product of row p of the activations' block with
    row q of the gate weights' block and with row q of the up weights' block. -/
theorem pay_apply (a : Vec Ideal S1024x4096 .bf16) (bg bu : Vec Ideal S256x4096 .bf16) (p : Fin 1024) (q : Fin 256) :
    k1_pay1 (F := Ideal) a bg a bu (ix2 p q)
      = swiglu (∑ k : Fin 4096, a (ix2 p k) * bg (ix2 q k)) (∑ k : Fin 4096, a (ix2 p k) * bu (ix2 q k)) := by
  unfold k1_pay1
  rw [shapeCast_self, shapeCast_self, shapeCast_self]
  rw [truncf_apply, mulf_apply, mulf_apply, logistic_apply, mm_apply, mm_apply]
  rfl

/-- A block of rows of X, a block of rows of WG and a block of rows of WU store, at each entry, GU X WG WU at the entry
    of the matrix whose row is the first block's row and whose column is the other two blocks' row. -/
theorem point_eq (X : S4096x4096.Idx → EReal) (WG WU : S11008x4096.Idx → EReal)
    (a : Vec Ideal S1024x4096 .bf16) (bg bu : Vec Ideal S256x4096 .bf16) (j : S1024x256.Idx) (i : S4096x11008.Idx)
    (ha : ∀ k : Fin 4096, a (ix2 (r0 j) k) = X (ix2 (r0 i) k))
    (hg : ∀ k : Fin 4096, bg (ix2 (r1 j) k) = WG (ix2 (r1 i) k))
    (hu : ∀ k : Fin 4096, bu (ix2 (r1 j) k) = WU (ix2 (r1 i) k)) :
    k1_pay1 (F := Ideal) a bg a bu j = GU X WG WU i := by
  have hj : j = ix2 (r0 j) (r1 j) := (ix2_r0_r1 j).symm
  rw [hj, pay_apply]
  have s1 : (∑ k : Fin 4096, a (ix2 (r0 j) k) * bg (ix2 (r1 j) k)) = ∑ k : Fin 4096, X (ix2 (r0 i) k) * WG (ix2 (r1 i) k) :=
    Finset.sum_congr rfl fun k _ => by rw [ha k, hg k]
  have s2 : (∑ k : Fin 4096, a (ix2 (r0 j) k) * bu (ix2 (r1 j) k)) = ∑ k : Fin 4096, X (ix2 (r0 i) k) * WU (ix2 (r1 i) k) :=
    Finset.sum_congr rfl fun k _ => by rw [ha k, hu k]
  rw [s1, s2]
  rfl

/-- The printed index maps over the 4 × 43 points, point t being (t / 43, t % 43): the activations' window sits at
    block row t / 43, both weights' windows at block row t % 43, the output's window at block (t / 43, t % 43). -/
theorem idx_facts : ∀ t : Fin cfg1.N,
    (win1_0.index t (0 : Fin 2) = t.val / 43 ∧ win1_0.index t (1 : Fin 2) = 0)
    ∧ (win1_1.index t (0 : Fin 2) = t.val % 43 ∧ win1_1.index t (1 : Fin 2) = 0)
    ∧ (win1_2.index t (0 : Fin 2) = t.val % 43 ∧ win1_2.index t (1 : Fin 2) = 0)
    ∧ (win1_3.index t (0 : Fin 2) = t.val / 43 ∧ win1_3.index t (1 : Fin 2) = t.val % 43) :=
  (by decide +kernel : ∀ t : Fin grid1.N, _)

/-- The activations' block at point t is rows 1024·(t / 43) … of the array the kernel finds in their buffer. -/
theorem iblk_a_apply (c : Dev nD) (t : Fin cfg1.N) (y : S1024x4096.Idx) (k : S4096x4096.Idx)
    (hk0 : (k 0).val = 1024 * (t.val / 43) + (y 0).val) (hk1 : (k 1).val = (y 1).val) :
    (iblk1 V c 0 t : Vec Ideal S1024x4096 .bf16) y = (V c main_v36 : S4096x4096.Idx → EReal) k := by
  obtain ⟨⟨e0, e1⟩, -, -, -⟩ := idx_facts t
  unfold iblk1
  rw [View.read_apply]
  show (V c main_v36 : S4096x4096.Idx → EReal) _ = _
  refine congrArg (V c main_v36 : S4096x4096.Idx → EReal) ?_
  funext a
  apply Fin.ext
  match a with
  | ⟨0, _⟩ => show win1_0.index t (0 : Fin 2) * 1024 + 1 * (y 0).val = (k 0).val; rw [e0, hk0]; omega
  | ⟨1, _⟩ => show win1_0.index t (1 : Fin 2) * 4096 + 1 * (y 1).val = (k 1).val; rw [e1, hk1]; omega

/-- The gate weights' block at point t is rows 256·(t % 43) … of the array the kernel finds in their buffer. -/
theorem iblk_g_apply (c : Dev nD) (t : Fin cfg1.N) (y : S256x4096.Idx) (k : S11008x4096.Idx)
    (hk0 : (k 0).val = 256 * (t.val % 43) + (y 0).val) (hk1 : (k 1).val = (y 1).val) :
    (iblk1 V c 1 t : Vec Ideal S256x4096 .bf16) y = (V c main_v11 : S11008x4096.Idx → EReal) k := by
  obtain ⟨-, ⟨e0, e1⟩, -, -⟩ := idx_facts t
  unfold iblk1
  rw [View.read_apply]
  show (V c main_v11 : S11008x4096.Idx → EReal) _ = _
  refine congrArg (V c main_v11 : S11008x4096.Idx → EReal) ?_
  funext a
  apply Fin.ext
  match a with
  | ⟨0, _⟩ => show win1_1.index t (0 : Fin 2) * 256 + 1 * (y 0).val = (k 0).val; rw [e0, hk0]; omega
  | ⟨1, _⟩ => show win1_1.index t (1 : Fin 2) * 4096 + 1 * (y 1).val = (k 1).val; rw [e1, hk1]; omega

/-- The up weights' block at point t is rows 256·(t % 43) … of the array the kernel finds in their buffer. -/
theorem iblk_u_apply (c : Dev nD) (t : Fin cfg1.N) (y : S256x4096.Idx) (k : S11008x4096.Idx)
    (hk0 : (k 0).val = 256 * (t.val % 43) + (y 0).val) (hk1 : (k 1).val = (y 1).val) :
    (iblk1 V c 2 t : Vec Ideal S256x4096 .bf16) y = (V c main_v23 : S11008x4096.Idx → EReal) k := by
  obtain ⟨-, -, ⟨e0, e1⟩, -⟩ := idx_facts t
  unfold iblk1
  rw [View.read_apply]
  show (V c main_v23 : S11008x4096.Idx → EReal) _ = _
  refine congrArg (V c main_v23 : S11008x4096.Idx → EReal) ?_
  funext a
  apply Fin.ext
  match a with
  | ⟨0, _⟩ => show win1_2.index t (0 : Fin 2) * 256 + 1 * (y 0).val = (k 0).val; rw [e0, hk0]; omega
  | ⟨1, _⟩ => show win1_2.index t (1 : Fin 2) * 4096 + 1 * (y 1).val = (k 1).val; rw [e1, hk1]; omega

/-- What point t writes back is block t of GU of the three arrays the kernel finds in its input buffers. -/
theorem flushed_eq (c : Dev nD) (t : Fin cfg1.N) :
    (dat1 V c).flushed 3 t = ((cfg1.win 3).blk t).view.read (Elt Ideal)
      (GU (V c main_v36 : S4096x4096.Idx → EReal) (V c main_v11 : S11008x4096.Idx → EReal) (V c main_v23 : S11008x4096.Idx → EReal)) := by
  show (cfg1.win 3).cut (grid1.coords t) ((dat1 V c).after 3 t) = _
  rw [after1_3]
  unfold out1_3
  rw [View.canon_unit_zero hz]
  simp only [View.ld_unit_zero (S := S1024x4096) hz, View.ld_unit_zero (S := S256x4096) hz]
  obtain ⟨-, -, -, ⟨e0, e1⟩⟩ := idx_facts t
  funext j
  show k1_pay1 (F := Ideal) (iblk1 V c 0 t) (iblk1 V c 1 t) (iblk1 V c 0 t) (iblk1 V c 2 t) j
    = GU (V c main_v36 : S4096x4096.Idx → EReal) (V c main_v11 : S11008x4096.Idx → EReal) (V c main_v23 : S11008x4096.Idx → EReal)
        (((cfg1.win 3).blk t).view.emb j)
  refine point_eq (V c main_v36 : S4096x4096.Idx → EReal) (V c main_v11 : S11008x4096.Idx → EReal) (V c main_v23 : S11008x4096.Idx → EReal)
    (iblk1 V c 0 t) (iblk1 V c 1 t) (iblk1 V c 2 t) j (((cfg1.win 3).blk t).view.emb j) (fun k => ?_) (fun k => ?_) (fun k => ?_)
  · refine iblk_a_apply V c t (ix2 (r0 j) k) (ix2 (r0 (((cfg1.win 3).blk t).view.emb j)) k) ?_ rfl
    show win1_3.index t (0 : Fin 2) * 1024 + 1 * (j 0).val = 1024 * (t.val / 43) + (j 0).val
    rw [e0]; omega
  · refine iblk_g_apply V c t (ix2 (r1 j) k) (ix2 (r1 (((cfg1.win 3).blk t).view.emb j)) k) ?_ rfl
    show win1_3.index t (1 : Fin 2) * 256 + 1 * (j 1).val = 256 * (t.val % 43) + (j 1).val
    rw [e1]; omega
  · refine iblk_u_apply V c t (ix2 (r1 j) k) (ix2 (r1 (((cfg1.win 3).blk t).view.emb j)) k) ?_ rfl
    show win1_3.index t (1 : Fin 2) * 256 + 1 * (j 1).val = 256 * (t.val % 43) + (j 1).val
    rw [e1]; omega

/-- An index is in point t's output block iff each coordinate is in the block's range on its axis. -/
theorem mem_blk (t : Fin cfg1.N) (i : S4096x11008.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v37).slice (win1_3.rect t)).set ↔ _
  rw [View.set_slice_whole, Rect.mem_set_unit]
  exact Iff.rfl

/-- Every index lies in the block of the point whose coordinates are its row over 1024 and its column over 256. -/
theorem cover (i : S4096x11008.Idx) : ∃ t : Fin cfg1.N, (cfg1.win 3).flush t = true ∧ i ∈ ((cfg1.win 3).blk t).view.set := by
  have h0 : (i 0).val < 4096 := (i 0).isLt
  have h1 : (i 1).val < 11008 := (i 1).isLt
  have hN : cfg1.N = 172 := N_1
  let t : Fin cfg1.N := ⟨(i 0).val / 1024 * 43 + (i 1).val / 256, by rw [hN]; omega⟩
  obtain ⟨-, -, -, ⟨e0, e1⟩⟩ := idx_facts t
  have e0' : win1_3.index t (0 : Fin 2) = (i 0).val / 1024 := by
    rw [e0]; show ((i 0).val / 1024 * 43 + (i 1).val / 256) / 43 = (i 0).val / 1024; omega
  have e1' : win1_3.index t (1 : Fin 2) = (i 1).val / 256 := by
    rw [e1]; show ((i 0).val / 1024 * 43 + (i 1).val / 256) % 43 = (i 1).val / 256; omega
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; rw [e0']; omega
  | ⟨1, _⟩ => show win1_3.index t (1 : Fin 2) * 256 ≤ (i 1).val ∧ (i 1).val < win1_3.index t (1 : Fin 2) * 256 + 256; rw [e1']; omega

/-- After the kernel its output array is GU of what it found in the activations' and the two weights' buffers. -/
theorem arr (c : Dev nD) : (dat1 V c).arrAt 3 cfg1.N = GU (V c main_v36 : S4096x4096.Idx → EReal) (V c main_v11 : S11008x4096.Idx → EReal) (V c main_v23 : S11008x4096.Idx → EReal) :=
  (dat1 V c).arrAt_eq_of_cover 3 (GU (V c main_v36 : S4096x4096.Idx → EReal) (V c main_v11 : S11008x4096.Idx → EReal) (V c main_v23 : S11008x4096.Idx → EReal))
    (fun t _ => flushed_eq V c t) cover

end Cert.Mlp.R1

end
-- ==== Proof.Region2.lean ====
/-
  The third kernel: hq, the rows of the normalised h quantised, block of 128 rows by block.

  One grid point t holds rows 128·t … 128·t + 127 of h, all 11008 columns, and all of ln.  So every row's mean square and
  every normalised row's absolute maximum are taken inside one block, and the block's result is exactly those rows of
  HQ h ln: entry (p, q) of the block is clip(round(y · s), -128, 127) / s with y = ln[q] · (h[128t+p, q] · r), r the
  reciprocal root mean square of row 128t+p of h, and s the scale of that normalised row.  The thirty-two blocks tile
  the array.  Stated at any contents V of the buffers on entry to the kernel.
-/
import proofs.«400165_j82867099009123_3_alg».proof.Proof.Gen.KernelIdeal.Frame
import proofs.«400165_j82867099009123_3_alg».proof.Proof.Spec
import proofs.«400165_j82867099009123_3_alg».proof.Proof.LibRows
import proofs.«400165_j82867099009123_3_alg».proof.Proof.LibColumns
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

namespace Cert.Mlp.R2

open Idealize.ShloMosaic Idealize.ShloMosaic.TcCoe Idealize.SL.Sem Idealize.ShloMosaic.ValueIdx
open Idealize.ShloMosaic.Pipeline (Dat)
open Cert.KernelIdeal Cert.KernelIdeal.Gen Cert.Mlp

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- Rounding to the nearest integer, read at an index. -/
theorem roundeven_apply {s : Shape} {φ : FTy} (a : FVec Ideal s φ) (i : s.Idx) :
    roundeven a i = Ideal.liftRound Ideal.roundHalfEven (a i) := rfl

/-- The reciprocal square root, read at an index. -/
theorem rsqrt_apply {s : Shape} {φ : FTy} (a : FVec Ideal s φ) (i : s.Idx) :
    rsqrt a i = Ideal.rsqrt (a i) := rfl

/-! ## The normalised block -/

/-- The block widened: the same entries. -/
def wide (a : Vec Ideal S128x11008 .bf16) : FVec Ideal S128x11008 .f32 :=
  extf .f32 (shapeCast S128x11008 a shapeCasts_S128x11008_S128x11008) bitsLt_bf16_f32

theorem wide_apply (a : Vec Ideal S128x11008 .bf16) (i : S128x11008.Idx) : wide a i = a i := by
  unfold wide
  rw [extf_apply, shapeCast_self]

/-- The normalised block the body forms before it quantises: ln along each row times the block times the row's
    reciprocal root mean square. -/
def hnBlk (a : Vec Ideal S128x11008 .bf16) (l : Vec Ideal S11008 .f32) : FVec Ideal S128x11008 .f32 :=
  mulf (broadcastTo S128x11008 (shapeCast S1x11008 l shapeCasts_S11008_S1x11008) broadcasts_S1x11008_S128x11008)
    (mulf (wide a)
      (broadcastTo S128x11008
        (rsqrt (addf
          (divf (shapeCast S128x1 (multiReduction .add [1] S128 (mulf (wide a) (wide a)) 0x00000000#32 reduces_S128x11008_S128 (.inl rfl) rfl)
              shapeCasts_S128_S128x1)
            (broadcast S128x1 (Scalar.ofBits (F := Ideal) .f32 0x462C0000#32)))
          (broadcast S128x1 (Scalar.ofBits (F := Ideal) .f32 0x358637BD#32))))
        broadcasts_S128x1_S128x11008))

/-- The quantisation the body applies to the normalised block y. -/
def qBlk (y : FVec Ideal S128x11008 .f32) : FVec Ideal S128x11008 .bf16 :=
  truncf .bf16
    (divf
      (minimumf (broadcast S128x11008 (Scalar.ofBits (F := Ideal) .f32 0x42FE0000#32))
        (maximumf (broadcast S128x11008 (Scalar.ofBits (F := Ideal) .f32 0xC3000000#32))
          (roundeven (mulf y
            (broadcastTo S128x11008
              (divf (broadcast S128x1 (Scalar.ofBits (F := Ideal) .f32 0x42FE0000#32))
                (maximumf (broadcast S128x1 (Scalar.ofBits (F := Ideal) .f32 0x3727C5AC#32))
                  (shapeCast S128x1 (multiReduction .maximumf [1] S128 (absf y) 0xFF800000#32 reduces_S128x11008_S128 (.inl rfl) rfl)
                    shapeCasts_S128_S128x1)))
              broadcasts_S128x1_S128x11008)))))
      (broadcastTo S128x11008
        (divf (broadcast S128x1 (Scalar.ofBits (F := Ideal) .f32 0x42FE0000#32))
          (maximumf (broadcast S128x1 (Scalar.ofBits (F := Ideal) .f32 0x3727C5AC#32))
            (shapeCast S128x1 (multiReduction .maximumf [1] S128 (absf y) 0xFF800000#32 reduces_S128x11008_S128 (.inl rfl) rfl)
              shapeCasts_S128_S128x1)))
        broadcasts_S128x1_S128x11008))
    bitsLt_bf16_f32

/-- The body's stored value is the quantisation of the normalised block: the printed term, read in two halves. -/
theorem pay_eq (a : Vec Ideal S128x11008 .bf16) (l : Vec Ideal S11008 .f32) :
    k2_pay1 (F := Ideal) a l = qBlk (hnBlk a l) := rfl

/-- The lane sum of the squares of a block's rows, at row p: that row's sum of squares. -/
theorem sumsq_apply (a : Vec Ideal S128x11008 .bf16) (p : Fin 128) :
    multiReduction (F := Ideal) .add [1] S128 (mulf (wide a) (wide a)) 0x00000000#32 reduces_S128x11008_S128 (.inl rfl) rfl (ix1 p)
      = ∑ k : Fin 11008, a (ix2 p k) * a (ix2 p k) :=
  (Cert.LibRows.rowSum_kernel (mulf (wide a) (wide a)) _ reduces_S128x11008_S128 _ _ p).trans
    (Finset.sum_congr rfl fun k _ => by rw [mulf_apply, wide_apply])

/-- A vector of row sums of squares, cast to a column, divided by the row length, 1e-6 added, the reciprocal root taken
    and broadcast along rows, reads at (p, q) the reciprocal root mean square of row p. -/
theorem invrms_of (v : FVec Ideal S128 .f32) (row : Fin 11008 → EReal) (p : Fin 128) (q : Fin 11008)
    (hv : v (ix1 p) = ∑ k : Fin 11008, row k * row k) :
    broadcastTo S128x11008
      (rsqrt (addf
        (divf (shapeCast S128x1 v shapeCasts_S128_S128x1) (broadcast S128x1 (Scalar.ofBits (F := Ideal) .f32 0x462C0000#32)))
        (broadcast S128x1 (Scalar.ofBits (F := Ideal) .f32 0x358637BD#32))))
      broadcasts_S128x1_S128x11008 (ix2 p q)
    = rowInvRms row := by
  rw [Cert.LibColumns.broadcastTo_a1_ab_apply, rsqrt_apply, addf_apply, divf_apply, broadcast_apply, broadcast_apply,
    Cert.LibRows.shapeCast_a_a1_apply, hv]
  rfl

/-- The normalised block at (p, q): ln at q times the entry times its row's reciprocal root mean square. -/
theorem hn_apply (a : Vec Ideal S128x11008 .bf16) (l : Vec Ideal S11008 .f32) (p : Fin 128) (q : Fin 11008) :
    hnBlk a l (ix2 p q) = l (ix1 q) * (a (ix2 p q) * rowInvRms (fun k => a (ix2 p k))) := by
  unfold hnBlk
  rw [mulf_apply, broadcastTo_1b_ab_apply, shapeCast_a_1a_apply, mulf_apply, wide_apply,
    invrms_of _ (fun k => a (ix2 p k)) p q (sumsq_apply a p)]

/-! ## The quantisation of a block -/

/-- A vector of row maxima, cast to a column, clipped below, turned into scales and broadcast along rows, reads at
    (p, q) the scale of row p. -/
theorem scale_of (v : FVec Ideal S128 .f32) (row : Fin 11008 → EReal) (p : Fin 128) (q : Fin 11008)
    (hv : v (ix1 p) = rowAbsMax row) :
    broadcastTo S128x11008
      (divf (broadcast S128x1 (Scalar.ofBits (F := Ideal) .f32 0x42FE0000#32))
        (maximumf (broadcast S128x1 (Scalar.ofBits (F := Ideal) .f32 0x3727C5AC#32))
          (shapeCast S128x1 v shapeCasts_S128_S128x1)))
      broadcasts_S128x1_S128x11008 (ix2 p q)
    = rowScale row := by
  rw [Cert.LibColumns.broadcastTo_a1_ab_apply, divf_apply, maximumf_apply, broadcast_apply, broadcast_apply,
    Cert.LibRows.shapeCast_a_a1_apply, hv]
  rfl

/-- The lane maximum of the magnitudes of a block's rows, at row p: that row's largest magnitude. -/
theorem rowmax_apply (y : FVec Ideal S128x11008 .f32) (p : Fin 128) :
    multiReduction (F := Ideal) .maximumf [1] S128 (absf y) 0xFF800000#32 reduces_S128x11008_S128 (.inl rfl) rfl (ix1 p)
      = rowAbsMax (fun k => y (ix2 p k)) :=
  (Cert.LibRows.rowMax_kernel (absf y) _ reduces_S128x11008_S128 _ _ p).trans (by unfold rowAbsMax; rfl)

/-- The scale the body broadcasts along row p of a block y: the row's quantisation scale. -/
theorem scale_apply (y : FVec Ideal S128x11008 .f32) (p : Fin 128) (q : Fin 11008) :
    broadcastTo S128x11008
      (divf (broadcast S128x1 (Scalar.ofBits (F := Ideal) .f32 0x42FE0000#32))
        (maximumf (broadcast S128x1 (Scalar.ofBits (F := Ideal) .f32 0x3727C5AC#32))
          (shapeCast S128x1 (multiReduction .maximumf [1] S128 (absf y) 0xFF800000#32 reduces_S128x11008_S128 (.inl rfl) rfl)
            shapeCasts_S128_S128x1)))
      broadcasts_S128x1_S128x11008 (ix2 p q)
    = rowScale (fun k => y (ix2 p k)) :=
  scale_of _ _ p q (rowmax_apply y p)

/-- The quantised block at (p, q): the entry quantised at its row's scale. -/
theorem q_apply (y : FVec Ideal S128x11008 .f32) (p : Fin 128) (q : Fin 11008) :
    qBlk y (ix2 p q) = actQuant (fun r c => y (ix2 r c)) p q := by
  unfold qBlk
  rw [truncf_apply, divf_apply, minimumf_apply, broadcast_apply, maximumf_apply, broadcast_apply, roundeven_apply, mulf_apply,
    scale_apply y p q]
  rfl

/-! ## The payload and the point -/

/-- The body's stored value at entry (p, q) of its block: the normalised entry quantised at the normalised row's scale. -/
theorem pay_apply (a : Vec Ideal S128x11008 .bf16) (l : Vec Ideal S11008 .f32) (p : Fin 128) (q : Fin 11008) :
    k2_pay1 (F := Ideal) a l (ix2 p q)
      = actQuant (fun r c => l (ix1 c) * (a (ix2 r c) * rowInvRms (fun k => a (ix2 r k)))) p q := by
  rw [pay_eq, q_apply]
  refine congrArg (fun f => actQuant f p q) ?_
  funext r c
  exact hn_apply a l r c

/-- Quantising a row depends on the row and the column only. -/
theorem actQuant_congr {r r' n : Nat} (x : Fin r → Fin n → EReal) (x' : Fin r' → Fin n → EReal) (p : Fin r) (p' : Fin r')
    (q q' : Fin n) (hrow : x p = x' p') (hq : q = q') : actQuant x p q = actQuant x' p' q' := by
  unfold actQuant
  rw [hrow, hq]

/-- The normalised array at an index given by coordinates. -/
theorem HN_ix2 (H : S4096x11008.Idx → EReal) (L : S11008.Idx → EReal) (p : Fin 4096) (c : Fin 11008) :
    HN H L (ix2 p c) = L (ix1 c) * (H (ix2 p c) * rowInvRms (fun k => H (ix2 p k))) := rfl

/-- A block whose rows are rows of a matrix H, beside a vector equal to L, stores at each entry HQ H L at the matching
    entry of the matrix. -/
theorem point_eq (H : S4096x11008.Idx → EReal) (L : S11008.Idx → EReal) (a : Vec Ideal S128x11008 .bf16) (l : Vec Ideal S11008 .f32)
    (j : S128x11008.Idx) (i : S4096x11008.Idx)
    (hrow : ∀ k : Fin 11008, a (ix2 (r0 j) k) = H (ix2 (r0 i) k)) (hl : ∀ k : Fin 11008, l (ix1 k) = L (ix1 k))
    (hcol : (j 1).val = (i 1).val) :
    k2_pay1 (F := Ideal) a l j = HQ H L i := by
  have hj : j = ix2 (r0 j) (r1 j) := (ix2_r0_r1 j).symm
  rw [hj, pay_apply]
  show _ = actQuant (fun p q => HN H L (ix2 p q)) (r0 i) (r1 i)
  refine actQuant_congr _ _ _ _ _ _ (funext fun c => ?_) (Fin.ext hcol)
  show l (ix1 c) * (a (ix2 (r0 j) c) * rowInvRms (fun k => a (ix2 (r0 j) k))) = HN H L (ix2 (r0 i) c)
  have e1 : (fun k => a (ix2 (r0 j) k)) = fun k => H (ix2 (r0 i) k) := funext hrow
  rw [HN_ix2, hl c, hrow c, e1]

/-! ## The grid -/

/-- The printed index maps over the thirty-two points: the h and output windows sit at block row t, block column 0;
    the ln window at block 0. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- The h block at point t is rows 128·t … of the array the kernel finds in h's buffer. -/
theorem iblk_h_apply (c : Dev nD) (t : Fin cfg2.N) (y : S128x11008.Idx) (k : S4096x11008.Idx)
    (hk0 : (k 0).val = 128 * t.val + (y 0).val) (hk1 : (k 1).val = (y 1).val) :
    (iblk2 V c 0 t : Vec Ideal S128x11008 .bf16) y = (V c main_v37 : S4096x11008.Idx → EReal) k := by
  obtain ⟨e0, e1, -, -, -⟩ := idx_facts t
  unfold iblk2
  rw [View.read_apply]
  show (V c main_v37 : S4096x11008.Idx → EReal) _ = _
  refine congrArg (V c main_v37 : S4096x11008.Idx → EReal) ?_
  funext a
  apply Fin.ext
  match a with
  | ⟨0, _⟩ => show win2_0.index t (0 : Fin 2) * 128 + 1 * (y 0).val = (k 0).val; rw [e0, hk0]; omega
  | ⟨1, _⟩ => show win2_0.index t (1 : Fin 2) * 11008 + 1 * (y 1).val = (k 1).val; rw [e1, hk1]; omega

/-- The ln block at every point is the whole array the kernel finds in ln's buffer. -/
theorem iblk_ln_apply (c : Dev nD) (t : Fin cfg2.N) (y : S11008.Idx) :
    (iblk2 V c 1 t : Vec Ideal S11008 .f32) y = (V c main_arg4 : S11008.Idx → EReal) y := by
  obtain ⟨-, -, e, -, -⟩ := idx_facts t
  unfold iblk2
  rw [View.read_apply]
  show (V c main_arg4 : S11008.Idx → EReal) _ = _
  refine congrArg (V c main_arg4 : S11008.Idx → EReal) ?_
  funext a
  apply Fin.ext
  match a with
  | ⟨0, _⟩ => show win2_1.index t (0 : Fin 1) * 11008 + 1 * (y 0).val = (y 0).val; rw [e]; omega

/-- What point t writes back is block t of HQ of h's and ln's buffers. -/
theorem flushed_eq (c : Dev nD) (t : Fin cfg2.N) :
    (dat2 V c).flushed 2 t = ((cfg2.win 2).blk t).view.read (Elt Ideal)
      (HQ (V c main_v37 : S4096x11008.Idx → EReal) (V c main_arg4 : S11008.Idx → EReal)) := by
  show (cfg2.win 2).cut (grid2.coords t) ((dat2 V c).after 2 t) = _
  rw [after2_2]
  unfold out2_2
  rw [View.canon_unit_zero hz]
  simp only [View.ld_unit_zero (S := S128x11008) hz, View.ld_unit_zero (S := S11008) hz1]
  obtain ⟨-, -, -, e2, e3⟩ := idx_facts t
  funext j
  show k2_pay1 (F := Ideal) (iblk2 V c 0 t) (iblk2 V c 1 t) j
    = HQ (V c main_v37 : S4096x11008.Idx → EReal) (V c main_arg4 : S11008.Idx → EReal) (((cfg2.win 2).blk t).view.emb j)
  refine point_eq (V c main_v37 : S4096x11008.Idx → EReal) (V c main_arg4 : S11008.Idx → EReal) (iblk2 V c 0 t) (iblk2 V c 1 t) j
    (((cfg2.win 2).blk t).view.emb j) (fun k => ?_) (fun k => ?_) ?_
  · refine iblk_h_apply V c t (ix2 (r0 j) k) (ix2 (r0 (((cfg2.win 2).blk t).view.emb j)) k) ?_ rfl
    show win2_2.index t (0 : Fin 2) * 128 + 1 * (j 0).val = 128 * t.val + (j 0).val
    rw [e2]; omega
  · exact iblk_ln_apply V c t (ix1 k)
  · show (j 1).val = win2_2.index t (1 : Fin 2) * 11008 + 1 * (j 1).val
    rw [e3]; omega

/-- An index is in point t's output block iff each coordinate is in the block's range on its axis. -/
theorem mem_blk (t : Fin cfg2.N) (i : S4096x11008.Idx) :
    i ∈ ((cfg2.win 2).blk t).view.set ↔ ∀ a : Fin 2, win2_2.index t a * S128x11008.size a ≤ (i a).val ∧ (i a).val < win2_2.index t a * S128x11008.size a + S128x11008.size a := by
  show i ∈ ((View.whole main_v38).slice (win2_2.rect t)).set ↔ _
  rw [View.set_slice_whole, Rect.mem_set_unit]
  exact Iff.rfl

/-- Every index lies in the block of the point its row falls in. -/
theorem cover (i : S4096x11008.Idx) : ∃ t : Fin cfg2.N, (cfg2.win 2).flush t = true ∧ i ∈ ((cfg2.win 2).blk t).view.set := by
  have h0 : (i 0).val < 4096 := (i 0).isLt
  have h1 : (i 1).val < 11008 := (i 1).isLt
  have hN : cfg2.N = 32 := N_2
  let t : Fin cfg2.N := ⟨(i 0).val / 128, by rw [hN]; omega⟩
  obtain ⟨-, -, -, e2, e3⟩ := idx_facts t
  have e2' : win2_2.index t (0 : Fin 2) = (i 0).val / 128 := e2
  refine ⟨t, flush2_2 t, ?_⟩
  rw [mem_blk]
  intro a
  match a with
  | ⟨0, _⟩ => show win2_2.index t (0 : Fin 2) * 128 ≤ (i 0).val ∧ (i 0).val < win2_2.index t (0 : Fin 2) * 128 + 128; rw [e2']; omega
  | ⟨1, _⟩ => show win2_2.index t (1 : Fin 2) * 11008 ≤ (i 1).val ∧ (i 1).val < win2_2.index t (1 : Fin 2) * 11008 + 11008; rw [e3]; omega

/-- After the kernel its output array is HQ of what it found in h's and ln's buffers. -/
theorem arr (c : Dev nD) : (dat2 V c).arrAt 2 cfg2.N = HQ (V c main_v37 : S4096x11008.Idx → EReal) (V c main_arg4 : S11008.Idx → EReal) :=
  (dat2 V c).arrAt_eq_of_cover 2 (HQ (V c main_v37 : S4096x11008.Idx → EReal) (V c main_arg4 : S11008.Idx → EReal))
    (fun t _ => flushed_eq V c t) cover

end Cert.Mlp.R2

end
-- ==== Proof.Region3.lean ====
/-
  The fourth kernel: out = hq · wdᵀ, tile of 512 rows by 256 columns at a time.

  Grid point (i, j) holds rows 512·i … of hq (all 11008 columns) and rows 256·j … of wd (all 11008 columns); its
  product's entry (p, q) is the sum over k of hq[512i+p, k] · wd[256j+q, k], which is DN hq wd at (512i+p, 256j+q).
  The 8 × 16 tiles tile the 4096 × 4096 result.  Stated at any contents V of the buffers on entry to the kernel.
-/
import proofs.«400165_j82867099009123_3_alg».proof.Proof.Gen.KernelIdeal.Frame
import proofs.«400165_j82867099009123_3_alg».proof.Proof.Spec
import Idealize.ShloMosaic.Lib.Pipeline.Value
import Idealize.ShloMosaic.PureOps.Ideal.Laws
import Idealize.ShloMosaic.Lib.ValueIdx

set_option maxRecDepth 16384

noncomputable section

namespace Cert.Mlp.R3

open Idealize.ShloMosaic Idealize.ShloMosaic.TcCoe Idealize.SL.Sem Idealize.ShloMosaic.ValueIdx
open Idealize.ShloMosaic.Pipeline (Dat)
open Cert.KernelIdeal Cert.KernelIdeal.Gen Cert.Mlp

variable (V : (c : Dev nD) → (b : Ref sig .tc) → Buf (Elt Ideal) ((c : Thread nD τ).loc b))

theorem hz : (![0, 0] : Fin 2 → Nat) = fun _ => 0 := funext fun a => by fin_cases a <;> rfl

/-! ## The product's operand indices: both operands keep axis 0 and contract axis 1 -/

theorem lhs_0 (i : S512x256.Idx) (q : dot_S512x11008_S256x11008_S512x256_1_1_0_0_n_n.contr.Idx) : (dot_S512x11008_S256x11008_S512x256_1_1_0_0_n_n.lhsIdx i q 0).val = (i 0).val := by
  unfold DotDims.lhsIdx
  rw [dif_neg (show ¬(0 : Fin S512x11008.rank) ∈ dot_S512x11008_S256x11008_S512x256_1_1_0_0_n_n.lhsBatch by decide), dif_pos (show (0 : Fin S512x11008.rank) ∈ dot_S512x11008_S256x11008_S512x256_1_1_0_0_n_n.lhsNonContracting by decide)]
  rfl
theorem lhs_1 (i : S512x256.Idx) (q : dot_S512x11008_S256x11008_S512x256_1_1_0_0_n_n.contr.Idx) : (dot_S512x11008_S256x11008_S512x256_1_1_0_0_n_n.lhsIdx i q 1).val = (q ⟨0, by decide⟩).val :=
  dot_S512x11008_S256x11008_S512x256_1_1_0_0_n_n.lhsIdx_val_of_single rfl i q
theorem rhs_0 (i : S512x256.Idx) (q : dot_S512x11008_S256x11008_S512x256_1_1_0_0_n_n.contr.Idx) : (dot_S512x11008_S256x11008_S512x256_1_1_0_0_n_n.rhsIdx i q 0).val = (i 1).val := by
  unfold DotDims.rhsIdx
  rw [dif_neg (show ¬(0 : Fin S256x11008.rank) ∈ dot_S512x11008_S256x11008_S512x256_1_1_0_0_n_n.rhsBatch by decide), dif_pos (show (0 : Fin S256x11008.rank) ∈ dot_S512x11008_S256x11008_S512x256_1_1_0_0_n_n.rhsNonContracting by decide)]
  rfl
theorem rhs_1 (i : S512x256.Idx) (q : dot_S512x11008_S256x11008_S512x256_1_1_0_0_n_n.contr.Idx) : (dot_S512x11008_S256x11008_S512x256_1_1_0_0_n_n.rhsIdx i q 1).val = (q ⟨0, by decide⟩).val :=
  dot_S512x11008_S256x11008_S512x256_1_1_0_0_n_n.rhsIdx_val_of_single rfl i q

/-- The tile's product at (p, q): the sum over the contracted coordinate of the two operands' rows p and q. -/
theorem matmul_apply (a : FVec Ideal S512x11008 .bf16) (b : FVec Ideal S256x11008 .bf16) (p : Fin 512) (q : Fin 256) :
    matmul (F := Ideal) dot_S512x11008_S256x11008_S512x256_1_1_0_0_n_n none a b (constant S512x256 .f32 0x00000000#32) (ix2 p q)
      = ∑ k : Fin 11008, a (ix2 p k) * b (ix2 q k) := by
  simp only [matmul]
  rw [Ideal.matmul_constant_zero_apply, ← Equiv.sum_comp (ValueIdx.contrEquiv1 dot_S512x11008_S256x11008_S512x256_1_1_0_0_n_n 11008 rfl rfl).symm]
  refine Finset.sum_congr rfl fun k _ => ?_
  have hk := ValueIdx.contrEquiv1_symm_val dot_S512x11008_S256x11008_S512x256_1_1_0_0_n_n 11008 rfl rfl k
  have el : dot_S512x11008_S256x11008_S512x256_1_1_0_0_n_n.lhsIdx (ix2 p q) ((ValueIdx.contrEquiv1 dot_S512x11008_S256x11008_S512x256_1_1_0_0_n_n 11008 rfl rfl).symm k) = ix2 p k := funext fun ax => Fin.ext (by
    match ax with
    | ⟨0, _⟩ => exact lhs_0 _ _
    | ⟨1, _⟩ => exact (lhs_1 _ _).trans hk)
  have er : dot_S512x11008_S256x11008_S512x256_1_1_0_0_n_n.rhsIdx (ix2 p q) ((ValueIdx.contrEquiv1 dot_S512x11008_S256x11008_S512x256_1_1_0_0_n_n 11008 rfl rfl).symm k) = ix2 q k := funext fun ax => Fin.ext (by
    match ax with
    | ⟨0, _⟩ => exact rhs_0 _ _
    | ⟨1, _⟩ => exact (rhs_1 _ _).trans hk)
  rw [el, er]

/-- The body's stored value at entry (p, q) of its tile. -/
theorem pay_apply (a : Vec Ideal S512x11008 .bf16) (b : Vec Ideal S256x11008 .bf16) (p : Fin 512) (q : Fin 256) :
    k3_pay1 (F := Ideal) a b (ix2 p q) = ∑ k : Fin 11008, a (ix2 p k) * b (ix2 q k) := by
  unfold k3_pay1
  try dsimp only
  rw [shapeCast_self, shapeCast_self]
  exact matmul_apply a b p q

/-- A tile whose operand rows are rows of the matrices H and W stores DN H W at the matching entry. -/
theorem point_eq (H W : S4096x11008.Idx → EReal) (a : Vec Ideal S512x11008 .bf16) (b : Vec Ideal S256x11008 .bf16)
    (j : S512x256.Idx) (i : S4096x4096.Idx)
    (ha : ∀ k : Fin 11008, a (ix2 (r0 j) k) = H (ix2 (r0 i) k)) (hb : ∀ k : Fin 11008, b (ix2 (r1 j) k) = W (ix2 (r1 i) k)) :
    k3_pay1 (F := Ideal) a b j = DN H W i := by
  have hj : j = ix2 (r0 j) (r1 j) := (ix2_r0_r1 j).symm
  rw [hj, pay_apply]
  show (∑ k : Fin 11008, a (ix2 (r0 j) k) * b (ix2 (r1 j) k)) = ∑ k : Fin 11008, H (ix2 (r0 i) k) * W (ix2 (r1 i) k)
  exact Finset.sum_congr rfl fun k _ => by rw [ha k, hb k]

/-- The printed index maps over the 128 points: the left operand sits at the tile's block row, the right operand at
    its block column, both at block column 0; the tile's block indices stay in range. -/
theorem idx_facts : ∀ t : Fin cfg3.N, win3_0.index t (0 : Fin 2) = win3_2.index t (0 : Fin 2) ∧ win3_0.index t (1 : Fin 2) = 0
    ∧ win3_1.index t (0 : Fin 2) = win3_2.index t (1 : Fin 2) ∧ win3_1.index t (1 : Fin 2) = 0
    ∧ win3_2.index t (0 : Fin 2) ≤ 7 ∧ win3_2.index t (1 : Fin 2) ≤ 15 :=
  (by decide +kernel : ∀ t : Fin grid3.N, _)

/-- Every pair of block indices is some point's. -/
theorem idx_onto : ∀ (q0 : Fin 8) (q1 : Fin 16), ∃ t : Fin cfg3.N, win3_2.index t = ![q0.val, q1.val] :=
  (by decide +kernel : ∀ (q0 : Fin 8) (q1 : Fin 16), ∃ t : Fin grid3.N, win3_2.index t = ![q0.val, q1.val])

/-- The left operand's block at point t is rows 512·(block row) … of hq's buffer. -/
theorem iblk0_apply (c : Dev nD) (t : Fin cfg3.N) (y : S512x11008.Idx) (k : S4096x11008.Idx)
    (hk0 : (k 0).val = win3_2.index t (0 : Fin 2) * 512 + (y 0).val) (hk1 : (k 1).val = (y 1).val) :
    (iblk3 V c 0 t : Vec Ideal S512x11008 .bf16) y = (V c main_v38 : S4096x11008.Idx → EReal) k := by
  obtain ⟨e0, e1, -, -, -, -⟩ := idx_facts t
  unfold iblk3
  rw [View.read_apply]
  show (V c main_v38 : S4096x11008.Idx → EReal) _ = _
  refine congrArg (V c main_v38 : S4096x11008.Idx → EReal) ?_
  funext ax
  apply Fin.ext
  match ax with
  | ⟨0, _⟩ => show win3_0.index t (0 : Fin 2) * 512 + 1 * (y 0).val = (k 0).val; rw [e0, hk0]; omega
  | ⟨1, _⟩ => show win3_0.index t (1 : Fin 2) * 11008 + 1 * (y 1).val = (k 1).val; rw [e1, hk1]; omega

/-- The right operand's block at point t is rows 256·(block column) … of wd's buffer. -/
theorem iblk1_apply (c : Dev nD) (t : Fin cfg3.N) (y : S256x11008.Idx) (k : S4096x11008.Idx)
    (hk0 : (k 0).val = win3_2.index t (1 : Fin 2) * 256 + (y 0).val) (hk1 : (k 1).val = (y 1).val) :
    (iblk3 V c 1 t : Vec Ideal S256x11008 .bf16) y = (V c main_v35 : S4096x11008.Idx → EReal) k := by
  obtain ⟨-, -, e2, e3, -, -⟩ := idx_facts t
  unfold iblk3
  rw [View.read_apply]
  show (V c main_v35 : S4096x11008.Idx → EReal) _ = _
  refine congrArg (V c main_v35 : S4096x11008.Idx → EReal) ?_
  funext ax
  apply Fin.ext
  match ax with
  | ⟨0, _⟩ => show win3_1.index t (0 : Fin 2) * 256 + 1 * (y 0).val = (k 0).val; rw [e2, hk0]; omega
  | ⟨1, _⟩ => show win3_1.index t (1 : Fin 2) * 11008 + 1 * (y 1).val = (k 1).val; rw [e3, hk1]; omega

/-- What point t writes back is tile t of DN of the two buffers. -/
theorem flushed_eq (c : Dev nD) (t : Fin cfg3.N) :
    (dat3 V c).flushed 2 t = ((cfg3.win 2).blk t).view.read (Elt Ideal)
      (DN (V c main_v38 : S4096x11008.Idx → EReal) (V c main_v35 : S4096x11008.Idx → EReal)) := by
  show (cfg3.win 2).cut (grid3.coords t) ((dat3 V c).after 2 t) = _
  rw [after3_2]
  unfold out3_2
  rw [View.canon_unit_zero hz]
  simp only [View.ld_unit_zero (S := S512x11008) hz, View.ld_unit_zero (S := S256x11008) hz]
  funext j
  show k3_pay1 (F := Ideal) (iblk3 V c 0 t) (iblk3 V c 1 t) j
    = DN (V c main_v38 : S4096x11008.Idx → EReal) (V c main_v35 : S4096x11008.Idx → EReal) (((cfg3.win 2).blk t).view.emb j)
  refine point_eq (V c main_v38 : S4096x11008.Idx → EReal) (V c main_v35 : S4096x11008.Idx → EReal) (iblk3 V c 0 t) (iblk3 V c 1 t) j
    (((cfg3.win 2).blk t).view.emb j) (fun k => ?_) (fun k => ?_)
  · refine iblk0_apply V c t (ix2 (r0 j) k) (ix2 (r0 (((cfg3.win 2).blk t).view.emb j)) k) ?_ rfl
    show win3_2.index t (0 : Fin 2) * 512 + 1 * (j 0).val = win3_2.index t (0 : Fin 2) * 512 + (j 0).val
    omega
  · refine iblk1_apply V c t (ix2 (r1 j) k) (ix2 (r1 (((cfg3.win 2).blk t).view.emb j)) k) ?_ rfl
    show win3_2.index t (1 : Fin 2) * 256 + 1 * (j 1).val = win3_2.index t (1 : Fin 2) * 256 + (j 1).val
    omega

/-- An index is in point t's output tile iff each coordinate is in the tile's range on its axis. -/
theorem mem_blk (t : Fin cfg3.N) (i : S4096x4096.Idx) :
    i ∈ ((cfg3.win 2).blk t).view.set ↔ ∀ a : Fin 2, win3_2.index t a * S512x256.size a ≤ (i a).val ∧ (i a).val < win3_2.index t a * S512x256.size a + S512x256.size a := by
  show i ∈ ((View.whole main_v39).slice (win3_2.rect t)).set ↔ _
  rw [View.set_slice_whole, Rect.mem_set_unit]
  exact Iff.rfl

/-- Every index lies in the tile of the point whose block indices are its coordinates' quotients. -/
theorem cover (i : S4096x4096.Idx) : ∃ t : Fin cfg3.N, (cfg3.win 2).flush t = true ∧ i ∈ ((cfg3.win 2).blk t).view.set := by
  have h0 : (i 0).val < 4096 := (i 0).isLt
  have h1 : (i 1).val < 4096 := (i 1).isLt
  obtain ⟨t, ht⟩ := idx_onto ⟨(i 0).val / 512, by omega⟩ ⟨(i 1).val / 256, by omega⟩
  have q0 : win3_2.index t (0 : Fin 2) = (i 0).val / 512 := congrFun ht 0
  have q1 : win3_2.index t (1 : Fin 2) = (i 1).val / 256 := congrFun ht 1
  refine ⟨t, flush3_2 t, ?_⟩
  rw [mem_blk]
  intro a
  match a with
  | ⟨0, _⟩ => show win3_2.index t (0 : Fin 2) * 512 ≤ (i 0).val ∧ (i 0).val < win3_2.index t (0 : Fin 2) * 512 + 512; rw [q0]; omega
  | ⟨1, _⟩ => show win3_2.index t (1 : Fin 2) * 256 ≤ (i 1).val ∧ (i 1).val < win3_2.index t (1 : Fin 2) * 256 + 256; rw [q1]; omega

/-- After the kernel its output array is DN of what it found in hq's and wd's buffers. -/
theorem arr (c : Dev nD) : (dat3 V c).arrAt 2 cfg3.N
    = DN (V c main_v38 : S4096x11008.Idx → EReal) (V c main_v35 : S4096x11008.Idx → EReal) :=
  (dat3 V c).arrAt_eq_of_cover 2 (DN (V c main_v38 : S4096x11008.Idx → EReal) (V c main_v35 : S4096x11008.Idx → EReal))
    (fun t _ => flushed_eq V c t) cover

end Cert.Mlp.R3

end
-- ==== Proof.KernelValue.lean ====
/-
  The kernel's result as one function of the launch memory.

  Walking the boundaries back: the result buffer after the last kernel is DN of (the third kernel's output, the
  quantised down weights); the third kernel's output is HQ of (the second's output, ln); the second's is GU of (the
  first's output, the quantised gate and up weights); the first's is XQ of x.  No kernel writes another's inputs or
  an argument, and no host operation writes an argument, so each buffer read on the way is what an earlier boundary
  left there; the three quantised weights are what the host operations before the kernels leave.
-/
import proofs.«400165_j82867099009123_3_alg».proof.Proof.Gen.KernelIdeal.Frame
import proofs.«400165_j82867099009123_3_alg».proof.Proof.Spec
import proofs.«400165_j82867099009123_3_alg».proof.Proof.Region0
import proofs.«400165_j82867099009123_3_alg».proof.Proof.Region1
import proofs.«400165_j82867099009123_3_alg».proof.Proof.Region2
import proofs.«400165_j82867099009123_3_alg».proof.Proof.Region3

set_option maxRecDepth 16384

noncomputable section

namespace Cert.Mlp.KV

open Idealize.ShloMosaic Idealize.ShloMosaic.TcCoe Idealize.SL.Sem Idealize.ShloMosaic.ValueIdx
open Idealize.ShloMosaic.Pipeline (Dat)
open Cert.KernelIdeal Cert.KernelIdeal.Gen Cert.Mlp

variable (m : (ℓ : Loc nD τ sig) → Buf (Elt Ideal) ℓ) (ρ : Dev nD → PrngReg)

/-- x's buffer is untouched up to the first kernel. -/
theorem x_entry (c : Dev nD) : V19 m ρ c main_arg0 = m ((c : Thread nD τ).loc main_arg0) := by
  have h := W23_main_arg0 m ρ c
  rw [W23_of_ne m ρ c main_arg0 (by decide), W22_of_ne m ρ c main_arg0 (by decide), W21_of_ne m ρ c main_arg0 (by decide)] at h
  exact (((W20_arr m ρ c 0).trans (((dat0 (V19 m ρ) c).arrAt_in 0 rfl _).trans (A_eq0 (V19 m ρ) c 0))).symm).trans h

/-- ln's buffer is untouched up to the third kernel. -/
theorem ln_entry (c : Dev nD) : V21 m ρ c main_arg4 = m ((c : Thread nD τ).loc main_arg4) := by
  have h := W23_main_arg4 m ρ c
  rw [W23_of_ne m ρ c main_arg4 (by decide)] at h
  exact (((W22_arr m ρ c 1).trans (((dat2 (V21 m ρ) c).arrAt_in 1 rfl _).trans (A_eq2 (V21 m ρ) c 1))).symm).trans h

/-- The first kernel's output, on entry to the second. -/
theorem xq_entry (c : Dev nD) : (V20 m ρ c main_v36 : S4096x4096.Idx → EReal) = XQ (m ((c : Thread nD τ).loc main_arg0) : S4096x4096.Idx → EReal) := by
  show (W20 m ρ c (Proc.devRef .tc main_v36) : S4096x4096.Idx → EReal) = _
  rw [show W20 m ρ c (Proc.devRef .tc main_v36) = (dat0 (V19 m ρ) c).arrAt 1 cfg0.N from W20_arr m ρ c 1]
  rw [R0.arr (V19 m ρ) c, x_entry m ρ c]

/-- The second kernel's output, on entry to the third: the gated projections of xq by the gate and up weights the host left. -/
theorem h_entry (c : Dev nD) : (V21 m ρ c main_v37 : S4096x11008.Idx → EReal)
    = GU (XQ (m ((c : Thread nD τ).loc main_arg0) : S4096x4096.Idx → EReal)) (V19 m ρ c main_v11 : S11008x4096.Idx → EReal) (V19 m ρ c main_v23 : S11008x4096.Idx → EReal) := by
  show (W21 m ρ c (Proc.devRef .tc main_v37) : S4096x11008.Idx → EReal) = _
  rw [show W21 m ρ c (Proc.devRef .tc main_v37) = (dat1 (V20 m ρ) c).arrAt 3 cfg1.N from W21_arr m ρ c 3]
  rw [R1.arr (V20 m ρ) c, xq_entry m ρ c]
  rw [show V20 m ρ c main_v11 = V19 m ρ c main_v11 from W20_of_ne m ρ c main_v11 (by decide),
      show V20 m ρ c main_v23 = V19 m ρ c main_v23 from W20_of_ne m ρ c main_v23 (by decide)]

/-- The third kernel's output, on entry to the fourth. -/
theorem hq_entry (c : Dev nD) : (V22 m ρ c main_v38 : S4096x11008.Idx → EReal)
    = HQ (GU (XQ (m ((c : Thread nD τ).loc main_arg0) : S4096x4096.Idx → EReal)) (V19 m ρ c main_v11 : S11008x4096.Idx → EReal) (V19 m ρ c main_v23 : S11008x4096.Idx → EReal))
         (m ((c : Thread nD τ).loc main_arg4) : S11008.Idx → EReal) := by
  show (W22 m ρ c (Proc.devRef .tc main_v38) : S4096x11008.Idx → EReal) = _
  rw [show W22 m ρ c (Proc.devRef .tc main_v38) = (dat2 (V21 m ρ) c).arrAt 2 cfg2.N from W22_arr m ρ c 2]
  rw [R2.arr (V21 m ρ) c, h_entry m ρ c, ln_entry m ρ c]

/-- The down weights the host left are still there on entry to the fourth kernel. -/
theorem wd_entry (c : Dev nD) : V22 m ρ c main_v35 = V19 m ρ c main_v35 :=
  (W22_of_ne m ρ c main_v35 (by decide)).trans ((W21_of_ne m ρ c main_v35 (by decide)).trans (W20_of_ne m ρ c main_v35 (by decide)))

/-- The result buffer after the last kernel. -/
theorem out_eq (c : Dev nD) : (W23 m ρ c (Proc.devRef .tc main_v39) : S4096x4096.Idx → EReal)
    = DN (HQ (GU (XQ (m ((c : Thread nD τ).loc main_arg0) : S4096x4096.Idx → EReal)) (V19 m ρ c main_v11 : S11008x4096.Idx → EReal) (V19 m ρ c main_v23 : S11008x4096.Idx → EReal))
             (m ((c : Thread nD τ).loc main_arg4) : S11008.Idx → EReal))
         (V19 m ρ c main_v35 : S4096x11008.Idx → EReal) := by
  rw [show W23 m ρ c (Proc.devRef .tc main_v39) = (dat3 (V22 m ρ) c).arrAt 2 cfg3.N from W23_arr m ρ c 2]
  rw [R3.arr (V22 m ρ) c, hq_entry m ρ c, wd_entry m ρ c]

end Cert.Mlp.KV

end
-- ==== Proof.HostW.lean ====
/-
  The quantised weights, on both sides.

  Both programs quantise each weight matrix on the host by the same operations in the same order: the mean magnitude
  (sum of |w| over all entries, divided by the entry count), clipped below at 1e-5, inverted to a scale; w times the
  scale, rounded, clipped to [-1, 1], divided by the scale.  One program then narrows the float format, which changes
  nothing at the extended reals.  So what its host operations leave in each weight buffer before the kernels run is
  the other program's weight stage of the same argument.
-/
import proofs.«400165_j82867099009123_3_alg».proof.Proof.Gen.KernelIdeal.Frame
import proofs.«400165_j82867099009123_3_alg».proof.Proof.RefRead
import Idealize.ShloMosaic.Lib.StableHlo.Run

set_option maxRecDepth 16384

noncomputable section

namespace Cert.Mlp.HostW

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The gate weights' buffer before the kernels: the other program's gate-weight stage, narrowed. -/
theorem wg_eq (c : Dev nD) :
    W19 (F := F) m ρ c (Proc.devRef .tc main_v11)
      = truncf .bf16 (Cert.ReferenceIdeal.ReadP.val_main_v22 (F := F) (m ((c : Thread nD τ).loc main_arg1))) bitsLt_bf16_f32 := by
  dsimp only [W19, W18, W17, W16, W15, W14, W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  simp only [TRef.ofBuf, TRef.toBuf, cast_eq]
  rfl

/-- The up weights' buffer before the kernels: the other program's up-weight stage, narrowed. -/
theorem wu_eq (c : Dev nD) :
    W19 (F := F) m ρ c (Proc.devRef .tc main_v23)
      = truncf .bf16 (Cert.ReferenceIdeal.ReadP.val_main_v48 (F := F) (m ((c : Thread nD τ).loc main_arg2))) bitsLt_bf16_f32 := by
  dsimp only [W19, W18, W17, W16, W15, W14, W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  simp only [TRef.ofBuf, TRef.toBuf, cast_eq]
  rfl

/-- The down weights' buffer before the kernels: the other program's down-weight stage, narrowed. -/
theorem wd_eq (c : Dev nD) :
    W19 (F := F) m ρ c (Proc.devRef .tc main_v35)
      = truncf .bf16 (Cert.ReferenceIdeal.ReadP.val_main_v87 (F := F) (m ((c : Thread nD τ).loc main_arg3))) bitsLt_bf16_f32 := by
  dsimp only [W19, W18, W17, W16, W15, W14, W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  simp only [TRef.ofBuf, TRef.toBuf, cast_eq]
  rfl

end Cert.Mlp.HostW

end
-- ==== Proof.RefRunEval.lean ====
/-
  The reference's run, evaluated: the fold of its 173 host operations over the launch memory, read at the result
  buffer, is the last stage of the staged reading (val_main_v89 of the five arguments).

  The operation list is cut where the computation has its own joints — after silu of the gate projection (v25), after
  h = silu(gate) ⊙ up (v51), after hq (v76) — and each piece is evaluated by itself at an arbitrary valuation W of the
  buffers: what it leaves in its last buffer is the matching stage, given what W holds in the piece's inputs; no piece
  writes an argument.  Folding the four pieces in order gives the whole.
-/
import proofs.«400165_j82867099009123_3_alg».proof.Proof.RefRun
import proofs.«400165_j82867099009123_3_alg».proof.Proof.RefRead
import Idealize.ShloMosaic.Lib.StableHlo.Run

noncomputable section

namespace Cert.ReferenceIdeal.RunH

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-- Operations 0 to 57: the first quantised activations, the quantised gate weights, their product and its silu (v25). -/
abbrev opsA : List (HloOp τ sig (Elt F)) :=
  [ unary main_arg0 main_v0 (Host.absf : (⟨S4096x4096, .f32⟩ : BufTy).Contents (Elt F) → (⟨S4096x4096, .f32⟩ : BufTy).Contents (Elt F)),
    nullary main_cst (constant S_ .f32 0xFF800000#32),
    binary main_v0 main_cst main_v1 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4096x1, .f32⟩) main_call0_v1) (broadcastInDim S4096x1 ![] bcast_S_S4096x1),
    TRef.binary (TRef.of (T := ⟨S4096x1, .f32⟩) main_call0_v1) (TRef.of (T := ⟨S4096x1, .f32⟩) main_v2) (TRef.of (T := ⟨S4096x1, .f32⟩) main_v3) maximumf,
    nullary main_cst_1 (constant S_ .f32 0x42FE0000#32),
    unary main_cst_1 main_v4 (broadcastInDim S4096x1 ![] bcast_S_S4096x1 : (⟨S_, .f32⟩ : BufTy).Contents (Elt F) → (⟨S4096x1, .f32⟩ : BufTy).Contents (Elt F)),
    binary main_v4 main_v3 main_v5 (Host.divf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x4096 ![0, 1] bcast_S4096x1_S4096x4096_0_1 : (⟨S4096x1, .f32⟩ : BufTy).Contents (Elt F) → (⟨S4096x4096, .f32⟩ : BufTy).Contents (Elt F)),
    binary main_arg0 main_v6 main_v7 (mulf : (⟨S4096x4096, .f32⟩ : BufTy).Contents (Elt F) → (⟨S4096x4096, .f32⟩ : BufTy).Contents (Elt F) → (⟨S4096x4096, .f32⟩ : BufTy).Contents (Elt F)),
    TRef.unary (TRef.of (T := ⟨S4096x4096, .f32⟩) main_v7) (TRef.of (T := ⟨S4096x4096, .f32⟩) main_v8) Host.roundeven,
    nullary main_c (constantI S_ 32 4294967168#32),
    nullary main_c_2 (constantI S_ 32 127#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S4096x4096, .f32⟩) main_call2_v1) (broadcastInDim S4096x4096 ![] bcast_S_S4096x4096),
    TRef.binary (TRef.of (T := ⟨S4096x4096, .f32⟩) main_call2_v1) (TRef.of (T := ⟨S4096x4096, .f32⟩) main_v8) (TRef.of (T := ⟨S4096x4096, .f32⟩) main_call2_v2) maximumf,
    TRef.unary (TRef.of (T := ⟨S_, .i32⟩) main_c_2) (TRef.of (T := ⟨S_, .f32⟩) main_call2_v3) (sitofp .f32),
    TRef.unary (TRef.of (T := ⟨S_, .f32⟩) main_call2_v3) (TRef.of (T := ⟨S4096x4096, .f32⟩) main_call2_v4) (broadcastInDim S4096x4096 ![] bcast_S_S4096x4096),
    TRef.binary (TRef.of (T := ⟨S4096x4096, .f32⟩) main_call2_v4) (TRef.of (T := ⟨S4096x4096, .f32⟩) main_call2_v2) (TRef.of (T := ⟨S4096x4096, .f32⟩) main_v9) minimumf,
    unary main_v5 main_v10 (broadcastInDim S4096x4096 ![0, 1] bcast_S4096x1_S4096x4096_0_1 : (⟨S4096x1, .f32⟩ : BufTy).Contents (Elt F) → (⟨S4096x4096, .f32⟩ : BufTy).Contents (Elt F)),
    binary main_v9 main_v10 main_v11 (Host.divf : (⟨S4096x4096, .f32⟩ : BufTy).Contents (Elt F) → (⟨S4096x4096, .f32⟩ : BufTy).Contents (Elt F) → (⟨S4096x4096, .f32⟩ : BufTy).Contents (Elt F)),
    unary main_arg1 main_v12 (Host.absf : (⟨S11008x4096, .f32⟩ : BufTy).Contents (Elt F) → (⟨S11008x4096, .f32⟩ : BufTy).Contents (Elt F)),
    nullary main_cst_3 (constant S_ .f32 0x00000000#32),
    binary main_v12 main_cst_3 main_v13 ((fun x v => Host.reduceAdd x v reducesTo_S11008x4096_S_d0_1 h_S_) : (⟨S11008x4096, .f32⟩ : BufTy).Contents (Elt F) → (⟨S_, .f32⟩ : BufTy).Contents (Elt F) → (⟨S_, .f32⟩ : BufTy).Contents (Elt F)),
    nullary main_cst_4 (constant S_ .f32 0x4C2C0000#32),
    binary main_v13 main_cst_4 main_v14 (Host.divf : (⟨S_, .f32⟩ : BufTy).Contents (Elt F) → (⟨S_, .f32⟩ : BufTy).Contents (Elt F) → (⟨S_, .f32⟩ : BufTy).Contents (Elt F)),
    nullary main_cst_5 (constant S_ .f32 0x3727C5AC#32),
    TRef.unary (TRef.of (T := ⟨S_, .f32⟩) main_cst_5) (TRef.of (T := ⟨S_, .f32⟩) main_call3_v0) id,
    TRef.binary (TRef.of (T := ⟨S_, .f32⟩) main_call3_v0) (TRef.of (T := ⟨S_, .f32⟩) main_v14) (TRef.of (T := ⟨S_, .f32⟩) main_v15) maximumf,
    nullary main_cst_6 (constant S_ .f32 0x3F800000#32),
    binary main_cst_6 main_v15 main_v16 (Host.divf : (⟨S_, .f32⟩ : BufTy).Contents (Elt F) → (⟨S_, .f32⟩ : BufTy).Contents (Elt F) → (⟨S_, .f32⟩ : BufTy).Contents (Elt F)),
    unary main_v16 main_v17 (broadcastInDim S11008x4096 ![] bcast_S_S11008x4096 : (⟨S_, .f32⟩ : BufTy).Contents (Elt F) → (⟨S11008x4096, .f32⟩ : BufTy).Contents (Elt F)),
    binary main_arg1 main_v17 main_v18 (mulf : (⟨S11008x4096, .f32⟩ : BufTy).Contents (Elt F) → (⟨S11008x4096, .f32⟩ : BufTy).Contents (Elt F) → (⟨S11008x4096, .f32⟩ : BufTy).Contents (Elt F)),
    TRef.unary (TRef.of (T := ⟨S11008x4096, .f32⟩) main_v18) (TRef.of (T := ⟨S11008x4096, .f32⟩) main_v19) Host.roundeven,
    nullary main_cst_7 (constant S_ .f32 0xBF800000#32),
    nullary main_cst_8 (constant S_ .f32 0x3F800000#32),
    TRef.unary (TRef.of (T := ⟨S_, .f32⟩) main_cst_7) (TRef.of (T := ⟨S_, .f32⟩) main_call5_v0) id,
    TRef.unary (TRef.of (T := ⟨S_, .f32⟩) main_call5_v0) (TRef.of (T := ⟨S11008x4096, .f32⟩) main_call5_v1) (broadcastInDim S11008x4096 ![] bcast_S_S11008x4096),
    TRef.binary (TRef.of (T := ⟨S11008x4096, .f32⟩) main_call5_v1) (TRef.of (T := ⟨S11008x4096, .f32⟩) main_v19) (TRef.of (T := ⟨S11008x4096, .f32⟩) main_call5_v2) maximumf,
    TRef.unary (TRef.of (T := ⟨S_, .f32⟩) main_cst_8) (TRef.of (T := ⟨S_, .f32⟩) main_call5_v3) id,
    TRef.unary (TRef.of (T := ⟨S_, .f32⟩) main_call5_v3) (TRef.of (T := ⟨S11008x4096, .f32⟩) main_call5_v4) (broadcastInDim S11008x4096 ![] bcast_S_S11008x4096),
    TRef.binary (TRef.of (T := ⟨S11008x4096, .f32⟩) main_call5_v4) (TRef.of (T := ⟨S11008x4096, .f32⟩) main_call5_v2) (TRef.of (T := ⟨S11008x4096, .f32⟩) main_v20) minimumf,
    unary main_v16 main_v21 (broadcastInDim S11008x4096 ![] bcast_S_S11008x4096 : (⟨S_, .f32⟩ : BufTy).Contents (Elt F) → (⟨S11008x4096, .f32⟩ : BufTy).Contents (Elt F)),
    binary main_v20 main_v21 main_v22 (Host.divf : (⟨S11008x4096, .f32⟩ : BufTy).Contents (Elt F) → (⟨S11008x4096, .f32⟩ : BufTy).Contents (Elt F) → (⟨S11008x4096, .f32⟩ : BufTy).Contents (Elt F)),
    unary main_v22 main_v23 ((transpose S4096x11008 [1, 0] · transposes_S11008x4096_S4096x11008_1_0) : (⟨S11008x4096, .f32⟩ : BufTy).Contents (Elt F) → (⟨S4096x11008, .f32⟩ : BufTy).Contents (Elt F)),
    binary main_v11 main_v23 main_v24 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)),
    TRef.unary (TRef.of (T := ⟨S4096x11008, .f32⟩) main_v24) (TRef.of (T := ⟨S4096x11008, .f32⟩) main_call6_v0) Host.negf,
    TRef.unary (TRef.of (T := ⟨S4096x11008, .f32⟩) main_call6_v0) (TRef.of (T := ⟨S4096x11008, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S4096x11008, .f32⟩) main_call6_v2) (broadcastInDim S4096x11008 ![] bcast_S_S4096x11008),
    TRef.binary (TRef.of (T := ⟨S4096x11008, .f32⟩) main_call6_v2) (TRef.of (T := ⟨S4096x11008, .f32⟩) main_call6_v1) (TRef.of (T := ⟨S4096x11008, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S4096x11008, .f32⟩) main_call6_v4) (broadcastInDim S4096x11008 ![] bcast_S_S4096x11008),
    TRef.binary (TRef.of (T := ⟨S4096x11008, .f32⟩) main_call6_v4) (TRef.of (T := ⟨S4096x11008, .f32⟩) main_call6_v3) (TRef.of (T := ⟨S4096x11008, .f32⟩) main_call6_v5) Host.divf,
    TRef.binary (TRef.of (T := ⟨S4096x11008, .f32⟩) main_v24) (TRef.of (T := ⟨S4096x11008, .f32⟩) main_call6_v5) (TRef.of (T := ⟨S4096x11008, .f32⟩) main_v25) mulf ]

/-- Operations 58 to 107: the second copy of the quantised activations, the quantised up weights, their product, and h (v51). -/
abbrev opsB : List (HloOp τ sig (Elt F)) :=
  [ unary main_arg0 main_v26 (Host.absf : (⟨S4096x4096, .f32⟩ : BufTy).Contents (Elt F) → (⟨S4096x4096, .f32⟩ : BufTy).Contents (Elt F)),
    nullary main_cst_9 (constant S_ .f32 0xFF800000#32),
    binary main_v26 main_cst_9 main_v27 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    nullary main_cst_10 (constant S_ .f32 0x3727C5AC#32),
    TRef.unary (TRef.of (T := ⟨S_, .f32⟩) main_cst_10) (TRef.of (T := ⟨S_, .f32⟩) main_call7_v0) id,
    TRef.unary (TRef.of (T := ⟨S_, .f32⟩) main_call7_v0) (TRef.of (T := ⟨S4096x1, .f32⟩) main_call7_v1) (broadcastInDim S4096x1 ![] bcast_S_S4096x1),
    TRef.binary (TRef.of (T := ⟨S4096x1, .f32⟩) main_call7_v1) (TRef.of (T := ⟨S4096x1, .f32⟩) main_v28) (TRef.of (T := ⟨S4096x1, .f32⟩) main_v29) maximumf,
    nullary main_cst_11 (constant S_ .f32 0x42FE0000#32),
    unary main_cst_11 main_v30 (broadcastInDim S4096x1 ![] bcast_S_S4096x1 : (⟨S_, .f32⟩ : BufTy).Contents (Elt F) → (⟨S4096x1, .f32⟩ : BufTy).Contents (Elt F)),
    binary main_v30 main_v29 main_v31 (Host.divf : (⟨S4096x1, .f32⟩ : BufTy).Contents (Elt F) → (⟨S4096x1, .f32⟩ : BufTy).Contents (Elt F) → (⟨S4096x1, .f32⟩ : BufTy).Contents (Elt F)),
    unary main_v31 main_v32 (broadcastInDim S4096x4096 ![0, 1] bcast_S4096x1_S4096x4096_0_1 : (⟨S4096x1, .f32⟩ : BufTy).Contents (Elt F) → (⟨S4096x4096, .f32⟩ : BufTy).Contents (Elt F)),
    binary main_arg0 main_v32 main_v33 (mulf : (⟨S4096x4096, .f32⟩ : BufTy).Contents (Elt F) → (⟨S4096x4096, .f32⟩ : BufTy).Contents (Elt F) → (⟨S4096x4096, .f32⟩ : BufTy).Contents (Elt F)),
    TRef.unary (TRef.of (T := ⟨S4096x4096, .f32⟩) main_v33) (TRef.of (T := ⟨S4096x4096, .f32⟩) main_v34) Host.roundeven,
    nullary main_c_12 (constantI S_ 32 4294967168#32),
    nullary main_c_13 (constantI S_ 32 127#32),
    TRef.unary (TRef.of (T := ⟨S_, .i32⟩) main_c_12) (TRef.of (T := ⟨S_, .f32⟩) main_call9_v0) (sitofp .f32),
    TRef.unary (TRef.of (T := ⟨S_, .f32⟩) main_call9_v0) (TRef.of (T := ⟨S4096x4096, .f32⟩) main_call9_v1) (broadcastInDim S4096x4096 ![] bcast_S_S4096x4096),
    TRef.binary (TRef.of (T := ⟨S4096x4096, .f32⟩) main_call9_v1) (TRef.of (T := ⟨S4096x4096, .f32⟩) main_v34) (TRef.of (T := ⟨S4096x4096, .f32⟩) main_call9_v2) maximumf,
    TRef.unary (TRef.of (T := ⟨S_, .i32⟩) main_c_13) (TRef.of (T := ⟨S_, .f32⟩) main_call9_v3) (sitofp .f32),
    TRef.unary (TRef.of (T := ⟨S_, .f32⟩) main_call9_v3) (TRef.of (T := ⟨S4096x4096, .f32⟩) main_call9_v4) (broadcastInDim S4096x4096 ![] bcast_S_S4096x4096),
    TRef.binary (TRef.of (T := ⟨S4096x4096, .f32⟩) main_call9_v4) (TRef.of (T := ⟨S4096x4096, .f32⟩) main_call9_v2) (TRef.of (T := ⟨S4096x4096, .f32⟩) main_v35) minimumf,
    unary main_v31 main_v36 (broadcastInDim S4096x4096 ![0, 1] bcast_S4096x1_S4096x4096_0_1 : (⟨S4096x1, .f32⟩ : BufTy).Contents (Elt F) → (⟨S4096x4096, .f32⟩ : BufTy).Contents (Elt F)),
    binary main_v35 main_v36 main_v37 (Host.divf : (⟨S4096x4096, .f32⟩ : BufTy).Contents (Elt F) → (⟨S4096x4096, .f32⟩ : BufTy).Contents (Elt F) → (⟨S4096x4096, .f32⟩ : BufTy).Contents (Elt F)),
    unary main_arg2 main_v38 (Host.absf : (⟨S11008x4096, .f32⟩ : BufTy).Contents (Elt F) → (⟨S11008x4096, .f32⟩ : BufTy).Contents (Elt F)),
    nullary main_cst_14 (constant S_ .f32 0x00000000#32),
    binary main_v38 main_cst_14 main_v39 ((fun x v => Host.reduceAdd x v reducesTo_S11008x4096_S_d0_1 h_S_) : (⟨S11008x4096, .f32⟩ : BufTy).Contents (Elt F) → (⟨S_, .f32⟩ : BufTy).Contents (Elt F) → (⟨S_, .f32⟩ : BufTy).Contents (Elt F)),
    nullary main_cst_15 (constant S_ .f32 0x4C2C0000#32),
    binary main_v39 main_cst_15 main_v40 (Host.divf : (⟨S_, .f32⟩ : BufTy).Contents (Elt F) → (⟨S_, .f32⟩ : BufTy).Contents (Elt F) → (⟨S_, .f32⟩ : BufTy).Contents (Elt F)),
    nullary main_cst_16 (constant S_ .f32 0x3727C5AC#32),
    TRef.unary (TRef.of (T := ⟨S_, .f32⟩) main_cst_16) (TRef.of (T := ⟨S_, .f32⟩) main_call10_v0) id,
    TRef.binary (TRef.of (T := ⟨S_, .f32⟩) main_call10_v0) (TRef.of (T := ⟨S_, .f32⟩) main_v40) (TRef.of (T := ⟨S_, .f32⟩) main_v41) maximumf,
    nullary main_cst_17 (constant S_ .f32 0x3F800000#32),
    binary main_cst_17 main_v41 main_v42 (Host.divf : (⟨S_, .f32⟩ : BufTy).Contents (Elt F) → (⟨S_, .f32⟩ : BufTy).Contents (Elt F) → (⟨S_, .f32⟩ : BufTy).Contents (Elt F)),
    unary main_v42 main_v43 (broadcastInDim S11008x4096 ![] bcast_S_S11008x4096 : (⟨S_, .f32⟩ : BufTy).Contents (Elt F) → (⟨S11008x4096, .f32⟩ : BufTy).Contents (Elt F)),
    binary main_arg2 main_v43 main_v44 (mulf : (⟨S11008x4096, .f32⟩ : BufTy).Contents (Elt F) → (⟨S11008x4096, .f32⟩ : BufTy).Contents (Elt F) → (⟨S11008x4096, .f32⟩ : BufTy).Contents (Elt F)),
    TRef.unary (TRef.of (T := ⟨S11008x4096, .f32⟩) main_v44) (TRef.of (T := ⟨S11008x4096, .f32⟩) main_v45) Host.roundeven,
    nullary main_cst_18 (constant S_ .f32 0xBF800000#32),
    nullary main_cst_19 (constant S_ .f32 0x3F800000#32),
    TRef.unary (TRef.of (T := ⟨S_, .f32⟩) main_cst_18) (TRef.of (T := ⟨S_, .f32⟩) main_call12_v0) id,
    TRef.unary (TRef.of (T := ⟨S_, .f32⟩) main_call12_v0) (TRef.of (T := ⟨S11008x4096, .f32⟩) main_call12_v1) (broadcastInDim S11008x4096 ![] bcast_S_S11008x4096),
    TRef.binary (TRef.of (T := ⟨S11008x4096, .f32⟩) main_call12_v1) (TRef.of (T := ⟨S11008x4096, .f32⟩) main_v45) (TRef.of (T := ⟨S11008x4096, .f32⟩) main_call12_v2) maximumf,
    TRef.unary (TRef.of (T := ⟨S_, .f32⟩) main_cst_19) (TRef.of (T := ⟨S_, .f32⟩) main_call12_v3) id,
    TRef.unary (TRef.of (T := ⟨S_, .f32⟩) main_call12_v3) (TRef.of (T := ⟨S11008x4096, .f32⟩) main_call12_v4) (broadcastInDim S11008x4096 ![] bcast_S_S11008x4096),
    TRef.binary (TRef.of (T := ⟨S11008x4096, .f32⟩) main_call12_v4) (TRef.of (T := ⟨S11008x4096, .f32⟩) main_call12_v2) (TRef.of (T := ⟨S11008x4096, .f32⟩) main_v46) minimumf,
    unary main_v42 main_v47 (broadcastInDim S11008x4096 ![] bcast_S_S11008x4096 : (⟨S_, .f32⟩ : BufTy).Contents (Elt F) → (⟨S11008x4096, .f32⟩ : BufTy).Contents (Elt F)),
    binary main_v46 main_v47 main_v48 (Host.divf : (⟨S11008x4096, .f32⟩ : BufTy).Contents (Elt F) → (⟨S11008x4096, .f32⟩ : BufTy).Contents (Elt F) → (⟨S11008x4096, .f32⟩ : BufTy).Contents (Elt F)),
    unary main_v48 main_v49 ((transpose S4096x11008 [1, 0] · transposes_S11008x4096_S4096x11008_1_0) : (⟨S11008x4096, .f32⟩ : BufTy).Contents (Elt F) → (⟨S4096x11008, .f32⟩ : BufTy).Contents (Elt F)),
    binary main_v37 main_v49 main_v50 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)),
    binary main_v25 main_v50 main_v51 (mulf : (⟨S4096x11008, .f32⟩ : BufTy).Contents (Elt F) → (⟨S4096x11008, .f32⟩ : BufTy).Contents (Elt F) → (⟨S4096x11008, .f32⟩ : BufTy).Contents (Elt F)) ]

/-- Operations 108 to 147: the RMS norm of h and its quantisation (v76). -/
abbrev opsC : List (HloOp τ sig (Elt F)) :=
  [ binary main_v51 main_v51 main_v52 (mulf : (⟨S4096x11008, .f32⟩ : BufTy).Contents (Elt F) → (⟨S4096x11008, .f32⟩ : BufTy).Contents (Elt F) → (⟨S4096x11008, .f32⟩ : BufTy).Contents (Elt F)),
    nullary main_cst_20 (constant S_ .f32 0x00000000#32),
    binary main_v52 main_cst_20 main_v53 ((fun x v => Host.reduceAdd x v reducesTo_S4096x11008_S4096_d1 h_S_) : (⟨S4096x11008, .f32⟩ : BufTy).Contents (Elt F) → (⟨S_, .f32⟩ : BufTy).Contents (Elt F) → (⟨S4096, .f32⟩ : BufTy).Contents (Elt F)),
    unary main_v53 main_v54 (broadcastInDim S4096x1 ![0] bcast_S4096_S4096x1_0 : (⟨S4096, .f32⟩ : BufTy).Contents (Elt F) → (⟨S4096x1, .f32⟩ : BufTy).Contents (Elt F)),
    nullary main_cst_21 (constant S_ .f32 0x462C0000#32),
    unary main_cst_21 main_v55 (broadcastInDim S4096x1 ![] bcast_S_S4096x1 : (⟨S_, .f32⟩ : BufTy).Contents (Elt F) → (⟨S4096x1, .f32⟩ : BufTy).Contents (Elt F)),
    binary main_v54 main_v55 main_v56 (Host.divf : (⟨S4096x1, .f32⟩ : BufTy).Contents (Elt F) → (⟨S4096x1, .f32⟩ : BufTy).Contents (Elt F) → (⟨S4096x1, .f32⟩ : BufTy).Contents (Elt F)),
    nullary main_cst_22 (constant S_ .f32 0x358637BD#32),
    unary main_cst_22 main_v57 (broadcastInDim S4096x1 ![] bcast_S_S4096x1 : (⟨S_, .f32⟩ : BufTy).Contents (Elt F) → (⟨S4096x1, .f32⟩ : BufTy).Contents (Elt F)),
    binary main_v56 main_v57 main_v58 (addf : (⟨S4096x1, .f32⟩ : BufTy).Contents (Elt F) → (⟨S4096x1, .f32⟩ : BufTy).Contents (Elt F) → (⟨S4096x1, .f32⟩ : BufTy).Contents (Elt F)),
    unary main_v58 main_v59 (Host.rsqrt : (⟨S4096x1, .f32⟩ : BufTy).Contents (Elt F) → (⟨S4096x1, .f32⟩ : BufTy).Contents (Elt F)),
    unary main_v59 main_v60 (broadcastInDim S4096x11008 ![0, 1] bcast_S4096x1_S4096x11008_0_1 : (⟨S4096x1, .f32⟩ : BufTy).Contents (Elt F) → (⟨S4096x11008, .f32⟩ : BufTy).Contents (Elt F)),
    binary main_v51 main_v60 main_v61 (mulf : (⟨S4096x11008, .f32⟩ : BufTy).Contents (Elt F) → (⟨S4096x11008, .f32⟩ : BufTy).Contents (Elt F) → (⟨S4096x11008, .f32⟩ : BufTy).Contents (Elt F)),
    unary main_arg4 main_v62 (broadcastInDim S1x11008 ![1] bcast_S11008_S1x11008_1 : (⟨S11008, .f32⟩ : BufTy).Contents (Elt F) → (⟨S1x11008, .f32⟩ : BufTy).Contents (Elt F)),
    unary main_v62 main_v63 (broadcastInDim S4096x11008 ![0, 1] bcast_S1x11008_S4096x11008_0_1 : (⟨S1x11008, .f32⟩ : BufTy).Contents (Elt F) → (⟨S4096x11008, .f32⟩ : BufTy).Contents (Elt F)),
    binary main_v63 main_v61 main_v64 (mulf : (⟨S4096x11008, .f32⟩ : BufTy).Contents (Elt F) → (⟨S4096x11008, .f32⟩ : BufTy).Contents (Elt F) → (⟨S4096x11008, .f32⟩ : BufTy).Contents (Elt F)),
    unary main_v64 main_v65 (Host.absf : (⟨S4096x11008, .f32⟩ : BufTy).Contents (Elt F) → (⟨S4096x11008, .f32⟩ : BufTy).Contents (Elt F)),
    nullary main_cst_23 (constant S_ .f32 0xFF800000#32),
    binary main_v65 main_cst_23 main_v66 ((fun x v => Host.reduce FloatOps.maximumf x v reducesTo_S4096x11008_S4096_d1 h_S_) : (⟨S4096x11008, .f32⟩ : BufTy).Contents (Elt F) → (⟨S_, .f32⟩ : BufTy).Contents (Elt F) → (⟨S4096, .f32⟩ : BufTy).Contents (Elt F)),
    unary main_v66 main_v67 (broadcastInDim S4096x1 ![0] bcast_S4096_S4096x1_0 : (⟨S4096, .f32⟩ : BufTy).Contents (Elt F) → (⟨S4096x1, .f32⟩ : BufTy).Contents (Elt F)),
    nullary main_cst_24 (constant S_ .f32 0x3727C5AC#32),
    TRef.unary (TRef.of (T := ⟨S_, .f32⟩) main_cst_24) (TRef.of (T := ⟨S_, .f32⟩) main_call13_v0) id,
    TRef.unary (TRef.of (T := ⟨S_, .f32⟩) main_call13_v0) (TRef.of (T := ⟨S4096x1, .f32⟩) main_call13_v1) (broadcastInDim S4096x1 ![] bcast_S_S4096x1),
    TRef.binary (TRef.of (T := ⟨S4096x1, .f32⟩) main_call13_v1) (TRef.of (T := ⟨S4096x1, .f32⟩) main_v67) (TRef.of (T := ⟨S4096x1, .f32⟩) main_v68) maximumf,
    nullary main_cst_25 (constant S_ .f32 0x42FE0000#32),
    unary main_cst_25 main_v69 (broadcastInDim S4096x1 ![] bcast_S_S4096x1 : (⟨S_, .f32⟩ : BufTy).Contents (Elt F) → (⟨S4096x1, .f32⟩ : BufTy).Contents (Elt F)),
    binary main_v69 main_v68 main_v70 (Host.divf : (⟨S4096x1, .f32⟩ : BufTy).Contents (Elt F) → (⟨S4096x1, .f32⟩ : BufTy).Contents (Elt F) → (⟨S4096x1, .f32⟩ : BufTy).Contents (Elt F)),
    unary main_v70 main_v71 (broadcastInDim S4096x11008 ![0, 1] bcast_S4096x1_S4096x11008_0_1 : (⟨S4096x1, .f32⟩ : BufTy).Contents (Elt F) → (⟨S4096x11008, .f32⟩ : BufTy).Contents (Elt F)),
    binary main_v64 main_v71 main_v72 (mulf : (⟨S4096x11008, .f32⟩ : BufTy).Contents (Elt F) → (⟨S4096x11008, .f32⟩ : BufTy).Contents (Elt F) → (⟨S4096x11008, .f32⟩ : BufTy).Contents (Elt F)),
    TRef.unary (TRef.of (T := ⟨S4096x11008, .f32⟩) main_v72) (TRef.of (T := ⟨S4096x11008, .f32⟩) main_v73) Host.roundeven,
    nullary main_c_26 (constantI S_ 32 4294967168#32),
    nullary main_c_27 (constantI S_ 32 127#32),
    TRef.unary (TRef.of (T := ⟨S_, .i32⟩) main_c_26) (TRef.of (T := ⟨S_, .f32⟩) main_call15_v0) (sitofp .f32),
    TRef.unary (TRef.of (T := ⟨S_, .f32⟩) main_call15_v0) (TRef.of (T := ⟨S4096x11008, .f32⟩) main_call15_v1) (broadcastInDim S4096x11008 ![] bcast_S_S4096x11008),
    TRef.binary (TRef.of (T := ⟨S4096x11008, .f32⟩) main_call15_v1) (TRef.of (T := ⟨S4096x11008, .f32⟩) main_v73) (TRef.of (T := ⟨S4096x11008, .f32⟩) main_call15_v2) maximumf,
    TRef.unary (TRef.of (T := ⟨S_, .i32⟩) main_c_27) (TRef.of (T := ⟨S_, .f32⟩) main_call15_v3) (sitofp .f32),
    TRef.unary (TRef.of (T := ⟨S_, .f32⟩) main_call15_v3) (TRef.of (T := ⟨S4096x11008, .f32⟩) main_call15_v4) (broadcastInDim S4096x11008 ![] bcast_S_S4096x11008),
    TRef.binary (TRef.of (T := ⟨S4096x11008, .f32⟩) main_call15_v4) (TRef.of (T := ⟨S4096x11008, .f32⟩) main_call15_v2) (TRef.of (T := ⟨S4096x11008, .f32⟩) main_v74) minimumf,
    unary main_v70 main_v75 (broadcastInDim S4096x11008 ![0, 1] bcast_S4096x1_S4096x11008_0_1 : (⟨S4096x1, .f32⟩ : BufTy).Contents (Elt F) → (⟨S4096x11008, .f32⟩ : BufTy).Contents (Elt F)),
    binary main_v74 main_v75 main_v76 (Host.divf : (⟨S4096x11008, .f32⟩ : BufTy).Contents (Elt F) → (⟨S4096x11008, .f32⟩ : BufTy).Contents (Elt F) → (⟨S4096x11008, .f32⟩ : BufTy).Contents (Elt F)) ]

/-- Operations 148 to 172: the quantised down weights and the last product (v89). -/
abbrev opsD : List (HloOp τ sig (Elt F)) :=
  [ unary main_arg3 main_v77 (Host.absf : (⟨S4096x11008, .f32⟩ : BufTy).Contents (Elt F) → (⟨S4096x11008, .f32⟩ : BufTy).Contents (Elt F)),
    nullary main_cst_28 (constant S_ .f32 0x00000000#32),
    binary main_v77 main_cst_28 main_v78 ((fun x v => Host.reduceAdd x v reducesTo_S4096x11008_S_d0_1 h_S_) : (⟨S4096x11008, .f32⟩ : BufTy).Contents (Elt F) → (⟨S_, .f32⟩ : BufTy).Contents (Elt F) → (⟨S_, .f32⟩ : BufTy).Contents (Elt F)),
    nullary main_cst_29 (constant S_ .f32 0x4C2C0000#32),
    binary main_v78 main_cst_29 main_v79 (Host.divf : (⟨S_, .f32⟩ : BufTy).Contents (Elt F) → (⟨S_, .f32⟩ : BufTy).Contents (Elt F) → (⟨S_, .f32⟩ : BufTy).Contents (Elt F)),
    nullary main_cst_30 (constant S_ .f32 0x3727C5AC#32),
    TRef.unary (TRef.of (T := ⟨S_, .f32⟩) main_cst_30) (TRef.of (T := ⟨S_, .f32⟩) main_call16_v0) id,
    TRef.binary (TRef.of (T := ⟨S_, .f32⟩) main_call16_v0) (TRef.of (T := ⟨S_, .f32⟩) main_v79) (TRef.of (T := ⟨S_, .f32⟩) main_v80) maximumf,
    nullary main_cst_31 (constant S_ .f32 0x3F800000#32),
    binary main_cst_31 main_v80 main_v81 (Host.divf : (⟨S_, .f32⟩ : BufTy).Contents (Elt F) → (⟨S_, .f32⟩ : BufTy).Contents (Elt F) → (⟨S_, .f32⟩ : BufTy).Contents (Elt F)),
    unary main_v81 main_v82 (broadcastInDim S4096x11008 ![] bcast_S_S4096x11008 : (⟨S_, .f32⟩ : BufTy).Contents (Elt F) → (⟨S4096x11008, .f32⟩ : BufTy).Contents (Elt F)),
    binary main_arg3 main_v82 main_v83 (mulf : (⟨S4096x11008, .f32⟩ : BufTy).Contents (Elt F) → (⟨S4096x11008, .f32⟩ : BufTy).Contents (Elt F) → (⟨S4096x11008, .f32⟩ : BufTy).Contents (Elt F)),
    TRef.unary (TRef.of (T := ⟨S4096x11008, .f32⟩) main_v83) (TRef.of (T := ⟨S4096x11008, .f32⟩) main_v84) Host.roundeven,
    nullary main_cst_32 (constant S_ .f32 0xBF800000#32),
    nullary main_cst_33 (constant S_ .f32 0x3F800000#32),
    TRef.unary (TRef.of (T := ⟨S_, .f32⟩) main_cst_32) (TRef.of (T := ⟨S_, .f32⟩) main_call18_v0) id,
    TRef.unary (TRef.of (T := ⟨S_, .f32⟩) main_call18_v0) (TRef.of (T := ⟨S4096x11008, .f32⟩) main_call18_v1) (broadcastInDim S4096x11008 ![] bcast_S_S4096x11008),
    TRef.binary (TRef.of (T := ⟨S4096x11008, .f32⟩) main_call18_v1) (TRef.of (T := ⟨S4096x11008, .f32⟩) main_v84) (TRef.of (T := ⟨S4096x11008, .f32⟩) main_call18_v2) maximumf,
    TRef.unary (TRef.of (T := ⟨S_, .f32⟩) main_cst_33) (TRef.of (T := ⟨S_, .f32⟩) main_call18_v3) id,
    TRef.unary (TRef.of (T := ⟨S_, .f32⟩) main_call18_v3) (TRef.of (T := ⟨S4096x11008, .f32⟩) main_call18_v4) (broadcastInDim S4096x11008 ![] bcast_S_S4096x11008),
    TRef.binary (TRef.of (T := ⟨S4096x11008, .f32⟩) main_call18_v4) (TRef.of (T := ⟨S4096x11008, .f32⟩) main_call18_v2) (TRef.of (T := ⟨S4096x11008, .f32⟩) main_v85) minimumf,
    unary main_v81 main_v86 (broadcastInDim S4096x11008 ![] bcast_S_S4096x11008 : (⟨S_, .f32⟩ : BufTy).Contents (Elt F) → (⟨S4096x11008, .f32⟩ : BufTy).Contents (Elt F)),
    binary main_v85 main_v86 main_v87 (Host.divf : (⟨S4096x11008, .f32⟩ : BufTy).Contents (Elt F) → (⟨S4096x11008, .f32⟩ : BufTy).Contents (Elt F) → (⟨S4096x11008, .f32⟩ : BufTy).Contents (Elt F)),
    unary main_v87 main_v88 ((transpose S11008x4096 [1, 0] · transposes_S4096x11008_S11008x4096_1_0) : (⟨S4096x11008, .f32⟩ : BufTy).Contents (Elt F) → (⟨S11008x4096, .f32⟩ : BufTy).Contents (Elt F)),
    binary main_v76 main_v88 main_v89 ((fun l r => Host.dotGeneral dot_S4096x11008_S11008x4096_S4096x4096_1_0_0_1_n_n none l r) : (⟨S4096x11008, .f32⟩ : BufTy).Contents (Elt F) → (⟨S11008x4096, .f32⟩ : BufTy).Contents (Elt F) → (⟨S4096x4096, .f32⟩ : BufTy).Contents (Elt F)) ]

/-- The list is its four pieces in order. -/
theorem ops_split : (ops : List (HloOp τ sig (Elt F))) = opsA ++ (opsB ++ (opsC ++ opsD)) := rfl

/-- Piece A with the operations of its inlined callees spelt as plain operations at the buffers' own tensor types: the same functions, with no transport of contents between a buffer's type and the value's. -/
abbrev opsA' : List (HloOp τ sig (Elt F)) :=
  [ unary main_arg0 main_v0 (Host.absf : (⟨S4096x4096, .f32⟩ : BufTy).Contents (Elt F) → (⟨S4096x4096, .f32⟩ : BufTy).Contents (Elt F)),
    nullary main_cst (constant S_ .f32 0xFF800000#32),
    binary main_v0 main_cst main_v1 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 ((broadcastInDim S4096x1 ![] bcast_S_S4096x1) : (⟨S_, .f32⟩ : BufTy).Contents (Elt F) → (⟨S4096x1, .f32⟩ : BufTy).Contents (Elt F)),
    binary main_call0_v1 main_v2 main_v3 (maximumf : (⟨S4096x1, .f32⟩ : BufTy).Contents (Elt F) → (⟨S4096x1, .f32⟩ : BufTy).Contents (Elt F) → (⟨S4096x1, .f32⟩ : BufTy).Contents (Elt F)),
    nullary main_cst_1 (constant S_ .f32 0x42FE0000#32),
    unary main_cst_1 main_v4 (broadcastInDim S4096x1 ![] bcast_S_S4096x1 : (⟨S_, .f32⟩ : BufTy).Contents (Elt F) → (⟨S4096x1, .f32⟩ : BufTy).Contents (Elt F)),
    binary main_v4 main_v3 main_v5 (Host.divf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x4096 ![0, 1] bcast_S4096x1_S4096x4096_0_1 : (⟨S4096x1, .f32⟩ : BufTy).Contents (Elt F) → (⟨S4096x4096, .f32⟩ : BufTy).Contents (Elt F)),
    binary main_arg0 main_v6 main_v7 (mulf : (⟨S4096x4096, .f32⟩ : BufTy).Contents (Elt F) → (⟨S4096x4096, .f32⟩ : BufTy).Contents (Elt F) → (⟨S4096x4096, .f32⟩ : BufTy).Contents (Elt F)),
    unary main_v7 main_v8 (Host.roundeven : (⟨S4096x4096, .f32⟩ : BufTy).Contents (Elt F) → (⟨S4096x4096, .f32⟩ : BufTy).Contents (Elt F)),
    nullary main_c (constantI S_ 32 4294967168#32),
    nullary main_c_2 (constantI S_ 32 127#32),
    unary main_c main_call2_v0 ((sitofp .f32) : (⟨S_, .i32⟩ : BufTy).Contents (Elt F) → (⟨S_, .f32⟩ : BufTy).Contents (Elt F)),
    unary main_call2_v0 main_call2_v1 ((broadcastInDim S4096x4096 ![] bcast_S_S4096x4096) : (⟨S_, .f32⟩ : BufTy).Contents (Elt F) → (⟨S4096x4096, .f32⟩ : BufTy).Contents (Elt F)),
    binary main_call2_v1 main_v8 main_call2_v2 (maximumf : (⟨S4096x4096, .f32⟩ : BufTy).Contents (Elt F) → (⟨S4096x4096, .f32⟩ : BufTy).Contents (Elt F) → (⟨S4096x4096, .f32⟩ : BufTy).Contents (Elt F)),
    unary main_c_2 main_call2_v3 ((sitofp .f32) : (⟨S_, .i32⟩ : BufTy).Contents (Elt F) → (⟨S_, .f32⟩ : BufTy).Contents (Elt F)),
    unary main_call2_v3 main_call2_v4 ((broadcastInDim S4096x4096 ![] bcast_S_S4096x4096) : (⟨S_, .f32⟩ : BufTy).Contents (Elt F) → (⟨S4096x4096, .f32⟩ : BufTy).Contents (Elt F)),
    binary main_call2_v4 main_call2_v2 main_v9 (minimumf : (⟨S4096x4096, .f32⟩ : BufTy).Contents (Elt F) → (⟨S4096x4096, .f32⟩ : BufTy).Contents (Elt F) → (⟨S4096x4096, .f32⟩ : BufTy).Contents (Elt F)),
    unary main_v5 main_v10 (broadcastInDim S4096x4096 ![0, 1] bcast_S4096x1_S4096x4096_0_1 : (⟨S4096x1, .f32⟩ : BufTy).Contents (Elt F) → (⟨S4096x4096, .f32⟩ : BufTy).Contents (Elt F)),
    binary main_v9 main_v10 main_v11 (Host.divf : (⟨S4096x4096, .f32⟩ : BufTy).Contents (Elt F) → (⟨S4096x4096, .f32⟩ : BufTy).Contents (Elt F) → (⟨S4096x4096, .f32⟩ : BufTy).Contents (Elt F)),
    unary main_arg1 main_v12 (Host.absf : (⟨S11008x4096, .f32⟩ : BufTy).Contents (Elt F) → (⟨S11008x4096, .f32⟩ : BufTy).Contents (Elt F)),
    nullary main_cst_3 (constant S_ .f32 0x00000000#32),
    binary main_v12 main_cst_3 main_v13 ((fun x v => Host.reduceAdd x v reducesTo_S11008x4096_S_d0_1 h_S_) : (⟨S11008x4096, .f32⟩ : BufTy).Contents (Elt F) → (⟨S_, .f32⟩ : BufTy).Contents (Elt F) → (⟨S_, .f32⟩ : BufTy).Contents (Elt F)),
    nullary main_cst_4 (constant S_ .f32 0x4C2C0000#32),
    binary main_v13 main_cst_4 main_v14 (Host.divf : (⟨S_, .f32⟩ : BufTy).Contents (Elt F) → (⟨S_, .f32⟩ : BufTy).Contents (Elt F) → (⟨S_, .f32⟩ : BufTy).Contents (Elt F)),
    nullary main_cst_5 (constant S_ .f32 0x3727C5AC#32),
    unary main_cst_5 main_call3_v0 (id : (⟨S_, .f32⟩ : BufTy).Contents (Elt F) → (⟨S_, .f32⟩ : BufTy).Contents (Elt F)),
    binary main_call3_v0 main_v14 main_v15 (maximumf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v15 main_v16 (Host.divf : (⟨S_, .f32⟩ : BufTy).Contents (Elt F) → (⟨S_, .f32⟩ : BufTy).Contents (Elt F) → (⟨S_, .f32⟩ : BufTy).Contents (Elt F)),
    unary main_v16 main_v17 (broadcastInDim S11008x4096 ![] bcast_S_S11008x4096 : (⟨S_, .f32⟩ : BufTy).Contents (Elt F) → (⟨S11008x4096, .f32⟩ : BufTy).Contents (Elt F)),
    binary main_arg1 main_v17 main_v18 (mulf : (⟨S11008x4096, .f32⟩ : BufTy).Contents (Elt F) → (⟨S11008x4096, .f32⟩ : BufTy).Contents (Elt F) → (⟨S11008x4096, .f32⟩ : BufTy).Contents (Elt F)),
    unary main_v18 main_v19 (Host.roundeven : (⟨S11008x4096, .f32⟩ : BufTy).Contents (Elt F) → (⟨S11008x4096, .f32⟩ : BufTy).Contents (Elt F)),
    nullary main_cst_7 (constant S_ .f32 0xBF800000#32),
    nullary main_cst_8 (constant S_ .f32 0x3F800000#32),
    unary main_cst_7 main_call5_v0 (id : (⟨S_, .f32⟩ : BufTy).Contents (Elt F) → (⟨S_, .f32⟩ : BufTy).Contents (Elt F)),
    unary main_call5_v0 main_call5_v1 ((broadcastInDim S11008x4096 ![] bcast_S_S11008x4096) : (⟨S_, .f32⟩ : BufTy).Contents (Elt F) → (⟨S11008x4096, .f32⟩ : BufTy).Contents (Elt F)),
    binary main_call5_v1 main_v19 main_call5_v2 (maximumf : (⟨S11008x4096, .f32⟩ : BufTy).Contents (Elt F) → (⟨S11008x4096, .f32⟩ : BufTy).Contents (Elt F) → (⟨S11008x4096, .f32⟩ : BufTy).Contents (Elt F)),
    unary main_cst_8 main_call5_v3 (id : (⟨S_, .f32⟩ : BufTy).Contents (Elt F) → (⟨S_, .f32⟩ : BufTy).Contents (Elt F)),
    unary main_call5_v3 main_call5_v4 ((broadcastInDim S11008x4096 ![] bcast_S_S11008x4096) : (⟨S_, .f32⟩ : BufTy).Contents (Elt F) → (⟨S11008x4096, .f32⟩ : BufTy).Contents (Elt F)),
    binary main_call5_v4 main_call5_v2 main_v20 (minimumf : (⟨S11008x4096, .f32⟩ : BufTy).Contents (Elt F) → (⟨S11008x4096, .f32⟩ : BufTy).Contents (Elt F) → (⟨S11008x4096, .f32⟩ : BufTy).Contents (Elt F)),
    unary main_v16 main_v21 (broadcastInDim S11008x4096 ![] bcast_S_S11008x4096 : (⟨S_, .f32⟩ : BufTy).Contents (Elt F) → (⟨S11008x4096, .f32⟩ : BufTy).Contents (Elt F)),
    binary main_v20 main_v21 main_v22 (Host.divf : (⟨S11008x4096, .f32⟩ : BufTy).Contents (Elt F) → (⟨S11008x4096, .f32⟩ : BufTy).Contents (Elt F) → (⟨S11008x4096, .f32⟩ : BufTy).Contents (Elt F)),
    unary main_v22 main_v23 ((transpose S4096x11008 [1, 0] · transposes_S11008x4096_S4096x11008_1_0) : (⟨S11008x4096, .f32⟩ : BufTy).Contents (Elt F) → (⟨S4096x11008, .f32⟩ : BufTy).Contents (Elt F)),
    binary main_v11 main_v23 main_v24 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)),
    unary main_v24 main_call6_v0 (Host.negf : (⟨S4096x11008, .f32⟩ : BufTy).Contents (Elt F) → (⟨S4096x11008, .f32⟩ : BufTy).Contents (Elt F)),
    unary main_call6_v0 main_call6_v1 (Host.exp : (⟨S4096x11008, .f32⟩ : BufTy).Contents (Elt F) → (⟨S4096x11008, .f32⟩ : BufTy).Contents (Elt F)),
    nullary main_call6_cst ((constant S_ .f32 0x3F800000#32) : (⟨S_, .f32⟩ : BufTy).Contents (Elt F)),
    unary main_call6_cst main_call6_v2 ((broadcastInDim S4096x11008 ![] bcast_S_S4096x11008) : (⟨S_, .f32⟩ : BufTy).Contents (Elt F) → (⟨S4096x11008, .f32⟩ : BufTy).Contents (Elt F)),
    binary main_call6_v2 main_call6_v1 main_call6_v3 (addf : (⟨S4096x11008, .f32⟩ : BufTy).Contents (Elt F) → (⟨S4096x11008, .f32⟩ : BufTy).Contents (Elt F) → (⟨S4096x11008, .f32⟩ : BufTy).Contents (Elt F)),
    nullary main_call6_cst_0 ((constant S_ .f32 0x3F800000#32) : (⟨S_, .f32⟩ : BufTy).Contents (Elt F)),
    unary main_call6_cst_0 main_call6_v4 ((broadcastInDim S4096x11008 ![] bcast_S_S4096x11008) : (⟨S_, .f32⟩ : BufTy).Contents (Elt F) → (⟨S4096x11008, .f32⟩ : BufTy).Contents (Elt F)),
    binary main_call6_v4 main_call6_v3 main_call6_v5 (Host.divf : (⟨S4096x11008, .f32⟩ : BufTy).Contents (Elt F) → (⟨S4096x11008, .f32⟩ : BufTy).Contents (Elt F) → (⟨S4096x11008, .f32⟩ : BufTy).Contents (Elt F)),
    binary main_v24 main_call6_v5 main_v25 (mulf : (⟨S4096x11008, .f32⟩ : BufTy).Contents (Elt F) → (⟨S4096x11008, .f32⟩ : BufTy).Contents (Elt F) → (⟨S4096x11008, .f32⟩ : BufTy).Contents (Elt F)) ]

/-- The two spellings are the same list: a buffer's type is the value's type by computation, so the transports are identities. -/
theorem opsA_eq : (opsA : List (HloOp τ sig (Elt F))) = opsA' := rfl

/-- Piece B with its inlined callees' operations spelt as plain operations. -/
abbrev opsB' : List (HloOp τ sig (Elt F)) :=
  [ unary main_arg0 main_v26 (Host.absf : (⟨S4096x4096, .f32⟩ : BufTy).Contents (Elt F) → (⟨S4096x4096, .f32⟩ : BufTy).Contents (Elt F)),
    nullary main_cst_9 (constant S_ .f32 0xFF800000#32),
    binary main_v26 main_cst_9 main_v27 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    nullary main_cst_10 (constant S_ .f32 0x3727C5AC#32),
    unary main_cst_10 main_call7_v0 (id : (⟨S_, .f32⟩ : BufTy).Contents (Elt F) → (⟨S_, .f32⟩ : BufTy).Contents (Elt F)),
    unary main_call7_v0 main_call7_v1 ((broadcastInDim S4096x1 ![] bcast_S_S4096x1) : (⟨S_, .f32⟩ : BufTy).Contents (Elt F) → (⟨S4096x1, .f32⟩ : BufTy).Contents (Elt F)),
    binary main_call7_v1 main_v28 main_v29 (maximumf : (⟨S4096x1, .f32⟩ : BufTy).Contents (Elt F) → (⟨S4096x1, .f32⟩ : BufTy).Contents (Elt F) → (⟨S4096x1, .f32⟩ : BufTy).Contents (Elt F)),
    nullary main_cst_11 (constant S_ .f32 0x42FE0000#32),
    unary main_cst_11 main_v30 (broadcastInDim S4096x1 ![] bcast_S_S4096x1 : (⟨S_, .f32⟩ : BufTy).Contents (Elt F) → (⟨S4096x1, .f32⟩ : BufTy).Contents (Elt F)),
    binary main_v30 main_v29 main_v31 (Host.divf : (⟨S4096x1, .f32⟩ : BufTy).Contents (Elt F) → (⟨S4096x1, .f32⟩ : BufTy).Contents (Elt F) → (⟨S4096x1, .f32⟩ : BufTy).Contents (Elt F)),
    unary main_v31 main_v32 (broadcastInDim S4096x4096 ![0, 1] bcast_S4096x1_S4096x4096_0_1 : (⟨S4096x1, .f32⟩ : BufTy).Contents (Elt F) → (⟨S4096x4096, .f32⟩ : BufTy).Contents (Elt F)),
    binary main_arg0 main_v32 main_v33 (mulf : (⟨S4096x4096, .f32⟩ : BufTy).Contents (Elt F) → (⟨S4096x4096, .f32⟩ : BufTy).Contents (Elt F) → (⟨S4096x4096, .f32⟩ : BufTy).Contents (Elt F)),
    unary main_v33 main_v34 (Host.roundeven : (⟨S4096x4096, .f32⟩ : BufTy).Contents (Elt F) → (⟨S4096x4096, .f32⟩ : BufTy).Contents (Elt F)),
    nullary main_c_12 (constantI S_ 32 4294967168#32),
    nullary main_c_13 (constantI S_ 32 127#32),
    unary main_c_12 main_call9_v0 ((sitofp .f32) : (⟨S_, .i32⟩ : BufTy).Contents (Elt F) → (⟨S_, .f32⟩ : BufTy).Contents (Elt F)),
    unary main_call9_v0 main_call9_v1 ((broadcastInDim S4096x4096 ![] bcast_S_S4096x4096) : (⟨S_, .f32⟩ : BufTy).Contents (Elt F) → (⟨S4096x4096, .f32⟩ : BufTy).Contents (Elt F)),
    binary main_call9_v1 main_v34 main_call9_v2 (maximumf : (⟨S4096x4096, .f32⟩ : BufTy).Contents (Elt F) → (⟨S4096x4096, .f32⟩ : BufTy).Contents (Elt F) → (⟨S4096x4096, .f32⟩ : BufTy).Contents (Elt F)),
    unary main_c_13 main_call9_v3 ((sitofp .f32) : (⟨S_, .i32⟩ : BufTy).Contents (Elt F) → (⟨S_, .f32⟩ : BufTy).Contents (Elt F)),
    unary main_call9_v3 main_call9_v4 ((broadcastInDim S4096x4096 ![] bcast_S_S4096x4096) : (⟨S_, .f32⟩ : BufTy).Contents (Elt F) → (⟨S4096x4096, .f32⟩ : BufTy).Contents (Elt F)),
    binary main_call9_v4 main_call9_v2 main_v35 (minimumf : (⟨S4096x4096, .f32⟩ : BufTy).Contents (Elt F) → (⟨S4096x4096, .f32⟩ : BufTy).Contents (Elt F) → (⟨S4096x4096, .f32⟩ : BufTy).Contents (Elt F)),
    unary main_v31 main_v36 (broadcastInDim S4096x4096 ![0, 1] bcast_S4096x1_S4096x4096_0_1 : (⟨S4096x1, .f32⟩ : BufTy).Contents (Elt F) → (⟨S4096x4096, .f32⟩ : BufTy).Contents (Elt F)),
    binary main_v35 main_v36 main_v37 (Host.divf : (⟨S4096x4096, .f32⟩ : BufTy).Contents (Elt F) → (⟨S4096x4096, .f32⟩ : BufTy).Contents (Elt F) → (⟨S4096x4096, .f32⟩ : BufTy).Contents (Elt F)),
    unary main_arg2 main_v38 (Host.absf : (⟨S11008x4096, .f32⟩ : BufTy).Contents (Elt F) → (⟨S11008x4096, .f32⟩ : BufTy).Contents (Elt F)),
    nullary main_cst_14 (constant S_ .f32 0x00000000#32),
    binary main_v38 main_cst_14 main_v39 ((fun x v => Host.reduceAdd x v reducesTo_S11008x4096_S_d0_1 h_S_) : (⟨S11008x4096, .f32⟩ : BufTy).Contents (Elt F) → (⟨S_, .f32⟩ : BufTy).Contents (Elt F) → (⟨S_, .f32⟩ : BufTy).Contents (Elt F)),
    nullary main_cst_15 (constant S_ .f32 0x4C2C0000#32),
    binary main_v39 main_cst_15 main_v40 (Host.divf : (⟨S_, .f32⟩ : BufTy).Contents (Elt F) → (⟨S_, .f32⟩ : BufTy).Contents (Elt F) → (⟨S_, .f32⟩ : BufTy).Contents (Elt F)),
    nullary main_cst_16 (constant S_ .f32 0x3727C5AC#32),
    unary main_cst_16 main_call10_v0 (id : (⟨S_, .f32⟩ : BufTy).Contents (Elt F) → (⟨S_, .f32⟩ : BufTy).Contents (Elt F)),
    binary main_call10_v0 main_v40 main_v41 (maximumf : (⟨S_, .f32⟩ : BufTy).Contents (Elt F) → (⟨S_, .f32⟩ : BufTy).Contents (Elt F) → (⟨S_, .f32⟩ : BufTy).Contents (Elt F)),
    nullary main_cst_17 (constant S_ .f32 0x3F800000#32),
    binary main_cst_17 main_v41 main_v42 (Host.divf : (⟨S_, .f32⟩ : BufTy).Contents (Elt F) → (⟨S_, .f32⟩ : BufTy).Contents (Elt F) → (⟨S_, .f32⟩ : BufTy).Contents (Elt F)),
    unary main_v42 main_v43 (broadcastInDim S11008x4096 ![] bcast_S_S11008x4096 : (⟨S_, .f32⟩ : BufTy).Contents (Elt F) → (⟨S11008x4096, .f32⟩ : BufTy).Contents (Elt F)),
    binary main_arg2 main_v43 main_v44 (mulf : (⟨S11008x4096, .f32⟩ : BufTy).Contents (Elt F) → (⟨S11008x4096, .f32⟩ : BufTy).Contents (Elt F) → (⟨S11008x4096, .f32⟩ : BufTy).Contents (Elt F)),
    unary main_v44 main_v45 (Host.roundeven : (⟨S11008x4096, .f32⟩ : BufTy).Contents (Elt F) → (⟨S11008x4096, .f32⟩ : BufTy).Contents (Elt F)),
    nullary main_cst_18 (constant S_ .f32 0xBF800000#32),
    nullary main_cst_19 (constant S_ .f32 0x3F800000#32),
    unary main_cst_18 main_call12_v0 (id : (⟨S_, .f32⟩ : BufTy).Contents (Elt F) → (⟨S_, .f32⟩ : BufTy).Contents (Elt F)),
    unary main_call12_v0 main_call12_v1 ((broadcastInDim S11008x4096 ![] bcast_S_S11008x4096) : (⟨S_, .f32⟩ : BufTy).Contents (Elt F) → (⟨S11008x4096, .f32⟩ : BufTy).Contents (Elt F)),
    binary main_call12_v1 main_v45 main_call12_v2 (maximumf : (⟨S11008x4096, .f32⟩ : BufTy).Contents (Elt F) → (⟨S11008x4096, .f32⟩ : BufTy).Contents (Elt F) → (⟨S11008x4096, .f32⟩ : BufTy).Contents (Elt F)),
    unary main_cst_19 main_call12_v3 (id : (⟨S_, .f32⟩ : BufTy).Contents (Elt F) → (⟨S_, .f32⟩ : BufTy).Contents (Elt F)),
    unary main_call12_v3 main_call12_v4 ((broadcastInDim S11008x4096 ![] bcast_S_S11008x4096) : (⟨S_, .f32⟩ : BufTy).Contents (Elt F) → (⟨S11008x4096, .f32⟩ : BufTy).Contents (Elt F)),
    binary main_call12_v4 main_call12_v2 main_v46 (minimumf : (⟨S11008x4096, .f32⟩ : BufTy).Contents (Elt F) → (⟨S11008x4096, .f32⟩ : BufTy).Contents (Elt F) → (⟨S11008x4096, .f32⟩ : BufTy).Contents (Elt F)),
    unary main_v42 main_v47 (broadcastInDim S11008x4096 ![] bcast_S_S11008x4096 : (⟨S_, .f32⟩ : BufTy).Contents (Elt F) → (⟨S11008x4096, .f32⟩ : BufTy).Contents (Elt F)),
    binary main_v46 main_v47 main_v48 (Host.divf : (⟨S11008x4096, .f32⟩ : BufTy).Contents (Elt F) → (⟨S11008x4096, .f32⟩ : BufTy).Contents (Elt F) → (⟨S11008x4096, .f32⟩ : BufTy).Contents (Elt F)),
    unary main_v48 main_v49 ((transpose S4096x11008 [1, 0] · transposes_S11008x4096_S4096x11008_1_0) : (⟨S11008x4096, .f32⟩ : BufTy).Contents (Elt F) → (⟨S4096x11008, .f32⟩ : BufTy).Contents (Elt F)),
    binary main_v37 main_v49 main_v50 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)),
    binary main_v25 main_v50 main_v51 (mulf : (⟨S4096x11008, .f32⟩ : BufTy).Contents (Elt F) → (⟨S4096x11008, .f32⟩ : BufTy).Contents (Elt F) → (⟨S4096x11008, .f32⟩ : BufTy).Contents (Elt F)) ]

/-- The two spellings are the same list: a buffer's type is the value's type by computation, so the transports are identities. -/
theorem opsB_eq : (opsB : List (HloOp τ sig (Elt F))) = opsB' := rfl

/-- Piece C with its inlined callees' operations spelt as plain operations. -/
abbrev opsC' : List (HloOp τ sig (Elt F)) :=
  [ binary main_v51 main_v51 main_v52 (mulf : (⟨S4096x11008, .f32⟩ : BufTy).Contents (Elt F) → (⟨S4096x11008, .f32⟩ : BufTy).Contents (Elt F) → (⟨S4096x11008, .f32⟩ : BufTy).Contents (Elt F)),
    nullary main_cst_20 (constant S_ .f32 0x00000000#32),
    binary main_v52 main_cst_20 main_v53 ((fun x v => Host.reduceAdd x v reducesTo_S4096x11008_S4096_d1 h_S_) : (⟨S4096x11008, .f32⟩ : BufTy).Contents (Elt F) → (⟨S_, .f32⟩ : BufTy).Contents (Elt F) → (⟨S4096, .f32⟩ : BufTy).Contents (Elt F)),
    unary main_v53 main_v54 (broadcastInDim S4096x1 ![0] bcast_S4096_S4096x1_0 : (⟨S4096, .f32⟩ : BufTy).Contents (Elt F) → (⟨S4096x1, .f32⟩ : BufTy).Contents (Elt F)),
    nullary main_cst_21 (constant S_ .f32 0x462C0000#32),
    unary main_cst_21 main_v55 (broadcastInDim S4096x1 ![] bcast_S_S4096x1 : (⟨S_, .f32⟩ : BufTy).Contents (Elt F) → (⟨S4096x1, .f32⟩ : BufTy).Contents (Elt F)),
    binary main_v54 main_v55 main_v56 (Host.divf : (⟨S4096x1, .f32⟩ : BufTy).Contents (Elt F) → (⟨S4096x1, .f32⟩ : BufTy).Contents (Elt F) → (⟨S4096x1, .f32⟩ : BufTy).Contents (Elt F)),
    nullary main_cst_22 (constant S_ .f32 0x358637BD#32),
    unary main_cst_22 main_v57 (broadcastInDim S4096x1 ![] bcast_S_S4096x1 : (⟨S_, .f32⟩ : BufTy).Contents (Elt F) → (⟨S4096x1, .f32⟩ : BufTy).Contents (Elt F)),
    binary main_v56 main_v57 main_v58 (addf : (⟨S4096x1, .f32⟩ : BufTy).Contents (Elt F) → (⟨S4096x1, .f32⟩ : BufTy).Contents (Elt F) → (⟨S4096x1, .f32⟩ : BufTy).Contents (Elt F)),
    unary main_v58 main_v59 (Host.rsqrt : (⟨S4096x1, .f32⟩ : BufTy).Contents (Elt F) → (⟨S4096x1, .f32⟩ : BufTy).Contents (Elt F)),
    unary main_v59 main_v60 (broadcastInDim S4096x11008 ![0, 1] bcast_S4096x1_S4096x11008_0_1 : (⟨S4096x1, .f32⟩ : BufTy).Contents (Elt F) → (⟨S4096x11008, .f32⟩ : BufTy).Contents (Elt F)),
    binary main_v51 main_v60 main_v61 (mulf : (⟨S4096x11008, .f32⟩ : BufTy).Contents (Elt F) → (⟨S4096x11008, .f32⟩ : BufTy).Contents (Elt F) → (⟨S4096x11008, .f32⟩ : BufTy).Contents (Elt F)),
    unary main_arg4 main_v62 (broadcastInDim S1x11008 ![1] bcast_S11008_S1x11008_1 : (⟨S11008, .f32⟩ : BufTy).Contents (Elt F) → (⟨S1x11008, .f32⟩ : BufTy).Contents (Elt F)),
    unary main_v62 main_v63 (broadcastInDim S4096x11008 ![0, 1] bcast_S1x11008_S4096x11008_0_1 : (⟨S1x11008, .f32⟩ : BufTy).Contents (Elt F) → (⟨S4096x11008, .f32⟩ : BufTy).Contents (Elt F)),
    binary main_v63 main_v61 main_v64 (mulf : (⟨S4096x11008, .f32⟩ : BufTy).Contents (Elt F) → (⟨S4096x11008, .f32⟩ : BufTy).Contents (Elt F) → (⟨S4096x11008, .f32⟩ : BufTy).Contents (Elt F)),
    unary main_v64 main_v65 (Host.absf : (⟨S4096x11008, .f32⟩ : BufTy).Contents (Elt F) → (⟨S4096x11008, .f32⟩ : BufTy).Contents (Elt F)),
    nullary main_cst_23 (constant S_ .f32 0xFF800000#32),
    binary main_v65 main_cst_23 main_v66 ((fun x v => Host.reduce FloatOps.maximumf x v reducesTo_S4096x11008_S4096_d1 h_S_) : (⟨S4096x11008, .f32⟩ : BufTy).Contents (Elt F) → (⟨S_, .f32⟩ : BufTy).Contents (Elt F) → (⟨S4096, .f32⟩ : BufTy).Contents (Elt F)),
    unary main_v66 main_v67 (broadcastInDim S4096x1 ![0] bcast_S4096_S4096x1_0 : (⟨S4096, .f32⟩ : BufTy).Contents (Elt F) → (⟨S4096x1, .f32⟩ : BufTy).Contents (Elt F)),
    nullary main_cst_24 (constant S_ .f32 0x3727C5AC#32),
    unary main_cst_24 main_call13_v0 (id : (⟨S_, .f32⟩ : BufTy).Contents (Elt F) → (⟨S_, .f32⟩ : BufTy).Contents (Elt F)),
    unary main_call13_v0 main_call13_v1 ((broadcastInDim S4096x1 ![] bcast_S_S4096x1) : (⟨S_, .f32⟩ : BufTy).Contents (Elt F) → (⟨S4096x1, .f32⟩ : BufTy).Contents (Elt F)),
    binary main_call13_v1 main_v67 main_v68 (maximumf : (⟨S4096x1, .f32⟩ : BufTy).Contents (Elt F) → (⟨S4096x1, .f32⟩ : BufTy).Contents (Elt F) → (⟨S4096x1, .f32⟩ : BufTy).Contents (Elt F)),
    nullary main_cst_25 (constant S_ .f32 0x42FE0000#32),
    unary main_cst_25 main_v69 (broadcastInDim S4096x1 ![] bcast_S_S4096x1 : (⟨S_, .f32⟩ : BufTy).Contents (Elt F) → (⟨S4096x1, .f32⟩ : BufTy).Contents (Elt F)),
    binary main_v69 main_v68 main_v70 (Host.divf : (⟨S4096x1, .f32⟩ : BufTy).Contents (Elt F) → (⟨S4096x1, .f32⟩ : BufTy).Contents (Elt F) → (⟨S4096x1, .f32⟩ : BufTy).Contents (Elt F)),
    unary main_v70 main_v71 (broadcastInDim S4096x11008 ![0, 1] bcast_S4096x1_S4096x11008_0_1 : (⟨S4096x1, .f32⟩ : BufTy).Contents (Elt F) → (⟨S4096x11008, .f32⟩ : BufTy).Contents (Elt F)),
    binary main_v64 main_v71 main_v72 (mulf : (⟨S4096x11008, .f32⟩ : BufTy).Contents (Elt F) → (⟨S4096x11008, .f32⟩ : BufTy).Contents (Elt F) → (⟨S4096x11008, .f32⟩ : BufTy).Contents (Elt F)),
    unary main_v72 main_v73 (Host.roundeven : (⟨S4096x11008, .f32⟩ : BufTy).Contents (Elt F) → (⟨S4096x11008, .f32⟩ : BufTy).Contents (Elt F)),
    nullary main_c_26 (constantI S_ 32 4294967168#32),
    nullary main_c_27 (constantI S_ 32 127#32),
    unary main_c_26 main_call15_v0 ((sitofp .f32) : (⟨S_, .i32⟩ : BufTy).Contents (Elt F) → (⟨S_, .f32⟩ : BufTy).Contents (Elt F)),
    unary main_call15_v0 main_call15_v1 ((broadcastInDim S4096x11008 ![] bcast_S_S4096x11008) : (⟨S_, .f32⟩ : BufTy).Contents (Elt F) → (⟨S4096x11008, .f32⟩ : BufTy).Contents (Elt F)),
    binary main_call15_v1 main_v73 main_call15_v2 (maximumf : (⟨S4096x11008, .f32⟩ : BufTy).Contents (Elt F) → (⟨S4096x11008, .f32⟩ : BufTy).Contents (Elt F) → (⟨S4096x11008, .f32⟩ : BufTy).Contents (Elt F)),
    unary main_c_27 main_call15_v3 ((sitofp .f32) : (⟨S_, .i32⟩ : BufTy).Contents (Elt F) → (⟨S_, .f32⟩ : BufTy).Contents (Elt F)),
    unary main_call15_v3 main_call15_v4 ((broadcastInDim S4096x11008 ![] bcast_S_S4096x11008) : (⟨S_, .f32⟩ : BufTy).Contents (Elt F) → (⟨S4096x11008, .f32⟩ : BufTy).Contents (Elt F)),
    binary main_call15_v4 main_call15_v2 main_v74 (minimumf : (⟨S4096x11008, .f32⟩ : BufTy).Contents (Elt F) → (⟨S4096x11008, .f32⟩ : BufTy).Contents (Elt F) → (⟨S4096x11008, .f32⟩ : BufTy).Contents (Elt F)),
    unary main_v70 main_v75 (broadcastInDim S4096x11008 ![0, 1] bcast_S4096x1_S4096x11008_0_1 : (⟨S4096x1, .f32⟩ : BufTy).Contents (Elt F) → (⟨S4096x11008, .f32⟩ : BufTy).Contents (Elt F)),
    binary main_v74 main_v75 main_v76 (Host.divf : (⟨S4096x11008, .f32⟩ : BufTy).Contents (Elt F) → (⟨S4096x11008, .f32⟩ : BufTy).Contents (Elt F) → (⟨S4096x11008, .f32⟩ : BufTy).Contents (Elt F)) ]

/-- The two spellings are the same list: a buffer's type is the value's type by computation, so the transports are identities. -/
theorem opsC_eq : (opsC : List (HloOp τ sig (Elt F))) = opsC' := rfl

variable (W : Valuation τ sig (Elt F))

/-- Piece A leaves silu of the gate projection in v25. -/
theorem evalA (x0 : (⟨S4096x4096, .f32⟩ : BufTy).Contents (Elt F)) (x1 : (⟨S11008x4096, .f32⟩ : BufTy).Contents (Elt F))
    (h0 : W (Proc.devRef .tc main_arg0) = x0) (h1 : W (Proc.devRef .tc main_arg1) = x1) :
    after opsA W (Proc.devRef .tc main_v25) = ReadP.val_main_v25 (F := F) x0 x1 := by
  rw [opsA_eq]
  unfold opsA'
  after_results_simp
  simp only [h0, h1]
  rfl

/-- Piece B leaves h in v51. -/
theorem evalB (x0 : (⟨S4096x4096, .f32⟩ : BufTy).Contents (Elt F)) (x1 x2 : (⟨S11008x4096, .f32⟩ : BufTy).Contents (Elt F))
    (h0 : W (Proc.devRef .tc main_arg0) = x0) (h2 : W (Proc.devRef .tc main_arg2) = x2)
    (h25 : W (Proc.devRef .tc main_v25) = ReadP.val_main_v25 (F := F) x0 x1) :
    after opsB W (Proc.devRef .tc main_v51) = ReadP.val_main_v51 (F := F) x0 x1 x2 := by
  rw [opsB_eq]
  unfold opsB'
  after_results_simp
  simp only [h0, h2, h25]
  rfl

/-- Piece C leaves hq in v76. -/
theorem evalC (x0 : (⟨S4096x4096, .f32⟩ : BufTy).Contents (Elt F)) (x1 x2 : (⟨S11008x4096, .f32⟩ : BufTy).Contents (Elt F))
    (x4 : (⟨S11008, .f32⟩ : BufTy).Contents (Elt F))
    (h4 : W (Proc.devRef .tc main_arg4) = x4)
    (h51 : W (Proc.devRef .tc main_v51) = ReadP.val_main_v51 (F := F) x0 x1 x2) :
    after opsC W (Proc.devRef .tc main_v76) = ReadP.val_main_v76 (F := F) x0 x1 x2 x4 := by
  rw [opsC_eq]
  unfold opsC'
  after_results_simp
  simp only [h4, h51]
  rfl

/-- Piece D leaves the result in v89. -/
theorem evalD (x0 : (⟨S4096x4096, .f32⟩ : BufTy).Contents (Elt F)) (x1 x2 : (⟨S11008x4096, .f32⟩ : BufTy).Contents (Elt F))
    (x3 : (⟨S4096x11008, .f32⟩ : BufTy).Contents (Elt F)) (x4 : (⟨S11008, .f32⟩ : BufTy).Contents (Elt F))
    (h3 : W (Proc.devRef .tc main_arg3) = x3)
    (h76 : W (Proc.devRef .tc main_v76) = ReadP.val_main_v76 (F := F) x0 x1 x2 x4) :
    after opsD W (Proc.devRef .tc main_v89) = ReadP.val_main_v89 (F := F) x0 x1 x2 x3 x4 := by
  unfold opsD
  after_results_simp
  simp only [h3, h76]
  rfl

/-- The five argument buffers of the reference. -/
def IsArg (b : Ref sig .tc) : Prop :=
  b = main_arg0 ∨ b = main_arg1 ∨ b = main_arg2 ∨ b = main_arg3 ∨ b = main_arg4

/-- No operation of piece A writes an argument. -/
theorem passA (b : Ref sig .tc) (hb : IsArg b) : after opsA W (Proc.devRef .tc b) = W (Proc.devRef .tc b) := by
  rcases hb with rfl | rfl | rfl | rfl | rfl <;> (unfold opsA; after_results_simp)

/-- No operation of piece B writes an argument. -/
theorem passB (b : Ref sig .tc) (hb : IsArg b) : after opsB W (Proc.devRef .tc b) = W (Proc.devRef .tc b) := by
  rcases hb with rfl | rfl | rfl | rfl | rfl <;> (unfold opsB; after_results_simp)

/-- No operation of piece C writes an argument. -/
theorem passC (b : Ref sig .tc) (hb : IsArg b) : after opsC W (Proc.devRef .tc b) = W (Proc.devRef .tc b) := by
  rcases hb with rfl | rfl | rfl | rfl | rfl <;> (unfold opsC; after_results_simp)

/-- No operation of piece D writes an argument. -/
theorem passD (b : Ref sig .tc) (hb : IsArg b) : after opsD W (Proc.devRef .tc b) = W (Proc.devRef .tc b) := by
  rcases hb with rfl | rfl | rfl | rfl | rfl <;> (unfold opsD; after_results_simp)

/-- The whole fold leaves every argument as it was: piece by piece. -/
theorem fold_arg (b : Ref sig .tc) (hb : IsArg b) : after (ops (F := F)) W (Proc.devRef .tc b) = W (Proc.devRef .tc b) := by
  rw [ops_split, after_append, after_append, after_append, passD _ b hb, passC _ b hb, passB _ b hb, passA _ b hb]

/-- The whole fold, read at the result buffer: the last stage of the five arguments' contents.  Each piece is
    evaluated at the valuation the pieces before it leave; its inputs there are the earlier pieces' results and the
    arguments, which the earlier pieces pass through. -/
theorem fold_eval :
    after (ops (F := F)) W (Proc.devRef .tc main_v89)
      = ReadP.val_main_v89 (F := F) (W (Proc.devRef .tc main_arg0)) (W (Proc.devRef .tc main_arg1)) (W (Proc.devRef .tc main_arg2))
          (W (Proc.devRef .tc main_arg3)) (W (Proc.devRef .tc main_arg4)) := by
  have a0 : IsArg (main_arg0) := Or.inl rfl
  have a2 : IsArg (main_arg2) := Or.inr (Or.inr (Or.inl rfl))
  have a3 : IsArg (main_arg3) := Or.inr (Or.inr (Or.inr (Or.inl rfl)))
  have a4 : IsArg (main_arg4) := Or.inr (Or.inr (Or.inr (Or.inr rfl)))
  rw [ops_split, after_append, after_append, after_append]
  have hA := evalA W _ _ rfl rfl
  have hB := evalB (after opsA W) _ _ _ (passA W _ a0) (passA W _ a2) hA
  have hC := evalC (after opsB (after opsA W)) _ _ _ _ ((passB _ _ a4).trans (passA W _ a4)) hB
  exact evalD (after opsC (after opsB (after opsA W))) _ _ _ _ _
    ((passC _ _ a3).trans ((passB _ _ a3).trans (passA W _ a3))) hC

/-- The reference's run: every weakly fair execution ends with the result buffer at the last stage of the five
    arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = ReadP.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (RunP.run_fold m ρ)
  refine ⟨?_, ?_, ?_, ?_, ?_, ?_⟩
  · exact (h c main_v89).trans (fold_eval _)
  · exact (h c main_arg0).trans (fold_arg _ _ (Or.inl rfl))
  · exact (h c main_arg1).trans (fold_arg _ _ (Or.inr (Or.inl rfl)))
  · exact (h c main_arg2).trans (fold_arg _ _ (Or.inr (Or.inr (Or.inl rfl))))
  · exact (h c main_arg3).trans (fold_arg _ _ (Or.inr (Or.inr (Or.inr (Or.inl rfl)))))
  · exact (h c main_arg4).trans (fold_arg _ _ (Or.inr (Or.inr (Or.inr (Or.inr rfl)))))

end Cert.ReferenceIdeal.RunH

end
-- ==== Proof.Consts.lean ====
/- The two clip bounds of the 8-bit grid, as the extended reals their spellings denote: one program writes them as the
   float words of 127.0 and -128.0, the other converts the integers 127 and -128; both are the reals 127 and -128. -/
import Idealize.ShloMosaic.PureOps.Ideal

noncomputable section

namespace Cert.Mlp.Consts

open Idealize.ShloMosaic

/-- The word of 127.0 denotes the real 127. -/
theorem ofBits_127 : Ideal.ofBits .f32 0x42FE0000#32 = ((127 : ℝ) : EReal) := by
  simp [Ideal.ofBits, Ideal.ieee, -EReal.coe_mul]; norm_num

/-- The word of -128.0 denotes the real -128. -/
theorem ofBits_neg128 : Ideal.ofBits .f32 0xC3000000#32 = ((-128 : ℝ) : EReal) := by
  simp [Ideal.ofBits, Ideal.ieee, -EReal.coe_mul]; norm_num

/-- The integer 127 converted to a float is the word of 127.0. -/
theorem sitofp_127 : FloatOps.sitofp (F := Ideal) .f32 (127#32 : BitVec 32) = Ideal.ofBits .f32 0x42FE0000#32 := by
  rw [ofBits_127]
  show (((127#32 : BitVec 32).toInt : ℝ) : EReal) = _
  rw [show (127#32 : BitVec 32).toInt = 127 from by decide]
  norm_num

/-- The integer -128 (as a 32-bit word) converted to a float is the word of -128.0. -/
theorem sitofp_neg128 : FloatOps.sitofp (F := Ideal) .f32 (4294967168#32 : BitVec 32) = Ideal.ofBits .f32 0xC3000000#32 := by
  rw [ofBits_neg128]
  show (((4294967168#32 : BitVec 32).toInt : ℝ) : EReal) = _
  rw [show (4294967168#32 : BitVec 32).toInt = -128 from by decide]
  norm_num

end Cert.Mlp.Consts

end
-- ==== Proof.RefXQ.lean ====
/-
  The reference's first stage is XQ: its rows of x quantised.

  The reference takes each row's absolute maximum by a whole-array reduction over the column axis, clips it below at
  1e-5, divides 127 by it, broadcasts that scale along the row, multiplies, rounds, clips to [-128, 127] (the bounds
  converted from the integers) and divides by the scale again: entry (p, q) is quantAt (rowScale (row p)) (x p q).
  It computes this twice (once for each projection); the two copies are the same function of x.
-/
import proofs.«400165_j82867099009123_3_alg».proof.Proof.RefRead
import proofs.«400165_j82867099009123_3_alg».proof.Proof.Spec
import proofs.«400165_j82867099009123_3_alg».proof.Proof.LibRows
import proofs.«400165_j82867099009123_3_alg».proof.Proof.Consts

set_option maxRecDepth 16384

noncomputable section

namespace Cert.Mlp.Ref

open Idealize.ShloMosaic Idealize.ShloMosaic.TcCoe Idealize.ShloMosaic.ValueIdx
open Cert.ReferenceIdeal Cert.ReferenceIdeal.ReadP Cert.Mlp

/-- The first copy of the quantised activations. -/
theorem xq_eq (x0 : S4096x4096.Idx → EReal) : val_main_v11 (F := Ideal) x0 = XQ x0 := by
  funext i
  rw [val_main_v11_apply, val_main_v9_apply, val_main_call2_v4_apply, val_main_call2_v3_apply, val_main_c_2_apply,
    val_main_call2_v2_apply, val_main_call2_v1_apply, val_main_call2_v0_apply, val_main_c_apply,
    val_main_v8_apply, val_main_v7_apply, val_main_v6_apply, val_main_v10_apply, val_main_v5_apply,
    val_main_v4_apply, val_main_cst_1_apply, val_main_v3_apply, val_main_call0_v1_apply, val_main_call0_v0_apply,
    val_main_cst_0_apply, val_main_v2_apply]
  have e2 : idx_main_v2 (idx_main_v6 i) = ix1 (r0 i) := funext fun a => by match a with | ⟨0, _⟩ => rfl
  have hmax : val_main_v1 (F := Ideal) x0 (ix1 (r0 i)) = rowAbsMax (fun k => x0 (ix2 (r0 i) k)) := by
    unfold val_main_v1
    exact Cert.LibRows.rowMax_host (φ := .f32) (val_main_v0 (F := Ideal) x0) (val_main_cst (F := Ideal)) _ (by decide) _ (r0 i)
  have hi : x0 i = x0 (ix2 (r0 i) (r1 i)) := by rw [ix2_r0_r1]
  rw [e2, hmax, Cert.Mlp.Consts.sitofp_127, Cert.Mlp.Consts.sitofp_neg128, hi]
  rfl

end Cert.Mlp.Ref

end
-- ==== Proof.RefGU.lean ====
/-
  The reference's h is GU: the gated product of the two projections of the quantised activations.

  Each projection is a whole-array product of the quantised activations with the transpose of a quantised weight
  matrix: entry (p, n) is the sum over k of xq[p, k] · w[n, k].  The gate projection passes through silu, spelt by the
  reference as g · (1 / (1 + exp(-g))), which is g · logistic g; the result is multiplied by the up projection.  The
  reference quantises x a second time for the up projection; that copy is the same function of x as the first.
-/
import proofs.«400165_j82867099009123_3_alg».proof.Proof.RefRead
import proofs.«400165_j82867099009123_3_alg».proof.Proof.Spec
import proofs.«400165_j82867099009123_3_alg».proof.Proof.LibRows
import proofs.«400165_j82867099009123_3_alg».proof.Proof.Consts
import proofs.«400165_j82867099009123_3_alg».proof.Proof.RefXQ
set_option maxRecDepth 16384

noncomputable section

namespace Cert.Mlp.Ref

open Idealize.ShloMosaic Idealize.ShloMosaic.TcCoe Idealize.ShloMosaic.ValueIdx
open Cert.ReferenceIdeal Cert.ReferenceIdeal.ReadP Cert.Mlp

/-- The second copy of the quantised activations is XQ as well. -/
theorem xq2_eq (x0 : S4096x4096.Idx → EReal) : val_main_v37 (F := Ideal) x0 = XQ x0 := by
  funext i
  rw [val_main_v37_apply, val_main_v35_apply, val_main_call9_v4_apply, val_main_call9_v3_apply, val_main_c_13_apply,
    val_main_call9_v2_apply, val_main_call9_v1_apply, val_main_call9_v0_apply, val_main_c_12_apply,
    val_main_v34_apply, val_main_v33_apply, val_main_v32_apply, val_main_v36_apply, val_main_v31_apply,
    val_main_v30_apply, val_main_cst_11_apply, val_main_v29_apply, val_main_call7_v1_apply, val_main_call7_v0_apply,
    val_main_cst_10_apply, val_main_v28_apply]
  have e2 : idx_main_v28 (idx_main_v32 i) = ix1 (r0 i) := funext fun a => by match a with | ⟨0, _⟩ => rfl
  have hmax : val_main_v27 (F := Ideal) x0 (ix1 (r0 i)) = rowAbsMax (fun k => x0 (ix2 (r0 i) k)) := by
    unfold val_main_v27
    exact Cert.LibRows.rowMax_host (φ := .f32) (val_main_v26 (F := Ideal) x0) (val_main_cst_9 (F := Ideal)) _ (by decide) _ (r0 i)
  have hi : x0 i = x0 (ix2 (r0 i) (r1 i)) := by rw [ix2_r0_r1]
  rw [e2, hmax, Cert.Mlp.Consts.sitofp_127, Cert.Mlp.Consts.sitofp_neg128, hi]
  rfl

/-- The word of 1.0 denotes the real 1. -/
theorem ofBits_one : Ideal.ofBits .f32 0x3F800000#32 = 1 := by
  simp [Ideal.ofBits, Ideal.ieee, -EReal.coe_mul]; norm_num

/-- The reference's spelling of silu(g) · u, g · (1 / (1 + exp(-g))) · u, is swiglu g u. -/
theorem silu_mul (g u : EReal) :
    FloatOps.mulf (F := Ideal) (φ := .f32)
      (FloatOps.mulf (F := Ideal) (φ := .f32) g
        (FloatOps.hostDivf (F := Ideal) (φ := .f32) (FloatOps.ofBits (F := Ideal) .f32 0x3F800000#32)
          (FloatOps.addf (F := Ideal) (φ := .f32) (FloatOps.ofBits (F := Ideal) .f32 0x3F800000#32)
            (FloatOps.hostUnary (F := Ideal) (φ := .f32) .exp (FloatOps.hostNegf (F := Ideal) (φ := .f32) g))))) u
      = swiglu g u := by
  show (g * Ideal.div (Ideal.ofBits .f32 0x3F800000#32) (Ideal.ofBits .f32 0x3F800000#32 + Ideal.exp (-g))) * u = swiglu g u
  rw [ofBits_one]
  rfl

/-- The left operand of the gate projection is read at (row of the result, k). -/
theorem lidx_v24_eq (i : S4096x11008.Idx) (k : Fin 4096) : lidx_main_v24 i k = ix2 (r0 i) k :=
  funext fun a => by match a with | ⟨0, _⟩ => rfl | ⟨1, _⟩ => rfl

/-- The transposed gate weights at (k, column of the result) are the weights at (column of the result, k). -/
theorem ridx_v24_eq (i : S4096x11008.Idx) (k : Fin 4096) : idx_main_v23 (ridx_main_v24 i k) = ix2 (r1 i) k :=
  funext fun a => by match a with | ⟨0, _⟩ => rfl | ⟨1, _⟩ => rfl

/-- The left operand of the up projection is read at (row of the result, k). -/
theorem lidx_v50_eq (i : S4096x11008.Idx) (k : Fin 4096) : lidx_main_v50 i k = ix2 (r0 i) k :=
  funext fun a => by match a with | ⟨0, _⟩ => rfl | ⟨1, _⟩ => rfl

/-- The transposed up weights at (k, column of the result) are the weights at (column of the result, k). -/
theorem ridx_v50_eq (i : S4096x11008.Idx) (k : Fin 4096) : idx_main_v49 (ridx_main_v50 i k) = ix2 (r1 i) k :=
  funext fun a => by match a with | ⟨0, _⟩ => rfl | ⟨1, _⟩ => rfl

/-- The gate projection: entry (p, n) is the sum over k of xq[p, k] · wg[n, k]. -/
theorem gate_eq (x0 : S4096x4096.Idx → EReal) (x1 : S11008x4096.Idx → EReal) (i : S4096x11008.Idx) :
    val_main_v24 (F := Ideal) x0 x1 i
      = ∑ k : Fin 4096, XQ x0 (ix2 (r0 i) k) * val_main_v22 (F := Ideal) x1 (ix2 (r1 i) k) := by
  rw [val_main_v24_apply]
  refine Finset.sum_congr rfl fun k _ => ?_
  rw [val_main_v23_apply, xq_eq, lidx_v24_eq, ridx_v24_eq]

/-- The up projection: entry (p, n) is the sum over k of xq[p, k] · wu[n, k]. -/
theorem up_eq (x0 : S4096x4096.Idx → EReal) (x2 : S11008x4096.Idx → EReal) (i : S4096x11008.Idx) :
    val_main_v50 (F := Ideal) x0 x2 i
      = ∑ k : Fin 4096, XQ x0 (ix2 (r0 i) k) * val_main_v48 (F := Ideal) x2 (ix2 (r1 i) k) := by
  rw [val_main_v50_apply]
  refine Finset.sum_congr rfl fun k _ => ?_
  rw [val_main_v49_apply, xq2_eq, lidx_v50_eq, ridx_v50_eq]

/-- h, the gated product. -/
theorem gu_eq (x0 : S4096x4096.Idx → EReal) (x1 x2 : S11008x4096.Idx → EReal) :
    val_main_v51 (F := Ideal) x0 x1 x2 = GU (XQ x0) (val_main_v22 (F := Ideal) x1) (val_main_v48 (F := Ideal) x2) := by
  funext i
  rw [val_main_v51_apply, val_main_v25_apply, val_main_call6_v5_apply, val_main_call6_v4_apply,
    val_main_call6_cst_0_apply, val_main_call6_v3_apply, val_main_call6_v2_apply, val_main_call6_cst_apply,
    val_main_call6_v1_apply, val_main_call6_v0_apply, gate_eq, up_eq]
  exact silu_mul _ _

end Cert.Mlp.Ref

end
-- ==== Proof.RefHQ.lean ====
/-
  The reference's hq is HQ: the RMS norm of h's rows, weighted by ln, then quantised row by row.

  The norm: each row's sum of squares (a host sum from 0 over the column axis) divided by 11008, plus 1e-6, under a
  reciprocal square root, broadcast along the row and multiplied into h; ln broadcast along the columns and multiplied
  on the left.  The quantisation is the same row-wise absmax quantisation as for x, on a 4096 × 11008 matrix.
-/
import proofs.«400165_j82867099009123_3_alg».proof.Proof.RefRead
import proofs.«400165_j82867099009123_3_alg».proof.Proof.Spec
import proofs.«400165_j82867099009123_3_alg».proof.Proof.LibRows
import proofs.«400165_j82867099009123_3_alg».proof.Proof.Consts

set_option maxRecDepth 16384

noncomputable section

namespace Cert.Mlp.Ref

open Idealize.ShloMosaic Idealize.ShloMosaic.TcCoe Idealize.ShloMosaic.ValueIdx
open Cert.ReferenceIdeal Cert.ReferenceIdeal.ReadP Cert.Mlp

/-- hn, the normalised h weighted by ln: entry (p, q) is ln q · (h p q · rsqrt(mean_k h[p,k]² + 1e-6)). -/
theorem hn_eq (x0 : S4096x4096.Idx → EReal) (x1 x2 : S11008x4096.Idx → EReal) (x4 : S11008.Idx → EReal) :
    val_main_v64 (F := Ideal) x0 x1 x2 x4 = HN (val_main_v51 (F := Ideal) x0 x1 x2) x4 := by
  funext i
  rw [val_main_v64_apply, val_main_v63_apply, val_main_v62_apply, val_main_v61_apply, val_main_v60_apply,
    val_main_v59_apply, val_main_v58_apply, val_main_v57_apply, val_main_cst_22_apply, val_main_v56_apply,
    val_main_v55_apply, val_main_cst_21_apply, val_main_v54_apply, val_main_v53_apply, val_main_cst_20_apply]
  -- the weight's coordinate is the column; the summed row is the entry's row
  have e62 : idx_main_v62 (idx_main_v63 i) = ix1 (r1 i) := funext fun a => by match a with | ⟨0, _⟩ => rfl
  have hsum : (∑ k : Fin 11008, val_main_v52 (F := Ideal) x0 x1 x2 (idx_main_v53 (idx_main_v54 (idx_main_v60 i)) k))
      = ∑ k : Fin 11008, val_main_v51 (F := Ideal) x0 x1 x2 (ix2 (r0 i) k) * val_main_v51 (F := Ideal) x0 x1 x2 (ix2 (r0 i) k) :=
    Finset.sum_congr rfl fun k _ => by
      have ek : idx_main_v53 (idx_main_v54 (idx_main_v60 i)) k = ix2 (r0 i) k :=
        funext fun a => by match a with | ⟨0, _⟩ => rfl | ⟨1, _⟩ => rfl
      rw [val_main_v52_apply, ek]
      rfl
  have h0 : FloatOps.ofBits (F := Ideal) .f32 0x00000000#32 = 0 := Ideal.ofBits_zero_f32
  rw [e62, hsum, h0, zero_add]
  rfl

/-- hq, the quantised normalised h. -/
theorem hq_eq (x0 : S4096x4096.Idx → EReal) (x1 x2 : S11008x4096.Idx → EReal) (x4 : S11008.Idx → EReal) :
    val_main_v76 (F := Ideal) x0 x1 x2 x4 = HQ (val_main_v51 (F := Ideal) x0 x1 x2) x4 := by
  funext i
  rw [val_main_v76_apply, val_main_v75_apply, val_main_v74_apply, val_main_call15_v4_apply, val_main_call15_v3_apply,
    val_main_c_27_apply, val_main_call15_v2_apply, val_main_call15_v1_apply, val_main_call15_v0_apply,
    val_main_c_26_apply, val_main_v73_apply, val_main_v72_apply, val_main_v71_apply, val_main_v70_apply,
    val_main_v69_apply, val_main_cst_25_apply, val_main_v68_apply, val_main_call13_v1_apply,
    val_main_call13_v0_apply, val_main_cst_24_apply, val_main_v67_apply]
  -- both broadcasts of the scale read it at the entry's row (their two index maps unfold to the same function)
  have e71 : idx_main_v67 (idx_main_v71 i) = ix1 (r0 i) := funext fun a => by match a with | ⟨0, _⟩ => rfl
  -- the row maximum, over the magnitudes of hn's row
  have hmax : val_main_v66 (F := Ideal) x0 x1 x2 x4 (ix1 (r0 i))
      = rowAbsMax (fun k => HN (val_main_v51 (F := Ideal) x0 x1 x2) x4 (ix2 (r0 i) k)) := by
    unfold val_main_v66 val_main_v65
    rw [hn_eq]
    exact Cert.LibRows.rowMax_host (φ := .f32) (Host.absf (HN (val_main_v51 (F := Ideal) x0 x1 x2) x4))
      (val_main_cst_23 (F := Ideal)) _ (by decide) _ (r0 i)
  have hi : HN (val_main_v51 (F := Ideal) x0 x1 x2) x4 i
      = HN (val_main_v51 (F := Ideal) x0 x1 x2) x4 (ix2 (r0 i) (r1 i)) := by rw [ix2_r0_r1]
  rw [e71, hmax, Cert.Mlp.Consts.sitofp_127, Cert.Mlp.Consts.sitofp_neg128, hn_eq, hi]
  rfl

end Cert.Mlp.Ref

end
-- ==== Proof.RefDN.lean ====
/-
  The reference's result is DN: the quantised normalised h times the transpose of the quantised down weights,
  entry (p, n) the sum over k of hq[p, k] · wd[n, k].
-/
import proofs.«400165_j82867099009123_3_alg».proof.Proof.RefRead
import proofs.«400165_j82867099009123_3_alg».proof.Proof.Spec
import proofs.«400165_j82867099009123_3_alg».proof.Proof.LibRows
import proofs.«400165_j82867099009123_3_alg».proof.Proof.Consts

set_option maxRecDepth 16384

noncomputable section

namespace Cert.Mlp.Ref

open Idealize.ShloMosaic Idealize.ShloMosaic.TcCoe Idealize.ShloMosaic.ValueIdx
open Cert.ReferenceIdeal Cert.ReferenceIdeal.ReadP Cert.Mlp

/-- The left operand of the down projection is read at (row of the result, k). -/
theorem lidx_v89_eq (i : S4096x4096.Idx) (k : Fin 11008) : lidx_main_v89 i k = ix2 (r0 i) k :=
  funext fun a => by match a with | ⟨0, _⟩ => rfl | ⟨1, _⟩ => rfl

/-- The transposed weights at (k, column of the result) are the weights at (column of the result, k). -/
theorem ridx_v89_eq (i : S4096x4096.Idx) (k : Fin 11008) : idx_main_v88 (ridx_main_v89 i k) = ix2 (r1 i) k :=
  funext fun a => by match a with | ⟨0, _⟩ => rfl | ⟨1, _⟩ => rfl

/-- out, the down projection. -/
theorem dn_eq (x0 : S4096x4096.Idx → EReal) (x1 x2 : S11008x4096.Idx → EReal) (x3 : S4096x11008.Idx → EReal) (x4 : S11008.Idx → EReal) :
    val_main_v89 (F := Ideal) x0 x1 x2 x3 x4 = DN (val_main_v76 (F := Ideal) x0 x1 x2 x4) (val_main_v87 (F := Ideal) x3) := by
  funext i
  rw [val_main_v89_apply]
  unfold DN
  refine Finset.sum_congr rfl fun k _ => ?_
  rw [val_main_v88_apply, lidx_v89_eq, ridx_v89_eq]

end Cert.Mlp.Ref

end
-- ==== Proof.lean ====
/-
  A quantised SwiGLU block (per-row 8-bit activation quantisation, ternary weights, an RMS norm between the two
  projections) written as four kernels, against the same computation on whole arrays.

  Both programs compute, at the extended reals,
      out = DN (HQ (GU (XQ x) wg wu) ln) wd
  (Proof/Spec.lean): XQ quantises x's rows; GU is silu of the gate projection times the up projection; HQ is the RMS
  norm weighted by ln, then quantised by rows; DN is the down projection; wg, wu, wd are the quantised weights, which
  both programs compute on the host by the same operations (Proof/HostW.lean).  The kernels compute each of the four
  functions block by block, each block a set of whole rows (so every row maximum and row sum is taken inside one
  block) or a tile of a matrix product (each entry one sum over the contracted coordinate); the blocks tile each
  array (Proof/Region0 … Region3.lean), and the buffers chain from one kernel to the next (Proof/KernelValue.lean).
  The other program's stages are the same four functions read one operation at a time (Proof/RefXQ, RefGU, RefHQ,
  RefDN.lean over the staged reading), and its run is the fold of its operations evaluated piece by piece
  (Proof/RefRunEval.lean).  No law of the extended reals is needed beyond reading each operation at an index: the two
  programs differ only in tiling, in float formats (the identity here), in spelling logistic, and in writing the clip
  bounds as integers.
-/
import proofs.«400165_j82867099009123_3_alg».proof.Defs
import proofs.«400165_j82867099009123_3_alg».proof.Proof.Gen.Kernel
import proofs.«400165_j82867099009123_3_alg».proof.Proof.Gen.Kernel.Skeleton
import proofs.«400165_j82867099009123_3_alg».proof.Proof.Gen.Kernel.Launch
import proofs.«400165_j82867099009123_3_alg».proof.Proof.Gen.Kernel.Points
import proofs.«400165_j82867099009123_3_alg».proof.Proof.Gen.Kernel.Frame
import proofs.«400165_j82867099009123_3_alg».proof.Proof.Gen.KernelIdeal
import proofs.«400165_j82867099009123_3_alg».proof.Proof.Gen.KernelIdeal.Skeleton
import proofs.«400165_j82867099009123_3_alg».proof.Proof.Gen.KernelIdeal.Launch
import proofs.«400165_j82867099009123_3_alg».proof.Proof.Gen.KernelIdeal.Points
import proofs.«400165_j82867099009123_3_alg».proof.Proof.Gen.KernelIdeal.Frame
import proofs.«400165_j82867099009123_3_alg».proof.Proof.Gen.ReferenceIdeal
import proofs.«400165_j82867099009123_3_alg».proof.Proof.Gen.Pre_finite_inputs
import proofs.«400165_j82867099009123_3_alg».proof.Proof.KernelRun
import proofs.«400165_j82867099009123_3_alg».proof.Proof.KernelValue
import proofs.«400165_j82867099009123_3_alg».proof.Proof.HostW
import proofs.«400165_j82867099009123_3_alg».proof.Proof.RefRunEval
import proofs.«400165_j82867099009123_3_alg».proof.Proof.RefXQ
import proofs.«400165_j82867099009123_3_alg».proof.Proof.RefGU
import proofs.«400165_j82867099009123_3_alg».proof.Proof.RefHQ
import proofs.«400165_j82867099009123_3_alg».proof.Proof.RefDN
import Idealize.ShloMosaic.Adequacy
import Idealize.ShloMosaic.Init

noncomputable section

namespace Cert.Proof

open Idealize.ShloMosaic Idealize.ShloMosaic.TcCoe Idealize.SL.Sem

namespace Pieces

/-- The reference's last stage is the composed function of its arguments. -/
theorem ref_value (x0 : Cert.ReferenceIdeal.S4096x4096.Idx → EReal) (x1 x2 : Cert.ReferenceIdeal.S11008x4096.Idx → EReal)
    (x3 : Cert.ReferenceIdeal.S4096x11008.Idx → EReal) (x4 : Cert.ReferenceIdeal.S11008.Idx → EReal) :
    Cert.ReferenceIdeal.ReadP.val_main_v89 (F := Ideal) x0 x1 x2 x3 x4
      = Cert.Mlp.DN (Cert.Mlp.HQ (Cert.Mlp.GU (Cert.Mlp.XQ x0) (Cert.ReferenceIdeal.ReadP.val_main_v22 (F := Ideal) x1)
          (Cert.ReferenceIdeal.ReadP.val_main_v48 (F := Ideal) x2)) x4) (Cert.ReferenceIdeal.ReadP.val_main_v87 (F := Ideal) x3) := by
  rw [Cert.Mlp.Ref.dn_eq, Cert.Mlp.Ref.hq_eq, Cert.Mlp.Ref.gu_eq]

/-- The kernels' result buffer holds the same composed function of the launch memory. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W23 m ρ c (Proc.devRef .tc Cert.KernelIdeal.main_v39) : Cert.KernelIdeal.S4096x4096.Idx → EReal)
      = Cert.ReferenceIdeal.ReadP.val_main_v89 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  rw [ref_value, Cert.Mlp.KV.out_eq m ρ c]
  show Cert.Mlp.DN (Cert.Mlp.HQ (Cert.Mlp.GU _ (Cert.KernelIdeal.Gen.W19 m ρ c (Proc.devRef .tc Cert.KernelIdeal.main_v11))
      (Cert.KernelIdeal.Gen.W19 m ρ c (Proc.devRef .tc Cert.KernelIdeal.main_v23))) _)
      (Cert.KernelIdeal.Gen.W19 m ρ c (Proc.devRef .tc Cert.KernelIdeal.main_v35)) = _
  rw [Cert.Mlp.HostW.wg_eq m ρ c, Cert.Mlp.HostW.wu_eq m ρ c, Cert.Mlp.HostW.wd_eq m ρ c]
  rfl

end Pieces

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunH.run (F := Ideal) m ρ)

/-- The ideal pass rewrote nothing: the idealised program is the kernel program's own text read at the extended reals. -/
theorem preserves : Cert.preserves_Kernel_KernelIdeal := trivial

/-- From memories agreeing on the arguments both programs run, and end with the one composed function of them. -/
theorem algebraic : Cert.algebraic_KernelIdeal_ReferenceIdeal := by
  intro m ρ m' ρ' _ hagree
  refine ⟨fun c => Cert.KernelIdeal.Gen.W23 m ρ c (Proc.devRef .tc Cert.KernelIdeal.main_v39),
    Cert.KernelIdeal.RunNamed.run_named (F := Ideal) m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2.1, (hagree c).2.2.2.1, (hagree c).2.2.2.2]
  exact (Pieces.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
